-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v38)) (v1 : (c : Dev Cert.KernelIdeal.nD) → Buf (Elt Ideal) ((c.tc : Thread Cert.KernelIdeal.nD Cert.KernelIdeal.τ).loc Cert.KernelIdeal.main_v77)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v38) = v0 c
          ∧ r.2.mem ((c.tc : Thread Cert.KernelIdeal.nD Cert.KernelIdeal.τ).loc Cert.KernelIdeal.main_v77) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v48) = v0 c
          ∧ r.2.mem ((c.tc : Thread Cert.ReferenceIdeal.nD Cert.ReferenceIdeal.τ).loc Cert.ReferenceIdeal.main_v97) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S2x1200000 : Shape := ⟨2, ![2, 1200000]⟩
abbrev S2x600000 : Shape := ⟨2, ![2, 600000]⟩
abbrev S100000x64 : Shape := ⟨2, ![100000, 64]⟩
abbrev S64 : Shape := ⟨1, ![64]⟩
abbrev S50000x64 : Shape := ⟨2, ![50000, 64]⟩
abbrev S_ : Shape := ⟨0, ![]⟩
abbrev S1x1200000 : Shape := ⟨2, ![1, 1200000]⟩
abbrev S1200000 : Shape := ⟨1, ![1200000]⟩
abbrev S1x600000 : Shape := ⟨2, ![1, 600000]⟩
abbrev S600000 : Shape := ⟨1, ![600000]⟩

class Facts : Prop where
  bcast_S_S100000x64 : S_.BroadcastsInDim S100000x64 (![] : Fin 0 → Fin S100000x64.rank)
  reducesTo_S100000x64_S_d0_1 : S100000x64.ReducesTo [0, 1] S_
  h_S_ : 0 < S_.numel
  bcast_S_S64 : S_.BroadcastsInDim S64 (![] : Fin 0 → Fin S64.rank)
  reducesTo_S64_S_d0 : S64.ReducesTo [0] S_
  bcast_S_S50000x64 : S_.BroadcastsInDim S50000x64 (![] : Fin 0 → Fin S50000x64.rank)
  reducesTo_S50000x64_S_d0_1 : S50000x64.ReducesTo [0, 1] S_
  slices_S2x1200000_S1x1200000_1_0 : S2x1200000.Slices ![1, 0] S1x1200000
  shapeCasts_S1x1200000_S1200000 : S1x1200000.ShapeCasts S1200000
  bcast_S_S1200000 : S_.BroadcastsInDim S1200000 (![] : Fin 0 → Fin S1200000.rank)
  reducesTo_S1200000_S_d0 : S1200000.ReducesTo [0] S_
  slices_S2x600000_S1x600000_1_0 : S2x600000.Slices ![1, 0] S1x600000
  shapeCasts_S1x600000_S600000 : S1x600000.ShapeCasts S600000
  bcast_S_S600000 : S_.BroadcastsInDim S600000 (![] : Fin 0 → Fin S600000.rank)
  reducesTo_S600000_S_d0 : S600000.ReducesTo [0] S_

variable [Facts]

def fn_part2 {F : FTy → Type} [FloatOps F] (main_arg1 : IVec S2x600000 32) (main_v30 : IVec S_ 1) (main_v34 : IVec S600000 1) : IVec S_ 1 :=
  let main_c_11 : IVec S_ 1 := constantI S_ 1 1#1
  let main_v35 : IVec S_ 1 := (fun x v => Host.reduce IntOp.andi x v reducesTo_S600000_S_d0 h_S_) main_v34 main_c_11
  let main_v36 : IVec S_ 1 := andi main_v30 main_v35
  let main_v37 : IVec S1x600000 32 := (extractStridedSlice S1x600000 ![1, 0] · slices_S2x600000_S1x600000_1_0) main_arg1
  let main_v38 : IVec S600000 32 := shapeCast S600000 main_v37 shapeCasts_S1x600000_S600000
  let main_c_12 : IVec S_ 32 := constantI S_ 32 50000#32
  let main_v39 : IVec S600000 32 := broadcastInDim S600000 ![] bcast_S_S600000 main_c_12
  let main_v40 : IVec S600000 1 := cmpi .slt main_v38 main_v39
  let main_c_13 : IVec S_ 1 := constantI S_ 1 1#1
  let main_v41 : IVec S_ 1 := (fun x v => Host.reduce IntOp.andi x v reducesTo_S600000_S_d0 h_S_) main_v40 main_c_13
  let main_v42 : IVec S_ 1 := andi main_v36 main_v41
  main_v42

def fn_part1 {F : FTy → Type} [FloatOps F] (main_arg0 : IVec S2x1200000 32) (main_arg1 : IVec S2x600000 32) (main_v13 : IVec S_ 1) (main_v16 : IVec S64 1) : IVec S_ 1 :=
  let main_c_5 : IVec S_ 1 := constantI S_ 1 1#1
  let main_v17 : IVec S_ 1 := (fun x v => Host.reduce IntOp.andi x v reducesTo_S64_S_d0 h_S_) main_v16 main_c_5
  let main_v18 : IVec S_ 1 := andi main_v13 main_v17
  let main_v19 : IVec S1x1200000 32 := (extractStridedSlice S1x1200000 ![1, 0] · slices_S2x1200000_S1x1200000_1_0) main_arg0
  let main_v20 : IVec S1200000 32 := shapeCast S1200000 main_v19 shapeCasts_S1x1200000_S1200000
  let main_c_6 : IVec S_ 32 := constantI S_ 32 0#32
  let main_v21 : IVec S1200000 32 := broadcastInDim S1200000 ![] bcast_S_S1200000 main_c_6
  let main_v22 : IVec S1200000 1 := cmpi .sge main_v20 main_v21
  let main_c_7 : IVec S_ 1 := constantI S_ 1 1#1
  let main_v23 : IVec S_ 1 := (fun x v => Host.reduce IntOp.andi x v reducesTo_S1200000_S_d0 h_S_) main_v22 main_c_7
  let main_v24 : IVec S_ 1 := andi main_v18 main_v23
  let main_v25 : IVec S1x1200000 32 := (extractStridedSlice S1x1200000 ![1, 0] · slices_S2x1200000_S1x1200000_1_0) main_arg0
  let main_v26 : IVec S1200000 32 := shapeCast S1200000 main_v25 shapeCasts_S1x1200000_S1200000
  let main_c_8 : IVec S_ 32 := constantI S_ 32 100000#32
  let main_v27 : IVec S1200000 32 := broadcastInDim S1200000 ![] bcast_S_S1200000 main_c_8
  let main_v28 : IVec S1200000 1 := cmpi .slt main_v26 main_v27
  let main_c_9 : IVec S_ 1 := constantI S_ 1 1#1
  let main_v29 : IVec S_ 1 := (fun x v => Host.reduce IntOp.andi x v reducesTo_S1200000_S_d0 h_S_) main_v28 main_c_9
  let main_v30 : IVec S_ 1 := andi main_v24 main_v29
  let main_v31 : IVec S1x600000 32 := (extractStridedSlice S1x600000 ![1, 0] · slices_S2x600000_S1x600000_1_0) main_arg1
  let main_v32 : IVec S600000 32 := shapeCast S600000 main_v31 shapeCasts_S1x600000_S600000
  let main_c_10 : IVec S_ 32 := constantI S_ 32 0#32
  let main_v33 : IVec S600000 32 := broadcastInDim S600000 ![] bcast_S_S600000 main_c_10
  let main_v34 : IVec S600000 1 := cmpi .sge main_v32 main_v33
  fn_part2 (F := F) main_arg1 main_v30 main_v34

def fn {F : FTy → Type} [FloatOps F] (main_arg0 : IVec S2x1200000 32) (main_arg1 : IVec S2x600000 32) (main_arg2 : FVec F S100000x64 .f32) (main_arg3 : FVec F S64 .f32) (main_arg4 : FVec F S50000x64 .f32) (main_arg5 : FVec F S64 .f32) : IVec S_ 1 :=
  let main_v0 : FVec F S100000x64 .f32 := Host.absf main_arg2
  let main_cst : FVec F S_ .f32 := constant S_ .f32 0x7F800000#32
  let main_v1 : FVec F S100000x64 .f32 := broadcastInDim S100000x64 ![] bcast_S_S100000x64 main_cst
  let main_v2 : IVec S100000x64 1 := cmpf .olt main_v0 main_v1
  let main_c : IVec S_ 1 := constantI S_ 1 1#1
  let main_v3 : IVec S_ 1 := (fun x v => Host.reduce IntOp.andi x v reducesTo_S100000x64_S_d0_1 h_S_) main_v2 main_c
  let main_v4 : FVec F S64 .f32 := Host.absf main_arg3
  let main_cst_0 : FVec F S_ .f32 := constant S_ .f32 0x7F800000#32
  let main_v5 : FVec F S64 .f32 := broadcastInDim S64 ![] bcast_S_S64 main_cst_0
  let main_v6 : IVec S64 1 := cmpf .olt main_v4 main_v5
  let main_c_1 : IVec S_ 1 := constantI S_ 1 1#1
  let main_v7 : IVec S_ 1 := (fun x v => Host.reduce IntOp.andi x v reducesTo_S64_S_d0 h_S_) main_v6 main_c_1
  let main_v8 : IVec S_ 1 := andi main_v3 main_v7
  let main_v9 : FVec F S50000x64 .f32 := Host.absf main_arg4
  let main_cst_2 : FVec F S_ .f32 := constant S_ .f32 0x7F800000#32
  let main_v10 : FVec F S50000x64 .f32 := broadcastInDim S50000x64 ![] bcast_S_S50000x64 main_cst_2
  let main_v11 : IVec S50000x64 1 := cmpf .olt main_v9 main_v10
  let main_c_3 : IVec S_ 1 := constantI S_ 1 1#1
  let main_v12 : IVec S_ 1 := (fun x v => Host.reduce IntOp.andi x v reducesTo_S50000x64_S_d0_1 h_S_) main_v11 main_c_3
  let main_v13 : IVec S_ 1 := andi main_v8 main_v12
  let main_v14 : FVec F S64 .f32 := Host.absf main_arg5
  let main_cst_4 : FVec F S_ .f32 := constant S_ .f32 0x7F800000#32
  let main_v15 : FVec F S64 .f32 := broadcastInDim S64 ![] bcast_S_S64 main_cst_4
  let main_v16 : IVec S64 1 := cmpf .olt main_v14 main_v15
  fn_part1 (F := F) main_arg0 main_arg1 main_v13 main_v16
-- ==== Kernel.lean ====
abbrev S2x1200000 : Shape := ⟨2, ![2, 1200000]⟩
abbrev S2x600000 : Shape := ⟨2, ![2, 600000]⟩
abbrev S100000x64 : Shape := ⟨2, ![100000, 64]⟩
abbrev S64 : Shape := ⟨1, ![64]⟩
abbrev S50000x64 : Shape := ⟨2, ![50000, 64]⟩
abbrev S100000 : Shape := ⟨1, ![100000]⟩
abbrev S1x1200000 : Shape := ⟨2, ![1, 1200000]⟩
abbrev S1200000 : Shape := ⟨1, ![1200000]⟩
abbrev S1300000 : Shape := ⟨1, ![1300000]⟩
abbrev S_ : Shape := ⟨0, ![]⟩
abbrev S1300000x1 : Shape := ⟨2, ![1300000, 1]⟩
abbrev S1300480 : Shape := ⟨1, ![1300480]⟩
abbrev S1300480x64 : Shape := ⟨2, ![1300480, 64]⟩
abbrev S2048 : Shape := ⟨1, ![2048]⟩
abbrev S2048x64 : Shape := ⟨2, ![2048, 64]⟩
abbrev S1x2000 : Shape := ⟨2, ![1, 2000]⟩
abbrev S2048x1 : Shape := ⟨2, ![2048, 1]⟩
abbrev S2048x2000 : Shape := ⟨2, ![2048, 2000]⟩
abbrev S2000x64 : Shape := ⟨2, ![2000, 64]⟩
abbrev S1x64 : Shape := ⟨2, ![1, 64]⟩
abbrev S2000x1 : Shape := ⟨2, ![2000, 1]⟩
abbrev S1x2048 : Shape := ⟨2, ![1, 2048]⟩
abbrev S2000x2048 : Shape := ⟨2, ![2000, 2048]⟩
abbrev S50000 : Shape := ⟨1, ![50000]⟩
abbrev S1x600000 : Shape := ⟨2, ![1, 600000]⟩
abbrev S600000 : Shape := ⟨1, ![600000]⟩
abbrev S650000 : Shape := ⟨1, ![650000]⟩
abbrev S650000x1 : Shape := ⟨2, ![650000, 1]⟩
abbrev S651264 : Shape := ⟨1, ![651264]⟩
abbrev S651264x64 : Shape := ⟨2, ![651264, 64]⟩

abbrev nBuf : Space → Nat
  | .hbm => 118
  | .vmem => 30
  | .smem => 0
  | _ => 0

abbrev bufTy : (tb : Table) → Fin (tcTables nBuf tb) → BufTy
  | .hbm, ⟨0, _⟩ => ⟨S2x1200000, .i32⟩
  | .hbm, ⟨1, _⟩ => ⟨S2x600000, .i32⟩
  | .hbm, ⟨2, _⟩ => ⟨S100000x64, .f32⟩
  | .hbm, ⟨3, _⟩ => ⟨S64, .f32⟩
  | .hbm, ⟨4, _⟩ => ⟨S50000x64, .f32⟩
  | .hbm, ⟨5, _⟩ => ⟨S64, .f32⟩
  | .hbm, ⟨6, _⟩ => ⟨S100000, .i32⟩
  | .hbm, ⟨7, _⟩ => ⟨S1x1200000, .i32⟩
  | .hbm, ⟨8, _⟩ => ⟨S1200000, .i32⟩
  | .hbm, ⟨9, _⟩ => ⟨S1300000, .i32⟩
  | .hbm, ⟨10, _⟩ => ⟨S1x1200000, .i32⟩
  | .hbm, ⟨11, _⟩ => ⟨S1200000, .i32⟩
  | .hbm, ⟨12, _⟩ => ⟨S1300000, .i32⟩
  | .hbm, ⟨13, _⟩ => ⟨S_, .f32⟩
  | .hbm, ⟨14, _⟩ => ⟨S1300000, .f32⟩
  | .hbm, ⟨15, _⟩ => ⟨S_, .f32⟩
  | .hbm, ⟨16, _⟩ => ⟨S100000, .f32⟩
  | .hbm, ⟨17, _⟩ => ⟨S1300000x1, .i32⟩
  | .hbm, ⟨18, _⟩ => ⟨S100000, .f32⟩
  | .hbm, ⟨19, _⟩ => ⟨S_, .f32⟩
  | .hbm, ⟨20, _⟩ => ⟨S100000, .f32⟩
  | .hbm, ⟨21, _⟩ => ⟨S100000, .i1⟩
  | .hbm, ⟨22, _⟩ => ⟨S_, .f32⟩
  | .hbm, ⟨23, _⟩ => ⟨S100000, .f32⟩
  | .hbm, ⟨24, _⟩ => ⟨S100000, .f32⟩
  | .hbm, ⟨25, _⟩ => ⟨S100000, .f32⟩
  | .hbm, ⟨26, _⟩ => ⟨S_, .f32⟩
  | .hbm, ⟨27, _⟩ => ⟨S_, .f32⟩
  | .hbm, ⟨28, _⟩ => ⟨S100000, .f32⟩
  | .hbm, ⟨29, _⟩ => ⟨S100000, .f32⟩
  | .hbm, ⟨30, _⟩ => ⟨S_, .i32⟩
  | .hbm, ⟨31, _⟩ => ⟨S1300000, .i32⟩
  | .hbm, ⟨32, _⟩ => ⟨S1300000, .i1⟩
  | .hbm, ⟨33, _⟩ => ⟨S_, .i32⟩
  | .hbm, ⟨34, _⟩ => ⟨S1300000, .i32⟩
  | .hbm, ⟨35, _⟩ => ⟨S1300000, .i32⟩
  | .hbm, ⟨36, _⟩ => ⟨S1300000, .i32⟩
  | .hbm, ⟨37, _⟩ => ⟨S1300000x1, .i32⟩
  | .hbm, ⟨38, _⟩ => ⟨S1300000, .f32⟩
  | .hbm, ⟨39, _⟩ => ⟨S_, .i32⟩
  | .hbm, ⟨40, _⟩ => ⟨S1300000, .i32⟩
  | .hbm, ⟨41, _⟩ => ⟨S1300000, .i1⟩
  | .hbm, ⟨42, _⟩ => ⟨S_, .i32⟩
  | .hbm, ⟨43, _⟩ => ⟨S1300000, .i32⟩
  | .hbm, ⟨44, _⟩ => ⟨S1300000, .i32⟩
  | .hbm, ⟨45, _⟩ => ⟨S1300000, .i32⟩
  | .hbm, ⟨46, _⟩ => ⟨S1300000x1, .i32⟩
  | .hbm, ⟨47, _⟩ => ⟨S1300000, .f32⟩
  | .hbm, ⟨48, _⟩ => ⟨S1300000, .f32⟩
  | .hbm, ⟨49, _⟩ => ⟨S_, .i32⟩
  | .hbm, ⟨50, _⟩ => ⟨S_, .i32⟩
  | .hbm, ⟨51, _⟩ => ⟨S1300480, .i32⟩
  | .hbm, ⟨52, _⟩ => ⟨S_, .i32⟩
  | .hbm, ⟨53, _⟩ => ⟨S_, .i32⟩
  | .hbm, ⟨54, _⟩ => ⟨S1300480, .i32⟩
  | .hbm, ⟨55, _⟩ => ⟨S_, .i32⟩
  | .hbm, ⟨56, _⟩ => ⟨S_, .f32⟩
  | .hbm, ⟨57, _⟩ => ⟨S1300480, .f32⟩
  | .hbm, ⟨58, _⟩ => ⟨S100000x64, .bf16⟩
  | .hbm, ⟨59, _⟩ => ⟨S1300480x64, .f32⟩
  | .hbm, ⟨60, _⟩ => ⟨S1x64, .f32⟩
  | .hbm, ⟨61, _⟩ => ⟨S100000x64, .f32⟩
  | .hbm, ⟨62, _⟩ => ⟨S50000, .i32⟩
  | .hbm, ⟨63, _⟩ => ⟨S1x600000, .i32⟩
  | .hbm, ⟨64, _⟩ => ⟨S600000, .i32⟩
  | .hbm, ⟨65, _⟩ => ⟨S650000, .i32⟩
  | .hbm, ⟨66, _⟩ => ⟨S1x600000, .i32⟩
  | .hbm, ⟨67, _⟩ => ⟨S600000, .i32⟩
  | .hbm, ⟨68, _⟩ => ⟨S650000, .i32⟩
  | .hbm, ⟨69, _⟩ => ⟨S_, .f32⟩
  | .hbm, ⟨70, _⟩ => ⟨S650000, .f32⟩
  | .hbm, ⟨71, _⟩ => ⟨S_, .f32⟩
  | .hbm, ⟨72, _⟩ => ⟨S50000, .f32⟩
  | .hbm, ⟨73, _⟩ => ⟨S650000x1, .i32⟩
  | .hbm, ⟨74, _⟩ => ⟨S50000, .f32⟩
  | .hbm, ⟨75, _⟩ => ⟨S_, .f32⟩
  | .hbm, ⟨76, _⟩ => ⟨S50000, .f32⟩
  | .hbm, ⟨77, _⟩ => ⟨S50000, .i1⟩
  | .hbm, ⟨78, _⟩ => ⟨S_, .f32⟩
  | .hbm, ⟨79, _⟩ => ⟨S50000, .f32⟩
  | .hbm, ⟨80, _⟩ => ⟨S50000, .f32⟩
  | .hbm, ⟨81, _⟩ => ⟨S50000, .f32⟩
  | .hbm, ⟨82, _⟩ => ⟨S_, .f32⟩
  | .hbm, ⟨83, _⟩ => ⟨S_, .f32⟩
  | .hbm, ⟨84, _⟩ => ⟨S50000, .f32⟩
  | .hbm, ⟨85, _⟩ => ⟨S50000, .f32⟩
  | .hbm, ⟨86, _⟩ => ⟨S_, .i32⟩
  | .hbm, ⟨87, _⟩ => ⟨S650000, .i32⟩
  | .hbm, ⟨88, _⟩ => ⟨S650000, .i1⟩
  | .hbm, ⟨89, _⟩ => ⟨S_, .i32⟩
  | .hbm, ⟨90, _⟩ => ⟨S650000, .i32⟩
  | .hbm, ⟨91, _⟩ => ⟨S650000, .i32⟩
  | .hbm, ⟨92, _⟩ => ⟨S650000, .i32⟩
  | .hbm, ⟨93, _⟩ => ⟨S650000x1, .i32⟩
  | .hbm, ⟨94, _⟩ => ⟨S650000, .f32⟩
  | .hbm, ⟨95, _⟩ => ⟨S_, .i32⟩
  | .hbm, ⟨96, _⟩ => ⟨S650000, .i32⟩
  | .hbm, ⟨97, _⟩ => ⟨S650000, .i1⟩
  | .hbm, ⟨98, _⟩ => ⟨S_, .i32⟩
  | .hbm, ⟨99, _⟩ => ⟨S650000, .i32⟩
  | .hbm, ⟨100, _⟩ => ⟨S650000, .i32⟩
  | .hbm, ⟨101, _⟩ => ⟨S650000, .i32⟩
  | .hbm, ⟨102, _⟩ => ⟨S650000x1, .i32⟩
  | .hbm, ⟨103, _⟩ => ⟨S650000, .f32⟩
  | .hbm, ⟨104, _⟩ => ⟨S650000, .f32⟩
  | .hbm, ⟨105, _⟩ => ⟨S_, .i32⟩
  | .hbm, ⟨106, _⟩ => ⟨S_, .i32⟩
  | .hbm, ⟨107, _⟩ => ⟨S651264, .i32⟩
  | .hbm, ⟨108, _⟩ => ⟨S_, .i32⟩
  | .hbm, ⟨109, _⟩ => ⟨S_, .i32⟩
  | .hbm, ⟨110, _⟩ => ⟨S651264, .i32⟩
  | .hbm, ⟨111, _⟩ => ⟨S_, .i32⟩
  | .hbm, ⟨112, _⟩ => ⟨S_, .f32⟩
  | .hbm, ⟨113, _⟩ => ⟨S651264, .f32⟩
  | .hbm, ⟨114, _⟩ => ⟨S50000x64, .bf16⟩
  | .hbm, ⟨115, _⟩ => ⟨S651264x64, .f32⟩
  | .hbm, ⟨116, _⟩ => ⟨S1x64, .f32⟩
  | .hbm, ⟨117, _⟩ => ⟨S50000x64, .f32⟩
  | .local _ .vmem, ⟨0, _⟩ => ⟨S2048, .i32⟩
  | .local _ .vmem, ⟨1, _⟩ => ⟨S2048, .i32⟩
  | .local _ .vmem, ⟨2, _⟩ => ⟨S2048, .f32⟩
  | .local _ .vmem, ⟨3, _⟩ => ⟨S2048, .f32⟩
  | .local _ .vmem, ⟨4, _⟩ => ⟨S100000x64, .bf16⟩
  | .local _ .vmem, ⟨5, _⟩ => ⟨S2048x64, .f32⟩
  | .local _ .vmem, ⟨6, _⟩ => ⟨S2048x64, .f32⟩
  | .local _ .vmem, ⟨7, _⟩ => ⟨S2048x64, .f32⟩
  | .local _ .vmem, ⟨8, _⟩ => ⟨S2048, .i32⟩
  | .local _ .vmem, ⟨9, _⟩ => ⟨S2048, .i32⟩
  | .local _ .vmem, ⟨10, _⟩ => ⟨S2048x64, .f32⟩
  | .local _ .vmem, ⟨11, _⟩ => ⟨S2048x64, .f32⟩
  | .local _ .vmem, ⟨12, _⟩ => ⟨S1x64, .f32⟩
  | .local _ .vmem, ⟨13, _⟩ => ⟨S2000x64, .f32⟩
  | .local _ .vmem, ⟨14, _⟩ => ⟨S2000x64, .f32⟩
  | .local _ .vmem, ⟨15, _⟩ => ⟨S2048, .i32⟩
  | .local _ .vmem, ⟨16, _⟩ => ⟨S2048, .i32⟩
  | .local _ .vmem, ⟨17, _⟩ => ⟨S2048, .f32⟩
  | .local _ .vmem, ⟨18, _⟩ => ⟨S2048, .f32⟩
  | .local _ .vmem, ⟨19, _⟩ => ⟨S50000x64, .bf16⟩
  | .local _ .vmem, ⟨20, _⟩ => ⟨S2048x64, .f32⟩
  | .local _ .vmem, ⟨21, _⟩ => ⟨S2048x64, .f32⟩
  | .local _ .vmem, ⟨22, _⟩ => ⟨S2048x64, .f32⟩
  | .local _ .vmem, ⟨23, _⟩ => ⟨S2048, .i32⟩
  | .local _ .vmem, ⟨24, _⟩ => ⟨S2048, .i32⟩
  | .local _ .vmem, ⟨25, _⟩ => ⟨S2048x64, .f32⟩
  | .local _ .vmem, ⟨26, _⟩ => ⟨S2048x64, .f32⟩
  | .local _ .vmem, ⟨27, _⟩ => ⟨S1x64, .f32⟩
  | .local _ .vmem, ⟨28, _⟩ => ⟨S2000x64, .f32⟩
  | .local _ .vmem, ⟨29, _⟩ => ⟨S2000x64, .f32⟩
  | _, _ => ⟨S2x1200000, .i32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | _, _ => false

abbrev semScoped : Fin 0 → Bool
  | ⟨_, h⟩ => absurd h (Nat.not_lt_zero _)

abbrev dmaSemScoped : Fin 28 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | _ => false

abbrev sig : RefSig :=
  ofTc nBuf bufTy 0 28 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_cst : Ref sig .tc := ⟨.hbm, 13, rfl⟩
abbrev main_v7 : Ref sig .tc := ⟨.hbm, 14, rfl⟩
abbrev main_cst_0 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_1 : Ref sig .tc := ⟨.hbm, 19, rfl⟩
abbrev main_v11 : Ref sig .tc := ⟨.hbm, 20, rfl⟩
abbrev main_v12 : Ref sig .tc := ⟨.hbm, 21, rfl⟩
abbrev main_cst_2 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_3 : Ref sig .tc := ⟨.hbm, 26, rfl⟩
abbrev main_call0_v0 : Ref sig .tc := ⟨.hbm, 27, rfl⟩
abbrev main_call0_v1 : Ref sig .tc := ⟨.hbm, 28, rfl⟩
abbrev main_v16 : Ref sig .tc := ⟨.hbm, 29, rfl⟩
abbrev main_c : Ref sig .tc := ⟨.hbm, 30, rfl⟩
abbrev main_v17 : Ref sig .tc := ⟨.hbm, 31, rfl⟩
abbrev main_v18 : Ref sig .tc := ⟨.hbm, 32, rfl⟩
abbrev main_c_4 : Ref sig .tc := ⟨.hbm, 33, rfl⟩
abbrev main_v19 : Ref sig .tc := ⟨.hbm, 34, rfl⟩
abbrev main_v20 : Ref sig .tc := ⟨.hbm, 35, rfl⟩
abbrev main_v21 : Ref sig .tc := ⟨.hbm, 36, rfl⟩
abbrev main_v22 : Ref sig .tc := ⟨.hbm, 37, rfl⟩
abbrev main_v23 : Ref sig .tc := ⟨.hbm, 38, rfl⟩
abbrev main_c_5 : Ref sig .tc := ⟨.hbm, 39, rfl⟩
abbrev main_v24 : Ref sig .tc := ⟨.hbm, 40, rfl⟩
abbrev main_v25 : Ref sig .tc := ⟨.hbm, 41, rfl⟩
abbrev main_c_6 : Ref sig .tc := ⟨.hbm, 42, rfl⟩
abbrev main_v26 : Ref sig .tc := ⟨.hbm, 43, rfl⟩
abbrev main_v27 : Ref sig .tc := ⟨.hbm, 44, rfl⟩
abbrev main_v28 : Ref sig .tc := ⟨.hbm, 45, rfl⟩
abbrev main_v29 : Ref sig .tc := ⟨.hbm, 46, rfl⟩
abbrev main_v30 : Ref sig .tc := ⟨.hbm, 47, rfl⟩
abbrev main_v31 : Ref sig .tc := ⟨.hbm, 48, rfl⟩
abbrev main_c_7 : Ref sig .tc := ⟨.hbm, 49, rfl⟩
abbrev main_call1_v0 : Ref sig .tc := ⟨.hbm, 50, rfl⟩
abbrev main_v32 : Ref sig .tc := ⟨.hbm, 51, rfl⟩
abbrev main_c_8 : Ref sig .tc := ⟨.hbm, 52, rfl⟩
abbrev main_call2_v0 : Ref sig .tc := ⟨.hbm, 53, rfl⟩
abbrev main_v33 : Ref sig .tc := ⟨.hbm, 54, rfl⟩
abbrev main_c_9 : Ref sig .tc := ⟨.hbm, 55, rfl⟩
abbrev main_call3_v0 : Ref sig .tc := ⟨.hbm, 56, rfl⟩
abbrev main_v34 : Ref sig .tc := ⟨.hbm, 57, rfl⟩
abbrev main_v35 : Ref sig .tc := ⟨.hbm, 58, rfl⟩
abbrev main_v36 : Ref sig .tc := ⟨.hbm, 59, rfl⟩
abbrev main_v37 : Ref sig .tc := ⟨.hbm, 60, rfl⟩
abbrev main_v38 : Ref sig .tc := ⟨.hbm, 61, rfl⟩
abbrev main_v39 : Ref sig .tc := ⟨.hbm, 62, rfl⟩
abbrev main_v40 : Ref sig .tc := ⟨.hbm, 63, rfl⟩
abbrev main_v41 : Ref sig .tc := ⟨.hbm, 64, rfl⟩
abbrev main_v42 : Ref sig .tc := ⟨.hbm, 65, rfl⟩
abbrev main_v43 : Ref sig .tc := ⟨.hbm, 66, rfl⟩
abbrev main_v44 : Ref sig .tc := ⟨.hbm, 67, rfl⟩
abbrev main_v45 : Ref sig .tc := ⟨.hbm, 68, rfl⟩
abbrev main_cst_10 : Ref sig .tc := ⟨.hbm, 69, rfl⟩
abbrev main_v46 : Ref sig .tc := ⟨.hbm, 70, rfl⟩
abbrev main_cst_11 : Ref sig .tc := ⟨.hbm, 71, rfl⟩
abbrev main_v47 : Ref sig .tc := ⟨.hbm, 72, rfl⟩
abbrev main_v48 : Ref sig .tc := ⟨.hbm, 73, rfl⟩
abbrev main_v49 : Ref sig .tc := ⟨.hbm, 74, rfl⟩
abbrev main_cst_12 : Ref sig .tc := ⟨.hbm, 75, rfl⟩
abbrev main_v50 : Ref sig .tc := ⟨.hbm, 76, rfl⟩
abbrev main_v51 : Ref sig .tc := ⟨.hbm, 77, rfl⟩
abbrev main_cst_13 : Ref sig .tc := ⟨.hbm, 78, rfl⟩
abbrev main_v52 : Ref sig .tc := ⟨.hbm, 79, rfl⟩
abbrev main_v53 : Ref sig .tc := ⟨.hbm, 80, rfl⟩
abbrev main_v54 : Ref sig .tc := ⟨.hbm, 81, rfl⟩
abbrev main_cst_14 : Ref sig .tc := ⟨.hbm, 82, rfl⟩
abbrev main_call4_v0 : Ref sig .tc := ⟨.hbm, 83, rfl⟩
abbrev main_call4_v1 : Ref sig .tc := ⟨.hbm, 84, rfl⟩
abbrev main_v55 : Ref sig .tc := ⟨.hbm, 85, rfl⟩
abbrev main_c_15 : Ref sig .tc := ⟨.hbm, 86, rfl⟩
abbrev main_v56 : Ref sig .tc := ⟨.hbm, 87, rfl⟩
abbrev main_v57 : Ref sig .tc := ⟨.hbm, 88, rfl⟩
abbrev main_c_16 : Ref sig .tc := ⟨.hbm, 89, rfl⟩
abbrev main_v58 : Ref sig .tc := ⟨.hbm, 90, rfl⟩
abbrev main_v59 : Ref sig .tc := ⟨.hbm, 91, rfl⟩
abbrev main_v60 : Ref sig .tc := ⟨.hbm, 92, rfl⟩
abbrev main_v61 : Ref sig .tc := ⟨.hbm, 93, rfl⟩
abbrev main_v62 : Ref sig .tc := ⟨.hbm, 94, rfl⟩
abbrev main_c_17 : Ref sig .tc := ⟨.hbm, 95, rfl⟩
abbrev main_v63 : Ref sig .tc := ⟨.hbm, 96, rfl⟩
abbrev main_v64 : Ref sig .tc := ⟨.hbm, 97, rfl⟩
abbrev main_c_18 : Ref sig .tc := ⟨.hbm, 98, rfl⟩
abbrev main_v65 : Ref sig .tc := ⟨.hbm, 99, rfl⟩
abbrev main_v66 : Ref sig .tc := ⟨.hbm, 100, rfl⟩
abbrev main_v67 : Ref sig .tc := ⟨.hbm, 101, rfl⟩
abbrev main_v68 : Ref sig .tc := ⟨.hbm, 102, rfl⟩
abbrev main_v69 : Ref sig .tc := ⟨.hbm, 103, rfl⟩
abbrev main_v70 : Ref sig .tc := ⟨.hbm, 104, rfl⟩
abbrev main_c_19 : Ref sig .tc := ⟨.hbm, 105, rfl⟩
abbrev main_call5_v0 : Ref sig .tc := ⟨.hbm, 106, rfl⟩
abbrev main_v71 : Ref sig .tc := ⟨.hbm, 107, rfl⟩
abbrev main_c_20 : Ref sig .tc := ⟨.hbm, 108, rfl⟩
abbrev main_call6_v0 : Ref sig .tc := ⟨.hbm, 109, rfl⟩
abbrev main_v72 : Ref sig .tc := ⟨.hbm, 110, rfl⟩
abbrev main_c_21 : Ref sig .tc := ⟨.hbm, 111, rfl⟩
abbrev main_call7_v0 : Ref sig .tc := ⟨.hbm, 112, rfl⟩
abbrev main_v73 : Ref sig .tc := ⟨.hbm, 113, rfl⟩
abbrev main_v74 : Ref sig .tc := ⟨.hbm, 114, rfl⟩
abbrev main_v75 : Ref sig .tc := ⟨.hbm, 115, rfl⟩
abbrev main_v76 : Ref sig .tc := ⟨.hbm, 116, rfl⟩
abbrev main_v77 : Ref sig .tc := ⟨.hbm, 117, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg3_1 : Ref sig .tc := ⟨.vmem, 6, rfl⟩
abbrev cc0_scratch0 : Ref sig .tc := ⟨.vmem, 7, rfl⟩
abbrev cc1_stg0_0 : Ref sig .tc := ⟨.vmem, 8, rfl⟩
abbrev cc1_stg0_1 : Ref sig .tc := ⟨.vmem, 9, rfl⟩
abbrev cc1_stg1_0 : Ref sig .tc := ⟨.vmem, 10, rfl⟩
abbrev cc1_stg1_1 : Ref sig .tc := ⟨.vmem, 11, rfl⟩
abbrev cc1_stg2_0 : Ref sig .tc := ⟨.vmem, 12, rfl⟩
abbrev cc1_stg3_0 : Ref sig .tc := ⟨.vmem, 13, rfl⟩
abbrev cc1_stg3_1 : Ref sig .tc := ⟨.vmem, 14, rfl⟩
abbrev cc2_stg0_0 : Ref sig .tc := ⟨.vmem, 15, rfl⟩
abbrev cc2_stg0_1 : Ref sig .tc := ⟨.vmem, 16, rfl⟩
abbrev cc2_stg1_0 : Ref sig .tc := ⟨.vmem, 17, rfl⟩
abbrev cc2_stg1_1 : Ref sig .tc := ⟨.vmem, 18, rfl⟩
abbrev cc2_stg2_0 : Ref sig .tc := ⟨.vmem, 19, rfl⟩
abbrev cc2_stg3_0 : Ref sig .tc := ⟨.vmem, 20, rfl⟩
abbrev cc2_stg3_1 : Ref sig .tc := ⟨.vmem, 21, rfl⟩
abbrev cc2_scratch0 : Ref sig .tc := ⟨.vmem, 22, rfl⟩
abbrev cc3_stg0_0 : Ref sig .tc := ⟨.vmem, 23, rfl⟩
abbrev cc3_stg0_1 : Ref sig .tc := ⟨.vmem, 24, rfl⟩
abbrev cc3_stg1_0 : Ref sig .tc := ⟨.vmem, 25, rfl⟩
abbrev cc3_stg1_1 : Ref sig .tc := ⟨.vmem, 26, rfl⟩
abbrev cc3_stg2_0 : Ref sig .tc := ⟨.vmem, 27, rfl⟩
abbrev cc3_stg3_0 : Ref sig .tc := ⟨.vmem, 28, rfl⟩
abbrev cc3_stg3_1 : Ref sig .tc := ⟨.vmem, 29, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem3_1 : DmaSem sig := 6
abbrev cc1_sem0_0 : DmaSem sig := 7
abbrev cc1_sem0_1 : DmaSem sig := 8
abbrev cc1_sem1_0 : DmaSem sig := 9
abbrev cc1_sem1_1 : DmaSem sig := 10
abbrev cc1_sem2_0 : DmaSem sig := 11
abbrev cc1_sem3_0 : DmaSem sig := 12
abbrev cc1_sem3_1 : DmaSem sig := 13
abbrev cc2_sem0_0 : DmaSem sig := 14
abbrev cc2_sem0_1 : DmaSem sig := 15
abbrev cc2_sem1_0 : DmaSem sig := 16
abbrev cc2_sem1_1 : DmaSem sig := 17
abbrev cc2_sem2_0 : DmaSem sig := 18
abbrev cc2_sem3_0 : DmaSem sig := 19
abbrev cc2_sem3_1 : DmaSem sig := 20
abbrev cc3_sem0_0 : DmaSem sig := 21
abbrev cc3_sem0_1 : DmaSem sig := 22
abbrev cc3_sem1_0 : DmaSem sig := 23
abbrev cc3_sem1_1 : DmaSem sig := 24
abbrev cc3_sem2_0 : DmaSem sig := 25
abbrev cc3_sem3_0 : DmaSem sig := 26
abbrev cc3_sem3_1 : DmaSem sig := 27

abbrev nD : Nat := 1
abbrev τ : Topo := Topo.v7x

variable {F : FTy → Type} [FloatOps F]

abbrev grid0 : Pipeline.Grid := ⟨1, ![635], ![false]⟩

@[reducible] def k0_t1_loop : Scf.Loop 32 :=
  let c0_i32 : BitVec 32 := 0#32
  let c50_i32 : BitVec 32 := 50#32
  let v6 : BitVec 32 := Scalar.addi c0_i32 c50_i32
  let c1_i32 : BitVec 32 := 1#32
  ⟨c0_i32, v6, c1_i32⟩
def k0_mult1 (k0_t1 : Fin k0_t1_loop.trips) : BitVec 32 :=
  let c0_i32_9 : BitVec 32 := 0#32
  let c0_i32 : BitVec 32 := 0#32
  let c1_i32 : BitVec 32 := 1#32
  let arg6 : BitVec 32 := Scf.iv c0_i32 c1_i32 k0_t1
  let c1_i32_8 : BitVec 32 := 1#32
  let v14 : BitVec 32 := Scalar.muli arg6 c1_i32_8
  let v15 : BitVec 32 := Scalar.addi c0_i32_9 v14
  let c2000_i32 : BitVec 32 := 2000#32
  let v16 : BitVec 32 := Scalar.muli v15 c2000_i32
  v16
def k0_off1 (k0_t1 : Fin k0_t1_loop.trips) : Fin 2 → Nat :=
  let c0_i32_9 : BitVec 32 := 0#32
  let c0_i32 : BitVec 32 := 0#32
  let c1_i32 : BitVec 32 := 1#32
  let arg6 : BitVec 32 := Scf.iv c0_i32 c1_i32 k0_t1
  let c1_i32_8 : BitVec 32 := 1#32
  let v14 : BitVec 32 := Scalar.muli arg6 c1_i32_8
  let v15 : BitVec 32 := Scalar.addi c0_i32_9 v14
  let c2000_i32 : BitVec 32 := 2000#32
  let v16 : BitVec 32 := Scalar.muli v15 c2000_i32
  let v17 : BitVec 32 := v16
  let v28 : Index := Scalar.indexCast v17
  let c0_10 : Index := 0#32
  ![v28.toNat, 0]
def cc0_transform_0 (i : grid0.Coords) : Fin 1 → Nat :=
  let arg0 : BitVec 32 := BitVec.ofNat 32 (i 0).val
  let c0_i32 : BitVec 32 := 0#32
  ![arg0.toNat]

def cc0_transform_1 (i : grid0.Coords) : Fin 1 → Nat :=
  let arg0 : BitVec 32 := BitVec.ofNat 32 (i 0).val
  let c0_i32 : BitVec 32 := 0#32
  ![arg0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S2048 .i32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S2048 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S100000x64 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S2048x64 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev grid1 : Pipeline.Grid := ⟨2, ![50, 635], ![false, false]⟩

def cc1_transform_0 (i : grid1.Coords) : Fin 1 → Nat :=
  let arg0 : BitVec 32 := BitVec.ofNat 32 (i 0).val
  let arg1 : BitVec 32 := BitVec.ofNat 32 (i 1).val
  let c0_i32 : BitVec 32 := 0#32
  ![arg1.toNat]

def cc1_transform_1 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc1_transform_2 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage1_0 : Fin 2 → Memref sig .tc .vmem S2048 .i32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![false, true]

abbrev stage1_1 : Fin 2 → Memref sig .tc .vmem S2048x64 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![false, true]

abbrev stage1_2 : Fin 1 → Memref sig .tc .vmem S1x64 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false, false]

abbrev stage1_3 : Fin 2 → Memref sig .tc .vmem S2000x64 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true, false]

abbrev grid2 : Pipeline.Grid := ⟨1, ![318], ![false]⟩

@[reducible] def k2_t1_loop : Scf.Loop 32 :=
  let c0_i32 : BitVec 32 := 0#32
  let c25_i32 : BitVec 32 := 25#32
  let v6 : BitVec 32 := Scalar.addi c0_i32 c25_i32
  let c1_i32 : BitVec 32 := 1#32
  ⟨c0_i32, v6, c1_i32⟩
def k2_mult1 (k2_t1 : Fin k2_t1_loop.trips) : BitVec 32 :=
  let c0_i32_9 : BitVec 32 := 0#32
  let c0_i32 : BitVec 32 := 0#32
  let c1_i32 : BitVec 32 := 1#32
  let arg6 : BitVec 32 := Scf.iv c0_i32 c1_i32 k2_t1
  let c1_i32_8 : BitVec 32 := 1#32
  let v14 : BitVec 32 := Scalar.muli arg6 c1_i32_8
  let v15 : BitVec 32 := Scalar.addi c0_i32_9 v14
  let c2000_i32 : BitVec 32 := 2000#32
  let v16 : BitVec 32 := Scalar.muli v15 c2000_i32
  v16
def k2_off1 (k2_t1 : Fin k2_t1_loop.trips) : Fin 2 → Nat :=
  let c0_i32_9 : BitVec 32 := 0#32
  let c0_i32 : BitVec 32 := 0#32
  let c1_i32 : BitVec 32 := 1#32
  let arg6 : BitVec 32 := Scf.iv c0_i32 c1_i32 k2_t1
  let c1_i32_8 : BitVec 32 := 1#32
  let v14 : BitVec 32 := Scalar.muli arg6 c1_i32_8
  let v15 : BitVec 32 := Scalar.addi c0_i32_9 v14
  let c2000_i32 : BitVec 32 := 2000#32
  let v16 : BitVec 32 := Scalar.muli v15 c2000_i32
  let v17 : BitVec 32 := v16
  let v28 : Index := Scalar.indexCast v17
  let c0_10 : Index := 0#32
  ![v28.toNat, 0]
def cc2_transform_0 (i : grid2.Coords) : Fin 1 → Nat :=
  let arg0 : BitVec 32 := BitVec.ofNat 32 (i 0).val
  let c0_i32 : BitVec 32 := 0#32
  ![arg0.toNat]

def cc2_transform_1 (i : grid2.Coords) : Fin 1 → Nat :=
  let arg0 : BitVec 32 := BitVec.ofNat 32 (i 0).val
  let c0_i32 : BitVec 32 := 0#32
  ![arg0.toNat]

def cc2_transform_2 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S2048 .i32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 2 → Memref sig .tc .vmem S2048 .f32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true]

abbrev stage2_2 : Fin 1 → Memref sig .tc .vmem S50000x64 .bf16 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 2 → Memref sig .tc .vmem S2048x64 .f32 := fun | 0 => Memref.whole cc2_stg3_0 | 1 => Memref.whole cc2_stg3_1 | ⟨_ + 2, h⟩ => absurd h (Nat.not_lt.2 (Nat.le_add_left _ _))
abbrev sem2_3 : Fin 2 → DmaSem sig := fun | 0 => cc2_sem3_0 | 1 => cc2_sem3_1 | ⟨_ + 2, h⟩ => absurd h (Nat.not_lt.2 (Nat.le_add_left _ _))
abbrev reads2_3 : Fin grid2.rank → Bool := ![true]

abbrev grid3 : Pipeline.Grid := ⟨2, ![25, 318], ![false, false]⟩

def cc3_transform_0 (i : grid3.Coords) : Fin 1 → Nat :=
  let arg0 : BitVec 32 := BitVec.ofNat 32 (i 0).val
  let arg1 : BitVec 32 := BitVec.ofNat 32 (i 1).val
  let c0_i32 : BitVec 32 := 0#32
  ![arg1.toNat]

def cc3_transform_1 (i : grid3.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc3_transform_2 (i : grid3.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc3_transform_3 (i : grid3.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage3_0 : Fin 2 → Memref sig .tc .vmem S2048 .i32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![false, true]

abbrev stage3_1 : Fin 2 → Memref sig .tc .vmem S2048x64 .f32 := fun | 0 => Memref.whole cc3_stg1_0 | 1 => Memref.whole cc3_stg1_1 | ⟨_ + 2, h⟩ => absurd h (Nat.not_lt.2 (Nat.le_add_left _ _))
abbrev sem3_1 : Fin 2 → DmaSem sig := fun | 0 => cc3_sem1_0 | 1 => cc3_sem1_1 | ⟨_ + 2, h⟩ => absurd h (Nat.not_lt.2 (Nat.le_add_left _ _))
abbrev reads3_1 : Fin grid3.rank → Bool := ![false, true]

abbrev stage3_2 : Fin 1 → Memref sig .tc .vmem S1x64 .f32 := fun | 0 => Memref.whole cc3_stg2_0 | ⟨_ + 1, h⟩ => absurd h (Nat.not_lt.2 (Nat.le_add_left _ _))
abbrev sem3_2 : Fin 1 → DmaSem sig := fun | 0 => cc3_sem2_0 | ⟨_ + 1, h⟩ => absurd h (Nat.not_lt.2 (Nat.le_add_left _ _))
abbrev reads3_2 : Fin grid3.rank → Bool := ![false, false]

abbrev stage3_3 : Fin 2 → Memref sig .tc .vmem S2000x64 .f32 := fun | 0 => Memref.whole cc3_stg3_0 | 1 => Memref.whole cc3_stg3_1 | ⟨_ + 2, h⟩ => absurd h (Nat.not_lt.2 (Nat.le_add_left _ _))
abbrev sem3_3 : Fin 2 → DmaSem sig := fun | 0 => cc3_sem3_0 | 1 => cc3_sem3_1 | ⟨_ + 2, h⟩ => absurd h (Nat.not_lt.2 (Nat.le_add_left _ _))
abbrev reads3_3 : Fin grid3.rank → Bool := ![true, false]

class Facts₀ : Prop where
  slices_S2x1200000_S1x1200000_0_0 : S2x1200000.Slices ![0, 0] S1x1200000
  shapeCasts_S1x1200000_S1200000 : S1x1200000.ShapeCasts S1200000
  concatenates_S1200000_S100000_S1300000_d0 : Shape.Concatenates [S1200000, S100000] S1300000 0
  slices_S2x1200000_S1x1200000_1_0 : S2x1200000.Slices ![1, 0] S1x1200000
  bcast_S_S1300000 : S_.BroadcastsInDim S1300000 (![] : Fin 0 → Fin S1300000.rank)
  bcast_S_S100000 : S_.BroadcastsInDim S100000 (![] : Fin 0 → Fin S100000.rank)
  bcast_S1300000_S1300000x1_0 : S1300000.BroadcastsInDim S1300000x1 (![0] : Fin 1 → Fin S1300000x1.rank)
  pads_S1300000_S1300480_04800 : S1300000.Pads (![0] : Fin 1 → Nat) ![480] ![0] S1300480
  h_S_ : 0 < S_.numel
  bitsLt_bf16_f32 : FTy.bits .bf16 < FTy.bits .f32
  inb_S2048x64_S2048x64_0_0 : ∀ a, (![0, 0] : Fin 2 → Nat) a + S2048x64.size a ≤ S2048x64.size a
  h_S2048x64 : 0 < S2048x64.numel
  shapeCasts_S2048x64_S2048x64 : S2048x64.ShapeCasts S2048x64
  inb_S2048_S2048_0 : ∀ a, (![0] : Fin 1 → Nat) a + S2048.size a ≤ S2048.size a
  h_S2048 : 0 < S2048.numel
  shapeCasts_S2048_S2048 : S2048.ShapeCasts S2048
  iota_S1x2000_d1_w32 : S1x2000.Iotas .tc 32 [1]
  shapeCasts_S2048_S2048x1 : S2048.ShapeCasts S2048x1
  broadcasts_S2048x1_S2048x2000 : S2048x1.Broadcasts S2048x2000
  broadcasts_S1x2000_S2048x2000 : S1x2000.Broadcasts S2048x2000
  natLt_1_32 : 1 < 32
  h_S2000x64 : 0 < S2000x64.numel
  shapeCasts_S2000x64_S2000x64 : S2000x64.ShapeCasts S2000x64
  broadcasts_S2048x1_S2048x64 : S2048x1.Broadcasts S2048x64
  shapeCasts_S64_S1x64 : S64.ShapeCasts S1x64
  inb_S2000x64_S2000x64_0_0 : ∀ a, (![0, 0] : Fin 2 → Nat) a + S2000x64.size a ≤ S2000x64.size a
  iota_S2000x1_d0_w32 : S2000x1.Iotas .tc 32 [0]
  shapeCasts_S2048_S1x2048 : S2048.ShapeCasts S1x2048
  broadcasts_S2000x1_S2000x2048 : S2000x1.Broadcasts S2000x2048
  broadcasts_S1x2048_S2000x2048 : S1x2048.Broadcasts S2000x2048
  inb_S1x64_S1x64_0_0 : ∀ a, (![0, 0] : Fin 2 → Nat) a + S1x64.size a ≤ S1x64.size a
  h_S1x64 : 0 < S1x64.numel
  shapeCasts_S1x64_S1x64 : S1x64.ShapeCasts S1x64
  broadcasts_S1x64_S2000x64 : S1x64.Broadcasts S2000x64
  slices_S2x600000_S1x600000_0_0 : S2x600000.Slices ![0, 0] S1x600000
  shapeCasts_S1x600000_S600000 : S1x600000.ShapeCasts S600000
  concatenates_S600000_S50000_S650000_d0 : Shape.Concatenates [S600000, S50000] S650000 0
  slices_S2x600000_S1x600000_1_0 : S2x600000.Slices ![1, 0] S1x600000
  bcast_S_S650000 : S_.BroadcastsInDim S650000 (![] : Fin 0 → Fin S650000.rank)
  bcast_S_S50000 : S_.BroadcastsInDim S50000 (![] : Fin 0 → Fin S50000.rank)
  bcast_S650000_S650000x1_0 : S650000.BroadcastsInDim S650000x1 (![0] : Fin 1 → Fin S650000x1.rank)
  pads_S650000_S651264_012640 : S650000.Pads (![0] : Fin 1 → Nat) ![1264] ![0] S651264
  scatter_S100000_S1300000x1_S1300000_n_0_0_1_wf : ScatterDims.WF S100000 S1300000x1 S1300000 [] [0] [0] 1
  gather_S100000_S1300000x1_S1300000_n_0_n_n_0_1_1_wf : GatherDims.WF S100000 S1300000x1 S1300000 [] [0] [] [0] [] 1 ![1]
  dot_S2048x2000_S2000x64_S2048x64_1_0_0_1_n_n_wf : DotDims.WF S2048x2000 S2000x64 S2048x64 [1] [0] [0] [1] [] []
  dot_S2000x2048_S2048x64_S2000x64_1_0_0_1_n_n_wf : DotDims.WF S2000x2048 S2048x64 S2000x64 [1] [0] [0] [1] [] []
  scatter_S50000_S650000x1_S650000_n_0_0_1_wf : ScatterDims.WF S50000 S650000x1 S650000 [] [0] [0] 1
  gather_S50000_S650000x1_S650000_n_0_n_n_0_1_1_wf : GatherDims.WF S50000 S650000x1 S650000 [] [0] [] [0] [] 1 ![1]
  hrank0 : 0 < grid0.rank
  k0_t1_ok : k0_t1_loop.OK
  k0_mult1_dvd : ∀ k0_t1 : Fin k0_t1_loop.trips, 16 ∣ (k0_mult1 k0_t1).toNat
  k0_off1_inb : ∀ k0_t1 : Fin k0_t1_loop.trips, ∀ a, (k0_off1 k0_t1) a + S2000x64.size a ≤ S100000x64.size a
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2048.size a ≤ S1300480.size a
  hwx0_0 : ∀ i : grid0.Coords, EltTy.bits .i32 = 32 ∨ (Rect.block (s := S1300480) S2048.size (cc0_transform_0 i) (hinb0_0 i)).WholeWords (EltTy.packing .i32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S2048.size a ≤ S1300480.size a
  hwx0_1 : ∀ i : grid0.Coords, EltTy.bits .f32 = 32 ∨ (Rect.block (s := S1300480) S2048.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S100000x64.size a ≤ S100000x64.size a
  hwx0_2 : ∀ i : grid0.Coords, EltTy.bits .bf16 = 32 ∨ (Rect.block (s := S100000x64) S100000x64.size (cc0_transform_2 i) (hinb0_2 i)).WholeWords (EltTy.packing .bf16)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S2048x64.size a ≤ S1300480x64.size a
  hwx0_3 : ∀ i : grid0.Coords, EltTy.bits .f32 = 32 ∨ (Rect.block (s := S1300480x64) S2048x64.size (cc0_transform_3 i) (hinb0_3 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S2048.size a ≤ S1300480.size a
  hwx1_0 : ∀ i : grid1.Coords, EltTy.bits .i32 = 32 ∨ (Rect.block (s := S1300480) S2048.size (cc1_transform_0 i) (hinb1_0 i)).WholeWords (EltTy.packing .i32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S2048x64.size a ≤ S1300480x64.size a
  hwx1_1 : ∀ i : grid1.Coords, EltTy.bits .f32 = 32 ∨ (Rect.block (s := S1300480x64) S2048x64.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S1x64.size a ≤ S1x64.size a
  hwx1_2 : ∀ i : grid1.Coords, EltTy.bits .f32 = 32 ∨ (Rect.block (s := S1x64) S1x64.size (cc1_transform_2 i) (hinb1_2 i)).WholeWords (EltTy.packing .f32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S2000x64.size a ≤ S100000x64.size a
  hwx1_3 : ∀ i : grid1.Coords, EltTy.bits .f32 = 32 ∨ (Rect.block (s := S100000x64) S2000x64.size (cc1_transform_3 i) (hinb1_3 i)).WholeWords (EltTy.packing .f32)
  hrank2 : 0 < grid2.rank
  k2_t1_ok : k2_t1_loop.OK
  k2_mult1_dvd : ∀ k2_t1 : Fin k2_t1_loop.trips, 16 ∣ (k2_mult1 k2_t1).toNat
  k2_off1_inb : ∀ k2_t1 : Fin k2_t1_loop.trips, ∀ a, (k2_off1 k2_t1) a + S2000x64.size a ≤ S50000x64.size a
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S2048.size a ≤ S651264.size a
  hwx2_0 : ∀ i : grid2.Coords, EltTy.bits .i32 = 32 ∨ (Rect.block (s := S651264) S2048.size (cc2_transform_0 i) (hinb2_0 i)).WholeWords (EltTy.packing .i32)
  hstage2_1 : ∀ j, (stage2_1 j).IsWhole
  nbuf2_1 : grid2.bufCount reads2_1 false = 2
  hreads2_1 : ∀ i i' : grid2.Coords, (∀ a, reads2_1 a = true → i a = i' a) → cc2_transform_1 i = cc2_transform_1 i'
  hinb2_1 : ∀ (i : grid2.Coords) a, (cc2_transform_1 i a + 1) * S2048.size a ≤ S651264.size a
  hwx2_1 : ∀ i : grid2.Coords, EltTy.bits .f32 = 32 ∨ (Rect.block (s := S651264) S2048.size (cc2_transform_1 i) (hinb2_1 i)).WholeWords (EltTy.packing .f32)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S50000x64.size a ≤ S50000x64.size a
  hwx2_2 : ∀ i : grid2.Coords, EltTy.bits .bf16 = 32 ∨ (Rect.block (s := S50000x64) S50000x64.size (cc2_transform_2 i) (hinb2_2 i)).WholeWords (EltTy.packing .bf16)
  hstage2_3 : ∀ j, (stage2_3 j).IsWhole
  nbuf2_3 : grid2.bufCount reads2_3 false = 2
  hreads2_3 : ∀ i i' : grid2.Coords, (∀ a, reads2_3 a = true → i a = i' a) → cc2_transform_3 i = cc2_transform_3 i'
  hinb2_3 : ∀ (i : grid2.Coords) a, (cc2_transform_3 i a + 1) * S2048x64.size a ≤ S651264x64.size a
  hwx2_3 : ∀ i : grid2.Coords, EltTy.bits .f32 = 32 ∨ (Rect.block (s := S651264x64) S2048x64.size (cc2_transform_3 i) (hinb2_3 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S2048.size a ≤ S651264.size a
  hwx3_0 : ∀ i : grid3.Coords, EltTy.bits .i32 = 32 ∨ (Rect.block (s := S651264) S2048.size (cc3_transform_0 i) (hinb3_0 i)).WholeWords (EltTy.packing .i32)
  hstage3_1 : ∀ j, (stage3_1 j).IsWhole
  nbuf3_1 : grid3.bufCount reads3_1 false = 2
  hreads3_1 : ∀ i i' : grid3.Coords, (∀ a, reads3_1 a = true → i a = i' a) → cc3_transform_1 i = cc3_transform_1 i'
  hinb3_1 : ∀ (i : grid3.Coords) a, (cc3_transform_1 i a + 1) * S2048x64.size a ≤ S651264x64.size a
  hwx3_1 : ∀ i : grid3.Coords, EltTy.bits .f32 = 32 ∨ (Rect.block (s := S651264x64) S2048x64.size (cc3_transform_1 i) (hinb3_1 i)).WholeWords (EltTy.packing .f32)
  hstage3_2 : ∀ j, (stage3_2 j).IsWhole
  nbuf3_2 : grid3.bufCount reads3_2 true = 1
  hreads3_2 : ∀ i i' : grid3.Coords, (∀ a, reads3_2 a = true → i a = i' a) → cc3_transform_2 i = cc3_transform_2 i'
  hinb3_2 : ∀ (i : grid3.Coords) a, (cc3_transform_2 i a + 1) * S1x64.size a ≤ S1x64.size a
  hwx3_2 : ∀ i : grid3.Coords, EltTy.bits .f32 = 32 ∨ (Rect.block (s := S1x64) S1x64.size (cc3_transform_2 i) (hinb3_2 i)).WholeWords (EltTy.packing .f32)
  hstage3_3 : ∀ j, (stage3_3 j).IsWhole
  nbuf3_3 : grid3.bufCount reads3_3 false = 2
  hreads3_3 : ∀ i i' : grid3.Coords, (∀ a, reads3_3 a = true → i a = i' a) → cc3_transform_3 i = cc3_transform_3 i'
  hinb3_3 : ∀ (i : grid3.Coords) a, (cc3_transform_3 i a + 1) * S2000x64.size a ≤ S50000x64.size a
  hwx3_3 : ∀ i : grid3.Coords, EltTy.bits .f32 = 32 ∨ (Rect.block (s := S50000x64) S2000x64.size (cc3_transform_3 i) (hinb3_3 i)).WholeWords (EltTy.packing .f32)

variable [Facts₀]

def scatter_S100000_S1300000x1_S1300000_n_0_0_1 : ScatterDims S100000 S1300000x1 S1300000 where
  updateWindowDims := []
  insertedWindowDims := [0]
  scatterDimsToOperandDims := [0]
  indexVectorDim := 1
  wf := scatter_S100000_S1300000x1_S1300000_n_0_0_1_wf
def gather_S100000_S1300000x1_S1300000_n_0_n_n_0_1_1 : GatherDims S100000 S1300000x1 S1300000 where
  offsetDims := []
  collapsedSliceDims := [0]
  operandBatchingDims := []
  startIndicesBatchingDims := []
  startIndexMap := [0]
  indexVectorDim := 1
  sliceSizes := ![1]
  wf := gather_S100000_S1300000x1_S1300000_n_0_n_n_0_1_1_wf
def dot_S2048x2000_S2000x64_S2048x64_1_0_0_1_n_n : DotDims S2048x2000 S2000x64 S2048x64 where
  lhsContracting := [1]
  rhsContracting := [0]
  lhsNonContracting := [0]
  rhsNonContracting := [1]
  lhsBatch := []
  rhsBatch := []
  wf := dot_S2048x2000_S2000x64_S2048x64_1_0_0_1_n_n_wf
def dot_S2000x2048_S2048x64_S2000x64_1_0_0_1_n_n : DotDims S2000x2048 S2048x64 S2000x64 where
  lhsContracting := [1]
  rhsContracting := [0]
  lhsNonContracting := [0]
  rhsNonContracting := [1]
  lhsBatch := []
  rhsBatch := []
  wf := dot_S2000x2048_S2048x64_S2000x64_1_0_0_1_n_n_wf
def scatter_S50000_S650000x1_S650000_n_0_0_1 : ScatterDims S50000 S650000x1 S650000 where
  updateWindowDims := []
  insertedWindowDims := [0]
  scatterDimsToOperandDims := [0]
  indexVectorDim := 1
  wf := scatter_S50000_S650000x1_S650000_n_0_0_1_wf
def gather_S50000_S650000x1_S650000_n_0_n_n_0_1_1 : GatherDims S50000 S650000x1 S650000 where
  offsetDims := []
  collapsedSliceDims := [0]
  operandBatchingDims := []
  startIndicesBatchingDims := []
  startIndexMap := [0]
  indexVectorDim := 1
  sliceSizes := ![1]
  wf := gather_S50000_S650000x1_S650000_n_0_n_n_0_1_1_wf

abbrev win0_0 : Pipeline.Window sig grid0 :=
  Pipeline.Window.ofSpec (Memref.whole main_v33) S2048.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v34) S2048.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v35) S100000x64.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v36) S2048x64.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev win1_0 : Pipeline.Window sig grid1 :=
  Pipeline.Window.ofSpec (Memref.whole main_v32) S2048.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v36) S2048x64.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v37) S1x64.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v38) S2000x64.size cc1_transform_3 reads1_3 true false 2 stage1_3 sem1_3
    hrank1 hreads1_3 hinb1_3 nbuf1_3 (Memref.isWhole_whole _) hwx1_3 hstage1_3

abbrev win1 : Fin 4 → Pipeline.Window sig grid1 := fun | 0 => win1_0 | 1 => win1_1 | 2 => win1_2 | 3 => win1_3 | ⟨_ + 4, h⟩ => absurd h (Nat.not_lt.2 (Nat.le_add_left _ _))
abbrev spec1 : Fin 4 → Pipeline.WinSpec sig grid1.rank := fun w => (win1 w).toWinSpec

abbrev win2_0 : Pipeline.Window sig grid2 :=
  Pipeline.Window.ofSpec (Memref.whole main_v72) S2048.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v73) S2048.size cc2_transform_1 reads2_1 false false 2 stage2_1 sem2_1
    hrank2 hreads2_1 hinb2_1 nbuf2_1 (Memref.isWhole_whole _) hwx2_1 hstage2_1

abbrev win2_2 : Pipeline.Window sig grid2 :=
  Pipeline.Window.ofSpec (Memref.whole main_v74) S50000x64.size cc2_transform_2 reads2_2 false true 1 stage2_2 sem2_2
    hrank2 hreads2_2 hinb2_2 nbuf2_2 (Memref.isWhole_whole _) hwx2_2 hstage2_2

abbrev win2_3 : Pipeline.Window sig grid2 :=
  Pipeline.Window.ofSpec (Memref.whole main_v75) S2048x64.size cc2_transform_3 reads2_3 true false 2 stage2_3 sem2_3
    hrank2 hreads2_3 hinb2_3 nbuf2_3 (Memref.isWhole_whole _) hwx2_3 hstage2_3

abbrev win2 : Fin 4 → Pipeline.Window sig grid2 := fun | 0 => win2_0 | 1 => win2_1 | 2 => win2_2 | 3 => win2_3 | ⟨_ + 4, h⟩ => absurd h (Nat.not_lt.2 (Nat.le_add_left _ _))
abbrev spec2 : Fin 4 → Pipeline.WinSpec sig grid2.rank := fun w => (win2 w).toWinSpec

abbrev win3_0 : Pipeline.Window sig grid3 :=
  Pipeline.Window.ofSpec (Memref.whole main_v71) S2048.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_v75) S2048x64.size cc3_transform_1 reads3_1 false false 2 stage3_1 sem3_1
    hrank3 hreads3_1 hinb3_1 nbuf3_1 (Memref.isWhole_whole _) hwx3_1 hstage3_1

abbrev win3_2 : Pipeline.Window sig grid3 :=
  Pipeline.Window.ofSpec (Memref.whole main_v76) S1x64.size cc3_transform_2 reads3_2 false true 1 stage3_2 sem3_2
    hrank3 hreads3_2 hinb3_2 nbuf3_2 (Memref.isWhole_whole _) hwx3_2 hstage3_2

abbrev win3_3 : Pipeline.Window sig grid3 :=
  Pipeline.Window.ofSpec (Memref.whole main_v77) S2000x64.size cc3_transform_3 reads3_3 true false 2 stage3_3 sem3_3
    hrank3 hreads3_3 hinb3_3 nbuf3_3 (Memref.isWhole_whole _) hwx3_3 hstage3_3

abbrev win3 : Fin 4 → Pipeline.Window sig grid3 := fun | 0 => win3_0 | 1 => win3_1 | 2 => win3_2 | 3 => win3_3 | ⟨_ + 4, h⟩ => absurd h (Nat.not_lt.2 (Nat.le_add_left _ _))
abbrev spec3 : Fin 4 → Pipeline.WinSpec sig grid3.rank := fun w => (win3 w).toWinSpec

class Facts : Prop extends Facts₀ where

variable [Facts]
-- ==== ReferenceIdeal.lean ====
abbrev S2x1200000 : Shape := ⟨2, ![2, 1200000]⟩
abbrev S2x600000 : Shape := ⟨2, ![2, 600000]⟩
abbrev S100000x64 : Shape := ⟨2, ![100000, 64]⟩
abbrev S64 : Shape := ⟨1, ![64]⟩
abbrev S50000x64 : Shape := ⟨2, ![50000, 64]⟩
abbrev S100000 : Shape := ⟨1, ![100000]⟩
abbrev S1x1200000 : Shape := ⟨2, ![1, 1200000]⟩
abbrev S1200000 : Shape := ⟨1, ![1200000]⟩
abbrev S1300000 : Shape := ⟨1, ![1300000]⟩
abbrev S_ : Shape := ⟨0, ![]⟩
abbrev S1300000x1 : Shape := ⟨2, ![1300000, 1]⟩
abbrev S1300000x64 : Shape := ⟨2, ![1300000, 64]⟩
abbrev S1x64 : Shape := ⟨2, ![1, 64]⟩
abbrev S50000 : Shape := ⟨1, ![50000]⟩
abbrev S1x600000 : Shape := ⟨2, ![1, 600000]⟩
abbrev S600000 : Shape := ⟨1, ![600000]⟩
abbrev S650000 : Shape := ⟨1, ![650000]⟩
abbrev S650000x1 : Shape := ⟨2, ![650000, 1]⟩
abbrev S650000x64 : Shape := ⟨2, ![650000, 64]⟩

abbrev nBuf : Space → Nat
  | .hbm => 136
  | .vmem => 0
  | .smem => 0
  | _ => 0

abbrev hbmTy0_0 (i : Nat) : BufTy := match i % 128 with
  | 0 => ⟨S2x1200000, .i32⟩
  | 1 => ⟨S2x600000, .i32⟩
  | 2 => ⟨S100000x64, .f32⟩
  | 3 => ⟨S64, .f32⟩
  | 4 => ⟨S50000x64, .f32⟩
  | 5 => ⟨S64, .f32⟩
  | 6 => ⟨S100000, .i32⟩
  | 7 => ⟨S1x1200000, .i32⟩
  | 8 => ⟨S1200000, .i32⟩
  | 9 => ⟨S1300000, .i32⟩
  | 10 => ⟨S1x1200000, .i32⟩
  | 11 => ⟨S1200000, .i32⟩
  | 12 => ⟨S1300000, .i32⟩
  | 13 => ⟨S_, .f32⟩
  | 14 => ⟨S1300000, .f32⟩
  | 15 => ⟨S_, .f32⟩
  | 16 => ⟨S100000, .f32⟩
  | 17 => ⟨S1300000x1, .i32⟩
  | 18 => ⟨S100000, .f32⟩
  | 19 => ⟨S_, .f32⟩
  | 20 => ⟨S100000, .f32⟩
  | 21 => ⟨S100000, .i1⟩
  | 22 => ⟨S_, .f32⟩
  | 23 => ⟨S100000, .f32⟩
  | 24 => ⟨S100000, .f32⟩
  | 25 => ⟨S100000, .f32⟩
  | 26 => ⟨S_, .f32⟩
  | 27 => ⟨S_, .f32⟩
  | 28 => ⟨S100000, .f32⟩
  | 29 => ⟨S100000, .f32⟩
  | 30 => ⟨S_, .i32⟩
  | 31 => ⟨S1300000, .i32⟩
  | 32 => ⟨S1300000, .i1⟩
  | 33 => ⟨S_, .i32⟩
  | 34 => ⟨S1300000, .i32⟩
  | 35 => ⟨S1300000, .i32⟩
  | 36 => ⟨S1300000, .i32⟩
  | 37 => ⟨S1300000x1, .i32⟩
  | 38 => ⟨S1300000, .f32⟩
  | 39 => ⟨S_, .i32⟩
  | 40 => ⟨S1300000, .i32⟩
  | 41 => ⟨S1300000, .i1⟩
  | 42 => ⟨S_, .i32⟩
  | 43 => ⟨S1300000, .i32⟩
  | 44 => ⟨S1300000, .i32⟩
  | 45 => ⟨S1300000, .i32⟩
  | 46 => ⟨S1300000x1, .i32⟩
  | 47 => ⟨S1300000, .f32⟩
  | 48 => ⟨S1300000, .f32⟩
  | 49 => ⟨S_, .i32⟩
  | 50 => ⟨S1300000, .i32⟩
  | 51 => ⟨S1300000, .i1⟩
  | 52 => ⟨S_, .i32⟩
  | 53 => ⟨S1300000, .i32⟩
  | 54 => ⟨S1300000, .i32⟩
  | 55 => ⟨S1300000, .i32⟩
  | 56 => ⟨S1300000x1, .i32⟩
  | 57 => ⟨S1300000x64, .f32⟩
  | 58 => ⟨S1300000x1, .f32⟩
  | 59 => ⟨S1300000x64, .f32⟩
  | 60 => ⟨S1300000x64, .f32⟩
  | 61 => ⟨S_, .f32⟩
  | 62 => ⟨S100000x64, .f32⟩
  | 63 => ⟨S1300000x1, .i32⟩
  | 64 => ⟨S100000x64, .f32⟩
  | 65 => ⟨S1x64, .f32⟩
  | 66 => ⟨S100000x64, .f32⟩
  | 67 => ⟨S100000x64, .f32⟩
  | 68 => ⟨S_, .f32⟩
  | 69 => ⟨S100000x64, .f32⟩
  | 70 => ⟨S100000x64, .f32⟩
  | 71 => ⟨S50000, .i32⟩
  | 72 => ⟨S1x600000, .i32⟩
  | 73 => ⟨S600000, .i32⟩
  | 74 => ⟨S650000, .i32⟩
  | 75 => ⟨S1x600000, .i32⟩
  | 76 => ⟨S600000, .i32⟩
  | 77 => ⟨S650000, .i32⟩
  | 78 => ⟨S_, .f32⟩
  | 79 => ⟨S650000, .f32⟩
  | 80 => ⟨S_, .f32⟩
  | 81 => ⟨S50000, .f32⟩
  | 82 => ⟨S650000x1, .i32⟩
  | 83 => ⟨S50000, .f32⟩
  | 84 => ⟨S_, .f32⟩
  | 85 => ⟨S50000, .f32⟩
  | 86 => ⟨S50000, .i1⟩
  | 87 => ⟨S_, .f32⟩
  | 88 => ⟨S50000, .f32⟩
  | 89 => ⟨S50000, .f32⟩
  | 90 => ⟨S50000, .f32⟩
  | 91 => ⟨S_, .f32⟩
  | 92 => ⟨S_, .f32⟩
  | 93 => ⟨S50000, .f32⟩
  | 94 => ⟨S50000, .f32⟩
  | 95 => ⟨S_, .i32⟩
  | 96 => ⟨S650000, .i32⟩
  | 97 => ⟨S650000, .i1⟩
  | 98 => ⟨S_, .i32⟩
  | 99 => ⟨S650000, .i32⟩
  | 100 => ⟨S650000, .i32⟩
  | 101 => ⟨S650000, .i32⟩
  | 102 => ⟨S650000x1, .i32⟩
  | 103 => ⟨S650000, .f32⟩
  | 104 => ⟨S_, .i32⟩
  | 105 => ⟨S650000, .i32⟩
  | 106 => ⟨S650000, .i1⟩
  | 107 => ⟨S_, .i32⟩
  | 108 => ⟨S650000, .i32⟩
  | 109 => ⟨S650000, .i32⟩
  | 110 => ⟨S650000, .i32⟩
  | 111 => ⟨S650000x1, .i32⟩
  | 112 => ⟨S650000, .f32⟩
  | 113 => ⟨S650000, .f32⟩
  | 114 => ⟨S_, .i32⟩
  | 115 => ⟨S650000, .i32⟩
  | 116 => ⟨S650000, .i1⟩
  | 117 => ⟨S_, .i32⟩
  | 118 => ⟨S650000, .i32⟩
  | 119 => ⟨S650000, .i32⟩
  | 120 => ⟨S650000, .i32⟩
  | 121 => ⟨S650000x1, .i32⟩
  | 122 => ⟨S650000x64, .f32⟩
  | 123 => ⟨S650000x1, .f32⟩
  | 124 => ⟨S650000x64, .f32⟩
  | 125 => ⟨S650000x64, .f32⟩
  | 126 => ⟨S_, .f32⟩
  | 127 => ⟨S50000x64, .f32⟩
  | _ => ⟨S2x1200000, .i32⟩

abbrev hbmTy0_1 (i : Nat) : BufTy := match i % 128 with
  | 0 => ⟨S650000x1, .i32⟩
  | 1 => ⟨S50000x64, .f32⟩
  | 2 => ⟨S1x64, .f32⟩
  | 3 => ⟨S50000x64, .f32⟩
  | 4 => ⟨S50000x64, .f32⟩
  | 5 => ⟨S_, .f32⟩
  | 6 => ⟨S50000x64, .f32⟩
  | 7 => ⟨S50000x64, .f32⟩
  | _ => ⟨S2x1200000, .i32⟩

abbrev hbmTy (i : Nat) : BufTy := match i / 128 with
  | 0 => hbmTy0_0 i
  | 1 => hbmTy0_1 i
  | _ => ⟨S2x1200000, .i32⟩

abbrev bufTy : (tb : Table) → Fin (tcTables nBuf tb) → BufTy
  | .hbm, ⟨i, _⟩ => hbmTy i
  | _, _ => ⟨S2x1200000, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_cst : Ref sig .tc := ⟨.hbm, 13, rfl⟩
abbrev main_v7 : Ref sig .tc := ⟨.hbm, 14, rfl⟩
abbrev main_cst_0 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_1 : Ref sig .tc := ⟨.hbm, 19, rfl⟩
abbrev main_v11 : Ref sig .tc := ⟨.hbm, 20, rfl⟩
abbrev main_v12 : Ref sig .tc := ⟨.hbm, 21, rfl⟩
abbrev main_cst_2 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_3 : Ref sig .tc := ⟨.hbm, 26, rfl⟩
abbrev main_call0_v0 : Ref sig .tc := ⟨.hbm, 27, rfl⟩
abbrev main_call0_v1 : Ref sig .tc := ⟨.hbm, 28, rfl⟩
abbrev main_v16 : Ref sig .tc := ⟨.hbm, 29, rfl⟩
abbrev main_c : Ref sig .tc := ⟨.hbm, 30, rfl⟩
abbrev main_v17 : Ref sig .tc := ⟨.hbm, 31, rfl⟩
abbrev main_v18 : Ref sig .tc := ⟨.hbm, 32, rfl⟩
abbrev main_c_4 : Ref sig .tc := ⟨.hbm, 33, rfl⟩
abbrev main_v19 : Ref sig .tc := ⟨.hbm, 34, rfl⟩
abbrev main_v20 : Ref sig .tc := ⟨.hbm, 35, rfl⟩
abbrev main_v21 : Ref sig .tc := ⟨.hbm, 36, rfl⟩
abbrev main_v22 : Ref sig .tc := ⟨.hbm, 37, rfl⟩
abbrev main_v23 : Ref sig .tc := ⟨.hbm, 38, rfl⟩
abbrev main_c_5 : Ref sig .tc := ⟨.hbm, 39, rfl⟩
abbrev main_v24 : Ref sig .tc := ⟨.hbm, 40, rfl⟩
abbrev main_v25 : Ref sig .tc := ⟨.hbm, 41, rfl⟩
abbrev main_c_6 : Ref sig .tc := ⟨.hbm, 42, rfl⟩
abbrev main_v26 : Ref sig .tc := ⟨.hbm, 43, rfl⟩
abbrev main_v27 : Ref sig .tc := ⟨.hbm, 44, rfl⟩
abbrev main_v28 : Ref sig .tc := ⟨.hbm, 45, rfl⟩
abbrev main_v29 : Ref sig .tc := ⟨.hbm, 46, rfl⟩
abbrev main_v30 : Ref sig .tc := ⟨.hbm, 47, rfl⟩
abbrev main_v31 : Ref sig .tc := ⟨.hbm, 48, rfl⟩
abbrev main_c_7 : Ref sig .tc := ⟨.hbm, 49, rfl⟩
abbrev main_v32 : Ref sig .tc := ⟨.hbm, 50, rfl⟩
abbrev main_v33 : Ref sig .tc := ⟨.hbm, 51, rfl⟩
abbrev main_c_8 : Ref sig .tc := ⟨.hbm, 52, rfl⟩
abbrev main_v34 : Ref sig .tc := ⟨.hbm, 53, rfl⟩
abbrev main_v35 : Ref sig .tc := ⟨.hbm, 54, rfl⟩
abbrev main_v36 : Ref sig .tc := ⟨.hbm, 55, rfl⟩
abbrev main_v37 : Ref sig .tc := ⟨.hbm, 56, rfl⟩
abbrev main_v38 : Ref sig .tc := ⟨.hbm, 57, rfl⟩
abbrev main_v39 : Ref sig .tc := ⟨.hbm, 58, rfl⟩
abbrev main_v40 : Ref sig .tc := ⟨.hbm, 59, rfl⟩
abbrev main_v41 : Ref sig .tc := ⟨.hbm, 60, rfl⟩
abbrev main_cst_9 : Ref sig .tc := ⟨.hbm, 61, rfl⟩
abbrev main_v42 : Ref sig .tc := ⟨.hbm, 62, rfl⟩
abbrev main_v43 : Ref sig .tc := ⟨.hbm, 63, rfl⟩
abbrev main_v44 : Ref sig .tc := ⟨.hbm, 64, rfl⟩
abbrev main_v45 : Ref sig .tc := ⟨.hbm, 65, rfl⟩
abbrev main_v46 : Ref sig .tc := ⟨.hbm, 66, rfl⟩
abbrev main_v47 : Ref sig .tc := ⟨.hbm, 67, rfl⟩
abbrev main_call1_cst : Ref sig .tc := ⟨.hbm, 68, rfl⟩
abbrev main_call1_v0 : Ref sig .tc := ⟨.hbm, 69, rfl⟩
abbrev main_v48 : Ref sig .tc := ⟨.hbm, 70, rfl⟩
abbrev main_v49 : Ref sig .tc := ⟨.hbm, 71, rfl⟩
abbrev main_v50 : Ref sig .tc := ⟨.hbm, 72, rfl⟩
abbrev main_v51 : Ref sig .tc := ⟨.hbm, 73, rfl⟩
abbrev main_v52 : Ref sig .tc := ⟨.hbm, 74, rfl⟩
abbrev main_v53 : Ref sig .tc := ⟨.hbm, 75, rfl⟩
abbrev main_v54 : Ref sig .tc := ⟨.hbm, 76, rfl⟩
abbrev main_v55 : Ref sig .tc := ⟨.hbm, 77, rfl⟩
abbrev main_cst_10 : Ref sig .tc := ⟨.hbm, 78, rfl⟩
abbrev main_v56 : Ref sig .tc := ⟨.hbm, 79, rfl⟩
abbrev main_cst_11 : Ref sig .tc := ⟨.hbm, 80, rfl⟩
abbrev main_v57 : Ref sig .tc := ⟨.hbm, 81, rfl⟩
abbrev main_v58 : Ref sig .tc := ⟨.hbm, 82, rfl⟩
abbrev main_v59 : Ref sig .tc := ⟨.hbm, 83, rfl⟩
abbrev main_cst_12 : Ref sig .tc := ⟨.hbm, 84, rfl⟩
abbrev main_v60 : Ref sig .tc := ⟨.hbm, 85, rfl⟩
abbrev main_v61 : Ref sig .tc := ⟨.hbm, 86, rfl⟩
abbrev main_cst_13 : Ref sig .tc := ⟨.hbm, 87, rfl⟩
abbrev main_v62 : Ref sig .tc := ⟨.hbm, 88, rfl⟩
abbrev main_v63 : Ref sig .tc := ⟨.hbm, 89, rfl⟩
abbrev main_v64 : Ref sig .tc := ⟨.hbm, 90, rfl⟩
abbrev main_cst_14 : Ref sig .tc := ⟨.hbm, 91, rfl⟩
abbrev main_call2_v0 : Ref sig .tc := ⟨.hbm, 92, rfl⟩
abbrev main_call2_v1 : Ref sig .tc := ⟨.hbm, 93, rfl⟩
abbrev main_v65 : Ref sig .tc := ⟨.hbm, 94, rfl⟩
abbrev main_c_15 : Ref sig .tc := ⟨.hbm, 95, rfl⟩
abbrev main_v66 : Ref sig .tc := ⟨.hbm, 96, rfl⟩
abbrev main_v67 : Ref sig .tc := ⟨.hbm, 97, rfl⟩
abbrev main_c_16 : Ref sig .tc := ⟨.hbm, 98, rfl⟩
abbrev main_v68 : Ref sig .tc := ⟨.hbm, 99, rfl⟩
abbrev main_v69 : Ref sig .tc := ⟨.hbm, 100, rfl⟩
abbrev main_v70 : Ref sig .tc := ⟨.hbm, 101, rfl⟩
abbrev main_v71 : Ref sig .tc := ⟨.hbm, 102, rfl⟩
abbrev main_v72 : Ref sig .tc := ⟨.hbm, 103, rfl⟩
abbrev main_c_17 : Ref sig .tc := ⟨.hbm, 104, rfl⟩
abbrev main_v73 : Ref sig .tc := ⟨.hbm, 105, rfl⟩
abbrev main_v74 : Ref sig .tc := ⟨.hbm, 106, rfl⟩
abbrev main_c_18 : Ref sig .tc := ⟨.hbm, 107, rfl⟩
abbrev main_v75 : Ref sig .tc := ⟨.hbm, 108, rfl⟩
abbrev main_v76 : Ref sig .tc := ⟨.hbm, 109, rfl⟩
abbrev main_v77 : Ref sig .tc := ⟨.hbm, 110, rfl⟩
abbrev main_v78 : Ref sig .tc := ⟨.hbm, 111, rfl⟩
abbrev main_v79 : Ref sig .tc := ⟨.hbm, 112, rfl⟩
abbrev main_v80 : Ref sig .tc := ⟨.hbm, 113, rfl⟩
abbrev main_c_19 : Ref sig .tc := ⟨.hbm, 114, rfl⟩
abbrev main_v81 : Ref sig .tc := ⟨.hbm, 115, rfl⟩
abbrev main_v82 : Ref sig .tc := ⟨.hbm, 116, rfl⟩
abbrev main_c_20 : Ref sig .tc := ⟨.hbm, 117, rfl⟩
abbrev main_v83 : Ref sig .tc := ⟨.hbm, 118, rfl⟩
abbrev main_v84 : Ref sig .tc := ⟨.hbm, 119, rfl⟩
abbrev main_v85 : Ref sig .tc := ⟨.hbm, 120, rfl⟩
abbrev main_v86 : Ref sig .tc := ⟨.hbm, 121, rfl⟩
abbrev main_v87 : Ref sig .tc := ⟨.hbm, 122, rfl⟩
abbrev main_v88 : Ref sig .tc := ⟨.hbm, 123, rfl⟩
abbrev main_v89 : Ref sig .tc := ⟨.hbm, 124, rfl⟩
abbrev main_v90 : Ref sig .tc := ⟨.hbm, 125, rfl⟩
abbrev main_cst_21 : Ref sig .tc := ⟨.hbm, 126, rfl⟩
abbrev main_v91 : Ref sig .tc := ⟨.hbm, 127, rfl⟩
abbrev main_v92 : Ref sig .tc := ⟨.hbm, 128, rfl⟩
abbrev main_v93 : Ref sig .tc := ⟨.hbm, 129, rfl⟩
abbrev main_v94 : Ref sig .tc := ⟨.hbm, 130, rfl⟩
abbrev main_v95 : Ref sig .tc := ⟨.hbm, 131, rfl⟩
abbrev main_v96 : Ref sig .tc := ⟨.hbm, 132, rfl⟩
abbrev main_call3_cst : Ref sig .tc := ⟨.hbm, 133, rfl⟩
abbrev main_call3_v0 : Ref sig .tc := ⟨.hbm, 134, rfl⟩
abbrev main_v97 : Ref sig .tc := ⟨.hbm, 135, rfl⟩

abbrev nD : Nat := 1
abbrev τ : Topo := Topo.v7x

variable {F : FTy → Type} [FloatOps F]

class Facts₀ : Prop where
  slices_S2x1200000_S1x1200000_0_0 : S2x1200000.Slices ![0, 0] S1x1200000
  shapeCasts_S1x1200000_S1200000 : S1x1200000.ShapeCasts S1200000
  concatenates_S1200000_S100000_S1300000_d0 : Shape.Concatenates [S1200000, S100000] S1300000 0
  slices_S2x1200000_S1x1200000_1_0 : S2x1200000.Slices ![1, 0] S1x1200000
  bcast_S_S1300000 : S_.BroadcastsInDim S1300000 (![] : Fin 0 → Fin S1300000.rank)
  bcast_S_S100000 : S_.BroadcastsInDim S100000 (![] : Fin 0 → Fin S100000.rank)
  bcast_S1300000_S1300000x1_0 : S1300000.BroadcastsInDim S1300000x1 (![0] : Fin 1 → Fin S1300000x1.rank)
  bcast_S1300000x1_S1300000x64_0_1 : S1300000x1.BroadcastsInDim S1300000x64 (![0, 1] : Fin 2 → Fin S1300000x64.rank)
  bcast_S_S100000x64 : S_.BroadcastsInDim S100000x64 (![] : Fin 0 → Fin S100000x64.rank)
  bcast_S64_S1x64_1 : S64.BroadcastsInDim S1x64 (![1] : Fin 1 → Fin S1x64.rank)
  bcast_S1x64_S100000x64_0_1 : S1x64.BroadcastsInDim S100000x64 (![0, 1] : Fin 2 → Fin S100000x64.rank)
  slices_S2x600000_S1x600000_0_0 : S2x600000.Slices ![0, 0] S1x600000
  shapeCasts_S1x600000_S600000 : S1x600000.ShapeCasts S600000
  concatenates_S600000_S50000_S650000_d0 : Shape.Concatenates [S600000, S50000] S650000 0
  slices_S2x600000_S1x600000_1_0 : S2x600000.Slices ![1, 0] S1x600000
  bcast_S_S650000 : S_.BroadcastsInDim S650000 (![] : Fin 0 → Fin S650000.rank)
  bcast_S_S50000 : S_.BroadcastsInDim S50000 (![] : Fin 0 → Fin S50000.rank)
  bcast_S650000_S650000x1_0 : S650000.BroadcastsInDim S650000x1 (![0] : Fin 1 → Fin S650000x1.rank)
  bcast_S650000x1_S650000x64_0_1 : S650000x1.BroadcastsInDim S650000x64 (![0, 1] : Fin 2 → Fin S650000x64.rank)
  bcast_S_S50000x64 : S_.BroadcastsInDim S50000x64 (![] : Fin 0 → Fin S50000x64.rank)
  bcast_S1x64_S50000x64_0_1 : S1x64.BroadcastsInDim S50000x64 (![0, 1] : Fin 2 → Fin S50000x64.rank)
  scatter_S100000_S1300000x1_S1300000_n_0_0_1_wf : ScatterDims.WF S100000 S1300000x1 S1300000 [] [0] [0] 1
  gather_S100000_S1300000x1_S1300000_n_0_n_n_0_1_1_wf : GatherDims.WF S100000 S1300000x1 S1300000 [] [0] [] [0] [] 1 ![1]
  gather_S100000x64_S1300000x1_S1300000x64_1_0_n_n_0_1_164_wf : GatherDims.WF S100000x64 S1300000x1 S1300000x64 [1] [0] [] [0] [] 1 ![1, 64]
  scatter_S100000x64_S1300000x1_S1300000x64_1_0_0_1_wf : ScatterDims.WF S100000x64 S1300000x1 S1300000x64 [1] [0] [0] 1
  scatter_S50000_S650000x1_S650000_n_0_0_1_wf : ScatterDims.WF S50000 S650000x1 S650000 [] [0] [0] 1
  gather_S50000_S650000x1_S650000_n_0_n_n_0_1_1_wf : GatherDims.WF S50000 S650000x1 S650000 [] [0] [] [0] [] 1 ![1]
  gather_S50000x64_S650000x1_S650000x64_1_0_n_n_0_1_164_wf : GatherDims.WF S50000x64 S650000x1 S650000x64 [1] [0] [] [0] [] 1 ![1, 64]
  scatter_S50000x64_S650000x1_S650000x64_1_0_0_1_wf : ScatterDims.WF S50000x64 S650000x1 S650000x64 [1] [0] [0] 1

variable [Facts₀]

def scatter_S100000_S1300000x1_S1300000_n_0_0_1 : ScatterDims S100000 S1300000x1 S1300000 where
  updateWindowDims := []
  insertedWindowDims := [0]
  scatterDimsToOperandDims := [0]
  indexVectorDim := 1
  wf := scatter_S100000_S1300000x1_S1300000_n_0_0_1_wf
def gather_S100000_S1300000x1_S1300000_n_0_n_n_0_1_1 : GatherDims S100000 S1300000x1 S1300000 where
  offsetDims := []
  collapsedSliceDims := [0]
  operandBatchingDims := []
  startIndicesBatchingDims := []
  startIndexMap := [0]
  indexVectorDim := 1
  sliceSizes := ![1]
  wf := gather_S100000_S1300000x1_S1300000_n_0_n_n_0_1_1_wf
def gather_S100000x64_S1300000x1_S1300000x64_1_0_n_n_0_1_164 : GatherDims S100000x64 S1300000x1 S1300000x64 where
  offsetDims := [1]
  collapsedSliceDims := [0]
  operandBatchingDims := []
  startIndicesBatchingDims := []
  startIndexMap := [0]
  indexVectorDim := 1
  sliceSizes := ![1, 64]
  wf := gather_S100000x64_S1300000x1_S1300000x64_1_0_n_n_0_1_164_wf
def scatter_S100000x64_S1300000x1_S1300000x64_1_0_0_1 : ScatterDims S100000x64 S1300000x1 S1300000x64 where
  updateWindowDims := [1]
  insertedWindowDims := [0]
  scatterDimsToOperandDims := [0]
  indexVectorDim := 1
  wf := scatter_S100000x64_S1300000x1_S1300000x64_1_0_0_1_wf
def scatter_S50000_S650000x1_S650000_n_0_0_1 : ScatterDims S50000 S650000x1 S650000 where
  updateWindowDims := []
  insertedWindowDims := [0]
  scatterDimsToOperandDims := [0]
  indexVectorDim := 1
  wf := scatter_S50000_S650000x1_S650000_n_0_0_1_wf
def gather_S50000_S650000x1_S650000_n_0_n_n_0_1_1 : GatherDims S50000 S650000x1 S650000 where
  offsetDims := []
  collapsedSliceDims := [0]
  operandBatchingDims := []
  startIndicesBatchingDims := []
  startIndexMap := [0]
  indexVectorDim := 1
  sliceSizes := ![1]
  wf := gather_S50000_S650000x1_S650000_n_0_n_n_0_1_1_wf
def gather_S50000x64_S650000x1_S650000x64_1_0_n_n_0_1_164 : GatherDims S50000x64 S650000x1 S650000x64 where
  offsetDims := [1]
  collapsedSliceDims := [0]
  operandBatchingDims := []
  startIndicesBatchingDims := []
  startIndexMap := [0]
  indexVectorDim := 1
  sliceSizes := ![1, 64]
  wf := gather_S50000x64_S650000x1_S650000x64_1_0_n_n_0_1_164_wf
def scatter_S50000x64_S650000x1_S650000x64_1_0_0_1 : ScatterDims S50000x64 S650000x1 S650000x64 where
  updateWindowDims := [1]
  insertedWindowDims := [0]
  scatterDimsToOperandDims := [0]
  indexVectorDim := 1
  wf := scatter_S50000x64_S650000x1_S650000x64_1_0_0_1_wf

class Facts : Prop extends Facts₀ where

variable [Facts]
-- ==== Proof.Spec.lean ====
/-
  The graph-convolution layer both programs compute, as plain functions over the extended reals.

  For an edge list of `Mp` entries (`row e`, `col e` node words, `norm e` a weight) over `n` nodes with a
  table `W : n × 64` and a bias `b : 1 × 64`:
    * message `e` is row `col e` of `W` scaled by `norm e` — written as the sum over ALL rows `r` of `W`
      against the indicator "the word `col e` is `r`" (a one-hot row times the table);
    * node `i` collects the messages of the edges whose `row` word is `i` — again a sum over ALL edges against
      an indicator —, adds the bias and clips at zero.
  Nothing here depends on a program: the sizes are parameters, the arrays functions of an index.
-/
import Idealize.ShloMosaic.PureOps.Ideal
import Idealize.ShloMosaic.Lib.ValueIdx

noncomputable section

namespace Cert.Gcn

open Idealize.ShloMosaic Idealize.ShloMosaic.ValueIdx

/-- The indicator of two words being equal, as an extended real: `1` where they are, `0` elsewhere. -/
def hot (a b : BitVec 32) : EReal := if a = b then 1 else 0

theorem hot_self (a : BitVec 32) : hot a a = 1 := if_pos rfl

theorem hot_of_ne {a b : BitVec 32} (h : a ≠ b) : hot a b = 0 := if_neg h

/-- Message `e`, feature `d`: `(∑ r, [col e = r] · W r d) · norm e`. -/
def msgsOf {Mp n : ℕ} (col : IVec ⟨1, ![Mp]⟩ 32) (norm : FVec Ideal ⟨1, ![Mp]⟩ .f32)
    (W : FVec Ideal ⟨2, ![n, 64]⟩ .bf16) : FVec Ideal ⟨2, ![Mp, 64]⟩ .f32 :=
  fun j => (∑ r : Fin n, hot (col (ix1 (j 0))) (BitVec.ofNat 32 r.val) * W (ix2 r (j 1))) * norm (ix1 (j 0))

/-- What the `2048` edges of one block add to node `base + r`, feature `d`: `∑ e, [base + r = row e] · msgs e d`. -/
def contribOf (base : ℕ) (row : IVec ⟨1, ![2048]⟩ 32) (msgs : FVec Ideal ⟨2, ![2048, 64]⟩ .f32) :
    FVec Ideal ⟨2, ![2000, 64]⟩ .f32 :=
  fun j => ∑ e : Fin 2048, hot (BitVec.ofNat 32 (base + (j 0).val)) (row (ix1 e)) * msgs (ix2 e (j 1))

/-- Node `i`, feature `d` of the layer's output: `max ((∑ e, [i = row e] · msgs e d) + b d) 0`. -/
def aggOf {Mp n : ℕ} (row : IVec ⟨1, ![Mp]⟩ 32) (msgs : FVec Ideal ⟨2, ![Mp, 64]⟩ .f32)
    (b : FVec Ideal ⟨2, ![1, 64]⟩ .f32) : FVec Ideal ⟨2, ![n, 64]⟩ .f32 :=
  fun j => max ((∑ e : Fin Mp, hot (BitVec.ofNat 32 (j 0).val) (row (ix1 e)) * msgs (ix2 e (j 1))) + b (ix2 0 (j 1))) 0

/-- The node a host gather reads for the start word `w` on an axis of `n` rows: the word read signed, clamped into
    `[0, n - 1]`. On a word already in range it is the word's own value. -/
def nodeOf (n : ℕ) (hn : 0 < n) (w : BitVec 32) : Fin n := ⟨min w.toInt.toNat (n - 1), by omega⟩

/-- The layer as the reference spells it, over the `M` true edges: node `i`, feature `d` is
    `max ((∑ e, [i = row e] · (W (col e) d · norm e)) + b d) 0`, the table row read at the clamped node of `col e`. -/
def layerOf {M n : ℕ} (hn : 0 < n) (row col : IVec ⟨1, ![M]⟩ 32) (norm : FVec Ideal ⟨1, ![M]⟩ .f32)
    (W : FVec Ideal ⟨2, ![n, 64]⟩ .f32) (b : FVec Ideal ⟨1, ![64]⟩ .f32) : FVec Ideal ⟨2, ![n, 64]⟩ .f32 :=
  fun j => max ((∑ e : Fin M, hot (BitVec.ofNat 32 (j 0).val) (row (ix1 e))
      * (W (ix2 (nodeOf n hn (col (ix1 e))) (j 1)) * norm (ix1 e))) + b (ix1 (j 1))) 0

end Cert.Gcn

end
-- ==== Proof.ScatterBody1.lean ====
/-
  One grid point `(i, k)` of the scatter kernel, read as a value.

  The point carries the `2000 × 64` output block of node rows `2000·i … 2000·i + 1999` and adds to it the product of a
  one-hot matrix `[2000, 2048]` — entry `(r, e)` is `1` where the word of node `2000·i + r` equals edge `e`'s row
  word — with the `2048 × 64` block of messages: at `(r, d)` that product is `∑ e, [2000·i + r = row e] · msgs e d`,
  the block's contribution `contribOf`. Three cases: the first point of a row of the grid zeroes the block first
  (so the block ends as `0 + contribution`), a middle point adds to what the point before left, the last point adds
  and then applies `max (· + bias, 0)`.
-/
import proofs.«158019_j83202106458211_1_alg».proof.Proof.Gen.KernelIdeal.Frame
import proofs.«158019_j83202106458211_1_alg».proof.Proof.Spec
import Idealize.ShloMosaic.Lib.ValueIdx
import Idealize.ShloMosaic.Lib.Pipeline.Value
import Idealize.ShloMosaic.PureOps.Ideal.Laws
import Idealize.ShloMosaic.Lib.ValueLayout
import Idealize.ShloMosaic.Lib.StableHlo.Predicate
import Idealize.ShloMosaic.Lib.Tactic

noncomputable section

namespace Cert.KernelIdeal.ScatterBody1

open Idealize.ShloMosaic Idealize.ShloMosaic.TcCoe Idealize.SL.Sem Idealize.ShloMosaic.ValueIdx Cert.KernelIdeal Cert.Gcn

/-! ## Words -/

/-- The word of node `a * 2000 + r`: the product and the sum of words are the words of the product and the sum. -/
theorem node_word (a r : ℕ) :
    IntOp.addi (Scalar.muli (BitVec.ofNat 32 a) 2000#32) (BitVec.ofNat 32 r) = BitVec.ofNat 32 (a * 2000 + r) := by
  show BitVec.ofNat 32 a * BitVec.ofNat 32 2000 + BitVec.ofNat 32 r = _
  rw [← BitVec.ofNat_mul, ← BitVec.ofNat_add]

/-- A one-hot entry: the comparison bit of two words, widened and read as a signed integer, is the indicator of
    their equality. -/
theorem onehot_word (a b : BitVec 32) :
    FloatOps.sitofp (F := Ideal) .f32 ((IntOp.cmpi .eq a b).setWidth 32) = hot a b := by
  unfold hot
  by_cases h : a = b
  · rw [if_pos h, StableHlo.Predicate.cmpi_eq_iff.mpr h]
    show ((((1#1 : BitVec 1).setWidth 32).toInt : ℝ) : EReal) = 1
    rw [show ((1#1 : BitVec 1).setWidth 32).toInt = 1 from by decide]
    simp
  · rw [if_neg h, eq_zero_of_ne_one (fun h1 => h (StableHlo.Predicate.cmpi_eq_iff.mp h1))]
    show ((((0#1 : BitVec 1).setWidth 32).toInt : ℝ) : EReal) = 0
    rw [show ((0#1 : BitVec 1).setWidth 32).toInt = 0 from by decide]
    simp

/-! ## The one-hot matrix at an entry -/

/-- Entry `(r, e)` of the one-hot matrix: the column of node words `w + r`, spread along the rows, against the row
    of edge words `row e`, spread down the columns. -/
theorem onehot_apply (w : BitVec 32) (row : IVec S2048 32)
    (hi : S2000x1.Iotas .tc 32 [0]) (hc1 : S2048.ShapeCasts S2048) (hc2 : S2048.ShapeCasts S1x2048)
    (hb1 : S2000x1.Broadcasts S2000x2048) (hb2 : S1x2048.Broadcasts S2000x2048) (hlt : 1 < 32)
    (hbits : FTy.bits .bf16 < FTy.bits .f32) (r : Fin 2000) (e : Fin 2048) :
    (truncf .bf16 (sitofp (F := Ideal) .f32 (extui 32 (cmpi .eq
        (broadcastTo S2000x2048 (addi (broadcast S2000x1 w) (iota .tc S2000x1 32 [0] hi)) hb1)
        (broadcastTo S2000x2048 (shapeCast S1x2048 (shapeCast S2048 row hc1) hc2) hb2)) hlt)) hbits
      : FVec Ideal S2000x2048 .bf16) (ix2 r e)
      = hot (IntOp.addi w (BitVec.ofNat 32 r.val)) (row (ix1 e)) := by
  have e1 : broadcastTo S2000x2048 (addi (broadcast S2000x1 w) (iota .tc S2000x1 32 [0] hi)) hb1 (ix2 r e)
      = IntOp.addi w (BitVec.ofNat 32 r.val) := by
    refine (broadcastTo_apply _ hb1 (ix2 r e) (ix2 r (0 : Fin 1)) fun a => ?_).trans ?_
    · match a with
      | ⟨0, _⟩ => rfl
      | ⟨1, _⟩ => rfl
    · show IntOp.addi w (iota .tc S2000x1 32 [0] hi (ix2 r (0 : Fin 1))) = _
      rw [iota_single_apply]
  have e2 : broadcastTo S2000x2048 (shapeCast S1x2048 (shapeCast S2048 row hc1) hc2) hb2 (ix2 r e) = row (ix1 e) := by
    rw [broadcastTo_1b_ab_apply, shapeCast_a_1a_apply, shapeCast_self]
  show FloatOps.sitofp (F := Ideal) .f32 ((IntOp.cmpi .eq
      (broadcastTo S2000x2048 (addi (broadcast S2000x1 w) (iota .tc S2000x1 32 [0] hi)) hb1 (ix2 r e))
      (broadcastTo S2000x2048 (shapeCast S1x2048 (shapeCast S2048 row hc1) hc2) hb2 (ix2 r e))).setWidth 32) = _
  rw [e1, e2, onehot_word]

/-! ## The block product at an entry -/

/-- On the product's left operand `[2000, 2048]`, axis 0 is the result's row … -/
theorem lhs_0 (j : S2000x64.Idx) (q : dot_S2000x2048_S2048x64_S2000x64_1_0_0_1_n_n.contr.Idx) :
    (dot_S2000x2048_S2048x64_S2000x64_1_0_0_1_n_n.lhsIdx j q 0).val = (j 0).val := by
  unfold DotDims.lhsIdx
  rw [dif_neg (show ¬(0 : Fin S2000x2048.rank) ∈ dot_S2000x2048_S2048x64_S2000x64_1_0_0_1_n_n.lhsBatch by decide),
    dif_pos (show (0 : Fin S2000x2048.rank) ∈ dot_S2000x2048_S2048x64_S2000x64_1_0_0_1_n_n.lhsNonContracting by decide)]
  rfl

/-- … and axis 1 the contracted one. -/
theorem lhs_1 (j : S2000x64.Idx) (q : dot_S2000x2048_S2048x64_S2000x64_1_0_0_1_n_n.contr.Idx) :
    (dot_S2000x2048_S2048x64_S2000x64_1_0_0_1_n_n.lhsIdx j q 1).val = (q ⟨0, by decide⟩).val :=
  dot_S2000x2048_S2048x64_S2000x64_1_0_0_1_n_n.lhsIdx_val_of_single rfl j q

/-- On the right operand `[2048, 64]`, axis 0 is the contracted one … -/
theorem rhs_0 (j : S2000x64.Idx) (q : dot_S2000x2048_S2048x64_S2000x64_1_0_0_1_n_n.contr.Idx) :
    (dot_S2000x2048_S2048x64_S2000x64_1_0_0_1_n_n.rhsIdx j q 0).val = (q ⟨0, by decide⟩).val :=
  dot_S2000x2048_S2048x64_S2000x64_1_0_0_1_n_n.rhsIdx_val_of_single rfl j q

/-- … and axis 1 the result's column. -/
theorem rhs_1 (j : S2000x64.Idx) (q : dot_S2000x2048_S2048x64_S2000x64_1_0_0_1_n_n.contr.Idx) :
    (dot_S2000x2048_S2048x64_S2000x64_1_0_0_1_n_n.rhsIdx j q 1).val = (j 1).val := by
  unfold DotDims.rhsIdx
  rw [dif_neg (show ¬(1 : Fin S2048x64.rank) ∈ dot_S2000x2048_S2048x64_S2000x64_1_0_0_1_n_n.rhsBatch by decide),
    dif_pos (show (1 : Fin S2048x64.rank) ∈ dot_S2000x2048_S2048x64_S2000x64_1_0_0_1_n_n.rhsNonContracting by decide)]
  rfl

/-- The `[2000, 2048] × [2048, 64]` product into the zero block, at entry `(r, d)`: the sum over the `2048`
    contracted positions of the operands' products. -/
theorem matmul_apply (A : FVec Ideal S2000x2048 .bf16) (B : FVec Ideal S2048x64 .bf16) (r : Fin 2000) (d : Fin 64) :
    matmul dot_S2000x2048_S2048x64_S2000x64_1_0_0_1_n_n none A B (constant S2000x64 .f32 0x00000000#32) (ix2 r d)
      = ∑ e : Fin 2048, A (ix2 r e) * B (ix2 e d) := by
  show FloatOps.matmul dot_S2000x2048_S2048x64_S2000x64_1_0_0_1_n_n none A B (constant S2000x64 .f32 0x00000000#32) (ix2 r d) = _
  rw [Ideal.matmul_constant_zero_apply,
    ← Equiv.sum_comp (contrEquiv1 dot_S2000x2048_S2048x64_S2000x64_1_0_0_1_n_n 2048 rfl rfl).symm]
  refine Finset.sum_congr rfl fun e _ => ?_
  have he := contrEquiv1_symm_val dot_S2000x2048_S2048x64_S2000x64_1_0_0_1_n_n 2048 rfl rfl e
  have el : dot_S2000x2048_S2048x64_S2000x64_1_0_0_1_n_n.lhsIdx (ix2 r d)
      ((contrEquiv1 dot_S2000x2048_S2048x64_S2000x64_1_0_0_1_n_n 2048 rfl rfl).symm e) = ix2 r e :=
    funext fun a => Fin.ext (by
      match a with
      | ⟨0, _⟩ => exact lhs_0 _ _
      | ⟨1, _⟩ => exact (lhs_1 _ _).trans he)
  have er : dot_S2000x2048_S2048x64_S2000x64_1_0_0_1_n_n.rhsIdx (ix2 r d)
      ((contrEquiv1 dot_S2000x2048_S2048x64_S2000x64_1_0_0_1_n_n 2048 rfl rfl).symm e) = ix2 e d :=
    funext fun a => Fin.ext (by
      match a with
      | ⟨0, _⟩ => exact (rhs_0 _ _).trans he
      | ⟨1, _⟩ => exact rhs_1 _ _)
  rw [el, er]

/-! ## The three stored values at an entry -/

/-- The reset stores the zero block. -/
theorem pay1_apply (r : Fin 2000) (d : Fin 64) : Gen.k1_pay1 (F := Ideal) (ix2 r d) = 0 := by
  unfold Gen.k1_pay1
  exact Ideal.ofBits_zero_f32

/-- The update stores, at `(r, d)`, what the block held plus the edges' contribution to node `i₀ · 2000 + r`. -/
theorem pay2_apply (i : grid1.Coords) (row : Vec Ideal S2048 .i32) (msgs : Vec Ideal S2048x64 .f32)
    (acc : Vec Ideal S2000x64 .f32) (r : Fin 2000) (d : Fin 64) :
    Gen.k1_pay2 (F := Ideal) i row msgs acc (ix2 r d)
      = acc (ix2 r d) + contribOf ((i 0).val * 2000) row msgs (ix2 r d) := by
  unfold Gen.k1_pay2
  dsimp only
  refine (addf_apply _ _ _).trans ?_
  refine congrArg₂ (· + ·) (congrFun (shapeCast_self acc _) _) ?_
  refine (matmul_apply _ _ r d).trans ?_
  unfold contribOf
  refine Finset.sum_congr rfl fun e _ => ?_
  refine congrArg₂ (· * ·) ?_ ?_
  · refine (onehot_apply _ row _ _ _ _ _ _ _ r e).trans ?_
    exact congrArg (fun w => hot w (row (ix1 e))) (node_word (i 0).val r.val)
  · exact congrFun (shapeCast_self msgs _) (ix2 e d)

/-- The last point stores, at `(r, d)`, the block plus the bias row, clipped at zero. -/
theorem pay3_apply (acc : Vec Ideal S2000x64 .f32) (b : Vec Ideal S1x64 .f32) (r : Fin 2000) (d : Fin 64) :
    Gen.k1_pay3 (F := Ideal) acc b (ix2 r d) = max (acc (ix2 r d) + b (ix2 0 d)) 0 := by
  unfold Gen.k1_pay3
  refine (maximumf_apply _ _ _).trans ?_
  refine congrArg₂ max ?_ Ideal.ofBits_zero_f32
  refine (addf_apply _ _ _).trans ?_
  refine congrArg₂ (· + ·) (congrFun (shapeCast_self acc _) _) ?_
  exact (broadcastTo_1b_ab_apply _ _ r d).trans (congrFun (shapeCast_self b _) _)

/-! ## The three cases' stored values as functions -/

/-- The update computed from the zero block is the contribution alone: `0 + ∑ = ∑`. -/
theorem val_A (i : grid1.Coords) (x0 : Vec Ideal S2048 .i32) (x1 : Vec Ideal S2048x64 .f32) :
    Gen.k1_pay2 (F := Ideal) i x0 x1 (Gen.k1_pay1 (F := Ideal)) = contribOf ((i 0).val * 2000) x0 x1 := by
  funext j
  obtain ⟨r, d, rfl⟩ : ∃ (r : Fin 2000) (d : Fin 64), j = ix2 r d := ⟨j 0, j 1, eq_ix2 j⟩
  refine (pay2_apply i x0 x1 _ r d).trans ?_
  rw [pay1_apply, zero_add]

/-- The update computed from a block `xo` is `xo` plus the contribution. -/
theorem val_B (i : grid1.Coords) (x0 : Vec Ideal S2048 .i32) (x1 : Vec Ideal S2048x64 .f32) (xo : Vec Ideal S2000x64 .f32) :
    Gen.k1_pay2 (F := Ideal) i x0 x1 xo = fun j => xo j + contribOf ((i 0).val * 2000) x0 x1 j := by
  funext j
  obtain ⟨r, d, rfl⟩ : ∃ (r : Fin 2000) (d : Fin 64), j = ix2 r d := ⟨j 0, j 1, eq_ix2 j⟩
  exact pay2_apply i x0 x1 xo r d

/-- The last point's store over that update: bias added, clipped at zero. -/
theorem val_C (i : grid1.Coords) (x0 : Vec Ideal S2048 .i32) (x1 : Vec Ideal S2048x64 .f32) (x2 : Vec Ideal S1x64 .f32)
    (xo : Vec Ideal S2000x64 .f32) :
    Gen.k1_pay3 (F := Ideal) (Gen.k1_pay2 (F := Ideal) i x0 x1 xo) x2
      = fun j => max ((xo j + contribOf ((i 0).val * 2000) x0 x1 j) + x2 (ix2 0 (j 1))) 0 := by
  funext j
  obtain ⟨r, d, rfl⟩ : ∃ (r : Fin 2000) (d : Fin 64), j = ix2 r d := ⟨j 0, j 1, eq_ix2 j⟩
  refine (pay3_apply _ x2 r d).trans ?_
  exact congrArg (fun t => max (t + x2 (ix2 0 d)) 0) (pay2_apply i x0 x1 xo r d)

/-! ## What each case leaves in the block, as the stored values -/

section Pieces
variable {F : FTy → Type} [FloatOps F]

theorem hz2 : (![0, 0] : Fin 2 → Nat) = fun _ => 0 := funext fun a => match a with | ⟨0, _⟩ => rfl | ⟨1, _⟩ => rfl
theorem hz1 : (![0] : Fin 1 → Nat) = fun _ => 0 := funext fun a => match a with | ⟨0, _⟩ => rfl

/-- A middle point: one store over the whole block, of the update computed from the block as it was. -/
theorem piece_B (c : Dev nD) (i : grid1.Coords) (arg2 : Memref sig .tc .vmem S2048 .i32) (harg2 : arg2.IsWhole)
    (arg3 : Memref sig .tc .vmem S2048x64 .f32) (harg3 : arg3.IsWhole) (arg4 : Memref sig .tc .vmem S1x64 .f32) (harg4 : arg4.IsWhole)
    (arg5 : Memref sig .tc .vmem S2000x64 .f32) (harg5 : arg5.IsWhole)
    (hc0 : ¬Gen.cond1_0 i) (hc1 : ¬Gen.cond1_1 i) (x0 : Vec F S2048 .i32) (x1 : Vec F S2048x64 .f32) (x2 : Vec F S1x64 .f32)
    (xo3 : Vec F S2000x64 .f32) :
    Gen.out1_B_3 c i arg2 harg2 arg3 harg3 arg4 harg4 arg5 harg5 hc0 hc1 x0 x1 x2 xo3 = Gen.k1_pay2 i x0 x1 xo3 := by
  unfold Gen.out1_B_3
  rw [View.read_writes_eq_canon _ _ _ (Gen.cover1_B_3 c i arg2 harg2 arg3 harg3 arg4 harg4 arg5 harg5 hc0 hc1 x0 x1 x2 xo3)]
  unfold Gen.kernelRun1_B
  dsimp only
  sl_unfold_words
  rw [View.canon_unit_zero hz2]
  simp only [View.readAt_eq_ld, harg2.read_unread, harg3.read_unread, harg5.read_unread, View.ld_unit_zero (S := S2048) hz1,
    View.ld_unit_zero (S := S2048x64) hz2, View.ld_unit_zero (S := S2000x64) hz2]

/-- The first point: the zero block is stored, read back, and the update computed from it is stored over it. -/
theorem piece_A (c : Dev nD) (i : grid1.Coords) (arg2 : Memref sig .tc .vmem S2048 .i32) (harg2 : arg2.IsWhole)
    (arg3 : Memref sig .tc .vmem S2048x64 .f32) (harg3 : arg3.IsWhole) (arg4 : Memref sig .tc .vmem S1x64 .f32) (harg4 : arg4.IsWhole)
    (arg5 : Memref sig .tc .vmem S2000x64 .f32) (harg5 : arg5.IsWhole)
    (hc0 : Gen.cond1_0 i) (hc1 : ¬Gen.cond1_1 i) (x0 : Vec F S2048 .i32) (x1 : Vec F S2048x64 .f32) (x2 : Vec F S1x64 .f32) :
    Gen.out1_A_3 c i arg2 harg2 arg3 harg3 arg4 harg4 arg5 harg5 hc0 hc1 x0 x1 x2 = Gen.k1_pay2 i x0 x1 (Gen.k1_pay1 (F := F)) := by
  unfold Gen.out1_A_3
  rw [View.read_writes_eq_canon _ _ _ (Gen.cover1_A_3 c i arg2 harg2 arg3 harg3 arg4 harg4 arg5 harg5 hc0 hc1 x0 x1 x2)]
  unfold Gen.kernelRun1_A
  dsimp only
  sl_unfold_words
  rw [View.canon_cons_unit_zero (S := S2000x64) hz2]
  simp only [View.readAt_eq_ld, harg2.read_unread, harg3.read_unread, View.ld_unit_zero (S := S2048) hz1,
    View.ld_unit_zero (S := S2048x64) hz2, View.readCov_unit_zero (S := S2000x64) _ hz2]

/-- The last point: the update is stored, read back, and the biased, clipped block is stored over it. -/
theorem piece_C (c : Dev nD) (i : grid1.Coords) (arg2 : Memref sig .tc .vmem S2048 .i32) (harg2 : arg2.IsWhole)
    (arg3 : Memref sig .tc .vmem S2048x64 .f32) (harg3 : arg3.IsWhole) (arg4 : Memref sig .tc .vmem S1x64 .f32) (harg4 : arg4.IsWhole)
    (arg5 : Memref sig .tc .vmem S2000x64 .f32) (harg5 : arg5.IsWhole)
    (hc0 : ¬Gen.cond1_0 i) (hc1 : Gen.cond1_1 i) (x0 : Vec F S2048 .i32) (x1 : Vec F S2048x64 .f32) (x2 : Vec F S1x64 .f32)
    (xo3 : Vec F S2000x64 .f32) :
    Gen.out1_C_3 c i arg2 harg2 arg3 harg3 arg4 harg4 arg5 harg5 hc0 hc1 x0 x1 x2 xo3 = Gen.k1_pay3 (Gen.k1_pay2 i x0 x1 xo3) x2 := by
  unfold Gen.out1_C_3
  rw [View.read_writes_eq_canon _ _ _ (Gen.cover1_C_3 c i arg2 harg2 arg3 harg3 arg4 harg4 arg5 harg5 hc0 hc1 x0 x1 x2 xo3)]
  unfold Gen.kernelRun1_C
  dsimp only
  sl_unfold_words
  rw [View.canon_cons_unit_zero (S := S2000x64) hz2]
  simp only [View.readAt_eq_ld, harg2.read_unread, harg3.read_unread, harg4.read_unread, harg5.read_unread,
    View.ld_unit_zero (S := S2048) hz1, View.ld_unit_zero (S := S2048x64) hz2, View.ld_unit_zero (S := S2000x64) hz2,
    View.ld_unit_zero (S := S1x64) hz2, View.readCov_unit_zero (S := S2000x64) _ hz2]

end Pieces

/-! ## The three cases as values -/

/-- The first point of a grid row leaves the block's contribution alone. -/
theorem out1_A_3_eq (c : Dev nD) (i : grid1.Coords) (arg2 : Memref sig .tc .vmem S2048 .i32) (harg2 : arg2.IsWhole)
    (arg3 : Memref sig .tc .vmem S2048x64 .f32) (harg3 : arg3.IsWhole) (arg4 : Memref sig .tc .vmem S1x64 .f32) (harg4 : arg4.IsWhole)
    (arg5 : Memref sig .tc .vmem S2000x64 .f32) (harg5 : arg5.IsWhole)
    (hc0 : Gen.cond1_0 i) (hc1 : ¬Gen.cond1_1 i) (x0 : Vec Ideal S2048 .i32) (x1 : Vec Ideal S2048x64 .f32) (x2 : Vec Ideal S1x64 .f32) :
    Gen.out1_A_3 (F := Ideal) c i arg2 harg2 arg3 harg3 arg4 harg4 arg5 harg5 hc0 hc1 x0 x1 x2 = Cert.Gcn.contribOf ((i 0).val * 2000) x0 x1 :=
  (piece_A (F := Ideal) c i arg2 harg2 arg3 harg3 arg4 harg4 arg5 harg5 hc0 hc1 x0 x1 x2).trans (val_A i x0 x1)

/-- A middle point adds the block's contribution to what the point before left. -/
theorem out1_B_3_eq (c : Dev nD) (i : grid1.Coords) (arg2 : Memref sig .tc .vmem S2048 .i32) (harg2 : arg2.IsWhole)
    (arg3 : Memref sig .tc .vmem S2048x64 .f32) (harg3 : arg3.IsWhole) (arg4 : Memref sig .tc .vmem S1x64 .f32) (harg4 : arg4.IsWhole)
    (arg5 : Memref sig .tc .vmem S2000x64 .f32) (harg5 : arg5.IsWhole)
    (hc0 : ¬Gen.cond1_0 i) (hc1 : ¬Gen.cond1_1 i) (x0 : Vec Ideal S2048 .i32) (x1 : Vec Ideal S2048x64 .f32) (x2 : Vec Ideal S1x64 .f32)
    (xo3 : Vec Ideal S2000x64 .f32) :
    Gen.out1_B_3 (F := Ideal) c i arg2 harg2 arg3 harg3 arg4 harg4 arg5 harg5 hc0 hc1 x0 x1 x2 xo3
      = fun j => xo3 j + Cert.Gcn.contribOf ((i 0).val * 2000) x0 x1 j :=
  (piece_B (F := Ideal) c i arg2 harg2 arg3 harg3 arg4 harg4 arg5 harg5 hc0 hc1 x0 x1 x2 xo3).trans (val_B i x0 x1 xo3)

/-- The last point adds the block's contribution, then the bias, and clips at zero. -/
theorem out1_C_3_eq (c : Dev nD) (i : grid1.Coords) (arg2 : Memref sig .tc .vmem S2048 .i32) (harg2 : arg2.IsWhole)
    (arg3 : Memref sig .tc .vmem S2048x64 .f32) (harg3 : arg3.IsWhole) (arg4 : Memref sig .tc .vmem S1x64 .f32) (harg4 : arg4.IsWhole)
    (arg5 : Memref sig .tc .vmem S2000x64 .f32) (harg5 : arg5.IsWhole)
    (hc0 : ¬Gen.cond1_0 i) (hc1 : Gen.cond1_1 i) (x0 : Vec Ideal S2048 .i32) (x1 : Vec Ideal S2048x64 .f32) (x2 : Vec Ideal S1x64 .f32)
    (xo3 : Vec Ideal S2000x64 .f32) :
    Gen.out1_C_3 (F := Ideal) c i arg2 harg2 arg3 harg3 arg4 harg4 arg5 harg5 hc0 hc1 x0 x1 x2 xo3
      = fun j => max ((xo3 j + Cert.Gcn.contribOf ((i 0).val * 2000) x0 x1 j) + x2 (ix2 0 (j 1))) 0 :=
  (piece_C (F := Ideal) c i arg2 harg2 arg3 harg3 arg4 harg4 arg5 harg5 hc0 hc1 x0 x1 x2 xo3).trans (val_C i x0 x1 x2 xo3)

end Cert.KernelIdeal.ScatterBody1
-- ==== Proof.ScatterArr1.lean ====
import proofs.«158019_j83202106458211_1_alg».proof.Proof.ScatterBody1
import Idealize.ShloMosaic.Lib.ValueIdx
import Idealize.ShloMosaic.Lib.Pipeline.Value
import Mathlib.Algebra.BigOperators.Fin
import Mathlib.Logic.Equiv.Fin.Basic

/-!
  The scatter region, from blocks to the whole array.

  The grid is 50 × 635, point t = 635 · i + k. Output block i (nodes 2000 i … 2000 i + 1999) is carried
  across k: emptied and given edge block 0's contribution at k = 0, given edge block k's contribution at
  every later k, and at k = 634 the bias is added and the result clipped at zero, after which the block is
  written back. Edge block k is edges 2048 k … 2048 k + 2047. So node 2000 i + r, feature d ends at
    max ((∑_{k < 635} ∑_{e < 2048} [2000 i + r = row (2048 k + e)] · msgs (2048 k + e) d) + b d) 0,
  and the double sum is the sum over all 635 · 2048 = 1300480 edges: the layer's aggregation `aggOf`.
-/

noncomputable section

namespace Cert.KernelIdeal.ScatterArr1

open Idealize.ShloMosaic Idealize.ShloMosaic.TcCoe Idealize.SL.Sem Idealize.ShloMosaic.ValueIdx Cert.KernelIdeal Cert.Gcn
open Idealize.ShloMosaic.Pipeline (Dat)

/-! ## Sums over K · B positions, block by block -/

theorem blk_lt {K B : ℕ} (s : Fin K) (e : Fin B) : B * s.val + e.val < K * B :=
  calc B * s.val + e.val < B * s.val + B := Nat.add_lt_add_left e.isLt _
    _ = B * (s.val + 1) := (Nat.mul_succ _ _).symm
    _ ≤ B * K := Nat.mul_le_mul_left _ s.isLt
    _ = K * B := Nat.mul_comm _ _

/-- A sum over n = K · B positions is the sum over the K blocks of the sums inside each block; block s holds
    the positions B · s + e. -/
theorem sum_blocks {β : Type*} [AddCommMonoid β] {n : ℕ} (K B : ℕ) (h : n = K * B) (F : Fin n → β) :
    ∑ x : Fin n, F x = ∑ s : Fin K, ∑ e : Fin B, F ⟨B * s.val + e.val, h ▸ blk_lt s e⟩ := by
  subst h
  rw [← finProdFinEquiv.sum_comp, Fintype.sum_prod_type]
  refine Finset.sum_congr rfl fun s _ => Finset.sum_congr rfl fun e _ => congrArg F (Fin.ext ?_)
  show (finProdFinEquiv (s, e)).val = B * s.val + e.val
  rw [finProdFinEquiv_apply_val]; exact Nat.add_comm _ _

/-! ## One point's contribution, read off the whole arrays -/

/-- Edge e of the edge block that point n reads: position 2048 · (n mod 635) + e of the edge list. -/
def edgeAt (n : ℕ) (e : Fin 2048) : Fin 1300480 :=
  ⟨2048 * (n % 635) + e.val, by have := Nat.mod_lt n (show 0 < 635 by decide); have := e.isLt; omega⟩

theorem edgeAt_of_mod {n : ℕ} {s : Fin 635} (h : n % 635 = s.val) (e : Fin 2048) (p : 2048 * s.val + e.val < 1300480) :
    edgeAt n e = ⟨2048 * s.val + e.val, p⟩ := Fin.ext (by show 2048 * (n % 635) + e.val = _; rw [h])

/-- What point n adds to its node block: for node 2000 · (n / 635) + r and feature d, the messages of the
    point's 2048 edges whose row word is that node. -/
def addend (row : IVec ⟨1, ![1300480]⟩ 32) (msgs : FVec Ideal ⟨2, ![1300480, 64]⟩ .f32) (n : ℕ) :
    FVec Ideal ⟨2, ![2000, 64]⟩ .f32 :=
  fun j => ∑ e : Fin 2048, hot (BitVec.ofNat 32 (n / 635 * 2000 + (j 0).val)) (row (ix1 (edgeAt n e)))
    * msgs (ix2 (edgeAt n e) (j 1))

/-- The contributions of the 635 points of node block q, added up, are the sum over every edge. -/
theorem sum_addend (row : IVec ⟨1, ![1300480]⟩ 32) (msgs : FVec Ideal ⟨2, ![1300480, 64]⟩ .f32) (q : ℕ)
    (j : (⟨2, ![2000, 64]⟩ : Shape).Idx) :
    ∑ s ∈ Finset.range 635, addend row msgs (635 * q + s) j
      = ∑ e : Fin 1300480, hot (BitVec.ofNat 32 (q * 2000 + (j 0).val)) (row (ix1 e)) * msgs (ix2 e (j 1)) := by
  rw [Finset.sum_range (fun s => addend row msgs (635 * q + s) j),
    sum_blocks 635 2048 (by norm_num)
      (fun e : Fin 1300480 => hot (BitVec.ofNat 32 (q * 2000 + (j 0).val)) (row (ix1 e)) * msgs (ix2 e (j 1)))]
  refine Finset.sum_congr rfl fun s _ => Finset.sum_congr rfl fun e _ => ?_
  have hs : s.val < 635 := s.isLt
  have hq : (635 * q + s.val) / 635 = q := by omega
  have hr : (635 * q + s.val) % 635 = s.val := by omega
  rw [edgeAt_of_mod hr e (by have := e.isLt; omega), hq]

/-- The value a node block is written back with, against the layer's aggregation at the node's own index. -/
theorem agg_at (row : IVec ⟨1, ![1300480]⟩ 32) (msgs : FVec Ideal ⟨2, ![1300480, 64]⟩ .f32)
    (b : FVec Ideal ⟨2, ![1, 64]⟩ .f32) (q : ℕ) (j : (⟨2, ![2000, 64]⟩ : Shape).Idx)
    (i : (⟨2, ![100000, 64]⟩ : Shape).Idx) (h0 : (i 0).val = q * 2000 + (j 0).val) (h1 : (i 1).val = (j 1).val) :
    max ((∑ s ∈ Finset.range 635, addend row msgs (635 * q + s) j) + b (ix2 0 (j 1))) 0 = aggOf row msgs b i := by
  have e1 : i 1 = j 1 := Fin.ext h1
  unfold aggOf
  rw [sum_addend, h0, e1]

/-! ## The grid's coordinates and the windows' block indices -/

theorem stride1_0 : grid1.stride 0 = 635 := by decide
theorem stride1_1 : grid1.stride 1 = 1 := by decide

theorem lt_N (t : Fin cfg1.N) : t.val < 31750 := lt_of_lt_of_eq t.isLt (show cfg1.N = 31750 from Gen.N_1)

/-- Point t is (t / 635, t mod 635). -/
theorem coord0 (t : Fin cfg1.N) : (grid1.coords t 0).val = t.val / 635 := by
  have hN := lt_N t
  show t.val / grid1.stride 0 % 50 = t.val / 635
  rw [stride1_0]; omega

theorem coord1 (t : Fin cfg1.N) : (grid1.coords t 1).val = t.val % 635 := by
  show t.val / grid1.stride 1 % 635 = t.val % 635
  rw [stride1_1, Nat.div_one]

theorem word_of_lt {x : ℕ} (h : x < 635) : (BitVec.ofNat 32 x).toNat = x := by
  rw [BitVec.toNat_ofNat]; exact Nat.mod_eq_of_lt (by omega)

/-- The edge windows sit at block k, the output window at block i. -/
theorem idx0_0 (t : Fin cfg1.N) : win1_0.index t 0 = t.val % 635 := by
  show (BitVec.ofNat 32 (grid1.coords t 1).val).toNat = _
  rw [coord1, word_of_lt (Nat.mod_lt _ (by decide))]

theorem idx1_0 (t : Fin cfg1.N) : win1_1.index t 0 = t.val % 635 := by
  show (BitVec.ofNat 32 (grid1.coords t 1).val).toNat = _
  rw [coord1, word_of_lt (Nat.mod_lt _ (by decide))]

theorem idx1_1 (t : Fin cfg1.N) : win1_1.index t 1 = 0 := rfl

theorem idx2_0 (t : Fin cfg1.N) : win1_2.index t 0 = 0 := rfl
theorem idx2_1 (t : Fin cfg1.N) : win1_2.index t 1 = 0 := rfl

theorem idx3_0 (t : Fin cfg1.N) : win1_3.index t 0 = t.val / 635 := by
  have hN := lt_N t
  show (BitVec.ofNat 32 (grid1.coords t 0).val).toNat = _
  rw [coord0, word_of_lt (by omega)]

theorem idx3_1 (t : Fin cfg1.N) : win1_3.index t 1 = 0 := rfl

section Region

variable (V : (c : Dev nD) → (b : Ref sig .tc) → Buf (Elt Ideal) ((c : Thread nD τ).loc b)) (c : Dev nD)

/-- The three arrays as the region finds them, -/
abbrev rowArr : Vec Ideal S1300480 .i32 := V c main_v32
abbrev msgArr : Vec Ideal S1300480x64 .f32 := V c main_v36
abbrev biasArr : Vec Ideal S1x64 .f32 := V c main_v37
/-- and their blocks at a point. -/
abbrev rowBlk (t : Fin cfg1.N) : Vec Ideal S2048 .i32 := Gen.iblk1 V c 0 t
abbrev msgBlk (t : Fin cfg1.N) : Vec Ideal S2048x64 .f32 := Gen.iblk1 V c 1 t
abbrev biasBlk (t : Fin cfg1.N) : Vec Ideal S1x64 .f32 := Gen.iblk1 V c 2 t

/-- Edge e of the point's row block is edge 2048 k + e of the list. -/
theorem rowBlk_apply (t : Fin cfg1.N) (e : Fin 2048) :
    rowBlk V c t (ix1 e) = rowArr V c (ix1 (edgeAt t.val e)) := by
  unfold rowBlk Gen.iblk1
  rw [View.read_apply]
  show rowArr V c _ = _
  congr 1
  funext a
  apply Fin.ext
  match a with
  | ⟨0, _⟩ =>
    show win1_0.index t 0 * 2048 + 1 * e.val = 2048 * (t.val % 635) + e.val
    rw [idx0_0]; omega

/-- Edge e, feature d of the point's message block is edge 2048 k + e, feature d of the list. -/
theorem msgBlk_apply (t : Fin cfg1.N) (e : Fin 2048) (d : Fin 64) :
    msgBlk V c t (ix2 e d) = msgArr V c (ix2 (edgeAt t.val e) d) := by
  unfold msgBlk Gen.iblk1
  rw [View.read_apply]
  show msgArr V c _ = _
  congr 1
  funext a
  apply Fin.ext
  match a with
  | ⟨0, _⟩ =>
    show win1_1.index t 0 * 2048 + 1 * e.val = 2048 * (t.val % 635) + e.val
    rw [idx1_0]; omega
  | ⟨1, _⟩ =>
    show win1_1.index t 1 * 64 + 1 * d.val = d.val
    rw [idx1_1]; omega

/-- The bias block is the bias. -/
theorem biasBlk_apply (t : Fin cfg1.N) (d : Fin 64) :
    biasBlk V c t (ix2 0 d) = biasArr V c (ix2 0 d) := by
  unfold biasBlk Gen.iblk1
  rw [View.read_apply]
  show biasArr V c _ = _
  congr 1
  funext a
  apply Fin.ext
  match a with
  | ⟨0, _⟩ =>
    show win1_2.index t 0 * 1 + 1 * 0 = 0
    rw [idx2_0]
  | ⟨1, _⟩ =>
    show win1_2.index t 1 * 64 + 1 * d.val = d.val
    rw [idx2_1]; omega

/-- A point's blocks contribute the point's addend. -/
theorem contrib_blk (t : Fin cfg1.N) :
    contribOf ((grid1.coords t 0).val * 2000) (rowBlk V c t) (msgBlk V c t) = addend (rowArr V c) (msgArr V c) t.val := by
  funext j
  show ∑ e : Fin 2048, hot (BitVec.ofNat 32 ((grid1.coords t 0).val * 2000 + (j 0).val)) (rowBlk V c t (ix1 e))
      * msgBlk V c t (ix2 e (j 1))
    = ∑ e : Fin 2048, hot (BitVec.ofNat 32 (t.val / 635 * 2000 + (j 0).val)) (rowArr V c (ix1 (edgeAt t.val e)))
      * msgArr V c (ix2 (edgeAt t.val e) (j 1))
  rw [coord0]
  refine Finset.sum_congr rfl fun e _ => ?_
  rw [rowBlk_apply, msgBlk_apply V c t e (j 1)]

/-! ## What the carried block holds, point by point -/

/-- One step from the point before: add the point's addend; at the last point of a run also add the bias and clip. -/
def stepAt (row : IVec ⟨1, ![1300480]⟩ 32) (msgs : FVec Ideal ⟨2, ![1300480, 64]⟩ .f32)
    (b : FVec Ideal ⟨2, ![1, 64]⟩ .f32) (n : ℕ) (acc : FVec Ideal ⟨2, ![2000, 64]⟩ .f32) :
    FVec Ideal ⟨2, ![2000, 64]⟩ .f32 :=
  if n % 635 = 634 then fun j => max ((acc j + addend row msgs n j) + b (ix2 0 (j 1))) 0
  else fun j => acc j + addend row msgs n j

/-- The carried block as a function of the point. -/
abbrev outs : (n : ℕ) → n < cfg1.N → Vec Ideal S2000x64 .f32 := Gen.outsAt1 V c

/-- At the first point of a run the block holds that point's addend. -/
theorem outs_reset (n : ℕ) (h : n < cfg1.N) (h0 : n % 635 = 0) :
    outs V c n h = addend (rowArr V c) (msgArr V c) n := by
  have h1 : ¬(⟨n, h⟩ : Fin cfg1.N).val % 635 = 634 := by show ¬n % 635 = 634; omega
  refine (Gen.outsAt1_A V c ⟨n, h⟩ h0 h1).trans ?_
  refine (ScatterBody1.out1_A_3_eq c (grid1.coords ⟨n, h⟩) (Gen.ms1_0 ⟨n, h⟩) (Gen.hs1_0 ⟨n, h⟩) (Gen.ms1_1 ⟨n, h⟩) (Gen.hs1_1 ⟨n, h⟩)
    (Gen.ms1_2 ⟨n, h⟩) (Gen.hs1_2 ⟨n, h⟩) (Gen.ms1_3 ⟨n, h⟩) (Gen.hs1_3 ⟨n, h⟩) ((Gen.hcond1_0 ⟨n, h⟩).mpr h0)
    (fun hh => h1 ((Gen.hcond1_1 ⟨n, h⟩).mp hh)) (rowBlk V c ⟨n, h⟩) (msgBlk V c ⟨n, h⟩) (biasBlk V c ⟨n, h⟩)).trans ?_
  exact contrib_blk V c ⟨n, h⟩

/-- At every other point it steps from the point before. -/
theorem outs_step (n : ℕ) (h : n + 1 < cfg1.N) (h0 : ¬(n + 1) % 635 = 0) :
    outs V c (n + 1) h
      = stepAt (rowArr V c) (msgArr V c) (biasArr V c) (n + 1) (outs V c n (Nat.lt_of_succ_lt h)) := by
  by_cases h1 : (n + 1) % 635 = 634
  · refine (Gen.outsAt1_C V c ⟨n + 1, h⟩ h0 h1).trans ?_
    refine (ScatterBody1.out1_C_3_eq c (grid1.coords ⟨n + 1, h⟩) (Gen.ms1_0 ⟨n + 1, h⟩) (Gen.hs1_0 ⟨n + 1, h⟩) (Gen.ms1_1 ⟨n + 1, h⟩)
      (Gen.hs1_1 ⟨n + 1, h⟩) (Gen.ms1_2 ⟨n + 1, h⟩) (Gen.hs1_2 ⟨n + 1, h⟩) (Gen.ms1_3 ⟨n + 1, h⟩) (Gen.hs1_3 ⟨n + 1, h⟩)
      (fun hh => h0 ((Gen.hcond1_0 ⟨n + 1, h⟩).mp hh)) ((Gen.hcond1_1 ⟨n + 1, h⟩).mpr h1)
      (rowBlk V c ⟨n + 1, h⟩) (msgBlk V c ⟨n + 1, h⟩) (biasBlk V c ⟨n + 1, h⟩)
      (outs V c n (Nat.lt_of_succ_lt h))).trans ?_
    unfold stepAt
    rw [if_pos h1]
    funext j
    show max ((outs V c n _ j + contribOf ((grid1.coords ⟨n + 1, h⟩ 0).val * 2000) (rowBlk V c ⟨n + 1, h⟩)
        (msgBlk V c ⟨n + 1, h⟩) j) + biasBlk V c ⟨n + 1, h⟩ (ix2 0 (j 1))) 0 = _
    rw [contrib_blk V c ⟨n + 1, h⟩, biasBlk_apply V c ⟨n + 1, h⟩ (j 1)]
  · refine (Gen.outsAt1_B V c ⟨n + 1, h⟩ h0 h1).trans ?_
    refine (ScatterBody1.out1_B_3_eq c (grid1.coords ⟨n + 1, h⟩) (Gen.ms1_0 ⟨n + 1, h⟩) (Gen.hs1_0 ⟨n + 1, h⟩) (Gen.ms1_1 ⟨n + 1, h⟩)
      (Gen.hs1_1 ⟨n + 1, h⟩) (Gen.ms1_2 ⟨n + 1, h⟩) (Gen.hs1_2 ⟨n + 1, h⟩) (Gen.ms1_3 ⟨n + 1, h⟩) (Gen.hs1_3 ⟨n + 1, h⟩)
      (fun hh => h0 ((Gen.hcond1_0 ⟨n + 1, h⟩).mp hh)) (fun hh => h1 ((Gen.hcond1_1 ⟨n + 1, h⟩).mp hh))
      (rowBlk V c ⟨n + 1, h⟩) (msgBlk V c ⟨n + 1, h⟩) (biasBlk V c ⟨n + 1, h⟩)
      (outs V c n (Nat.lt_of_succ_lt h))).trans ?_
    unfold stepAt
    rw [if_neg h1]
    funext j
    show outs V c n _ j + contribOf ((grid1.coords ⟨n + 1, h⟩ 0).val * 2000) (rowBlk V c ⟨n + 1, h⟩)
        (msgBlk V c ⟨n + 1, h⟩) j = _
    rw [contrib_blk V c ⟨n + 1, h⟩]

/-- The fold of a whole run of 635 points from 635 q: every addend of the run, the bias, the clip. -/
theorem fold_run {N : ℕ} (row : IVec ⟨1, ![1300480]⟩ 32) (msgs : FVec Ideal ⟨2, ![1300480, 64]⟩ .f32)
    (b : FVec Ideal ⟨2, ![1, 64]⟩ .f32) (q : ℕ) (h : 635 * q + 634 < N) (j : (⟨2, ![2000, 64]⟩ : Shape).Idx) :
    Pipeline.accAt (N := N) (fun n _ => addend row msgs n) (fun n _ acc => stepAt row msgs b n acc) (635 * q) 634 h j
      = max ((∑ s ∈ Finset.range 635, addend row msgs (635 * q + s) j) + b (ix2 0 (j 1))) 0 := by
  show stepAt row msgs b (635 * q + (633 + 1))
      (Pipeline.accAt (N := N) (fun n _ => addend row msgs n) (fun n _ acc => stepAt row msgs b n acc) (635 * q) 633
        (Nat.lt_of_succ_lt h)) j = _
  have hlast : (635 * q + (633 + 1)) % 635 = 634 := by omega
  unfold stepAt
  rw [if_pos hlast]
  show max ((Pipeline.accAt (N := N) (fun n _ => addend row msgs n) (fun n _ acc => stepAt row msgs b n acc)
      (635 * q) 633 (Nat.lt_of_succ_lt h) j + addend row msgs (635 * q + (633 + 1)) j) + b (ix2 0 (j 1))) 0 = _
  rw [Pipeline.accAt_add_apply (N := N) (fun n _ => addend row msgs n) (fun n _ acc => stepAt row msgs b n acc)
    (fun _ => 0) (addend row msgs) (635 * q) 633 (fun _ i => (zero_add _).symm)
    (fun n hn acc i hlo hhi => by
      have hmid : ¬n % 635 = 634 := by omega
      show stepAt row msgs b n acc i = _
      unfold stepAt; rw [if_neg hmid])
    633 le_rfl (Nat.lt_of_succ_lt h) j, zero_add]
  exact congrArg (fun x => max (x + b (ix2 0 (j 1))) 0)
    (Finset.sum_range_succ (fun s => addend row msgs (635 * q + s) j) 634).symm

/-- At the last point of its run the carried block holds the layer's aggregation of its nodes. -/
theorem outs_flush (t : Fin cfg1.N) (hf : t.val % 635 = 634) (j : S2000x64.Idx) (i : S100000x64.Idx)
    (h0 : (i 0).val = t.val / 635 * 2000 + (j 0).val) (h1 : (i 1).val = (j 1).val) :
    outs V c t.val t.isLt j = aggOf (rowArr V c) (msgArr V c) (biasArr V c) i := by
  have ht : 635 * (t.val / 635) + 634 = t.val := by omega
  have h' : 635 * (t.val / 635) + 634 < cfg1.N := by rw [ht]; exact t.isLt
  have same : ∀ (u : ℕ) (hu : u < cfg1.N), u = t.val → outs V c u hu = outs V c t.val t.isLt :=
    fun u hu e => by subst e; rfl
  rw [← same _ h' ht,
    Pipeline.eq_accAt (outs V c) 635 (fun n _ => addend (rowArr V c) (msgArr V c) n)
      (fun n _ acc => stepAt (rowArr V c) (msgArr V c) (biasArr V c) n acc)
      (outs_reset V c) (outs_step V c) (t.val / 635) 634 (by decide) h']
  exact (fold_run (rowArr V c) (msgArr V c) (biasArr V c) (t.val / 635) h' j).trans
    (agg_at (rowArr V c) (msgArr V c) (biasArr V c) (t.val / 635) j i h0 h1)

/-! ## From the blocks to the array -/

/-- Reading the output window's block of an array: the array at the block's own indices. -/
theorem read_blk3 (t : Fin cfg1.N) (G : Vec Ideal S100000x64 .f32) (y : ((cfg1.win 3).xblock (grid1.coords t)).Idx) :
    ((cfg1.win 3).blk t).view.read (Elt Ideal) G y = G (((cfg1.win 3).blk t).view.emb y) := rfl

/-- The block is written back whole. -/
theorem cut3 (t : Fin cfg1.N) (X : Vec Ideal S2000x64 .f32) (y : ((cfg1.win 3).xblock (grid1.coords t)).Idx) :
    (cfg1.win 3).cut (grid1.coords t) X y = X ((cfg1.win 3).xinj (grid1.coords t) y) := rfl

/-- Row r of output block i is node 2000 i + r; the features are not moved. -/
theorem emb3_0 (t : Fin cfg1.N) (y : ((cfg1.win 3).xblock (grid1.coords t)).Idx) :
    ((((cfg1.win 3).blk t).view.emb y : S100000x64.Idx) 0).val
      = t.val / 635 * 2000 + (((cfg1.win 3).xinj (grid1.coords t) y : S2000x64.Idx) 0).val := by
  show win1_3.index t 0 * 2000 + 1 * (y 0).val = t.val / 635 * 2000 + (y 0).val
  rw [idx3_0]; omega

theorem emb3_1 (t : Fin cfg1.N) (y : ((cfg1.win 3).xblock (grid1.coords t)).Idx) :
    ((((cfg1.win 3).blk t).view.emb y : S100000x64.Idx) 1).val
      = (((cfg1.win 3).xinj (grid1.coords t) y : S2000x64.Idx) 1).val := by
  show win1_3.index t 1 * 64 + 1 * (y 1).val = (y 1).val
  rw [idx3_1]; omega

/-- What a flushing point writes back is its block of the layer's aggregation. -/
theorem flushed_eq (t : Fin cfg1.N) (hf : (cfg1.win 3).flush t = true) :
    (Gen.dat1 (F := Ideal) V c).flushed 3 t
      = ((cfg1.win 3).blk t).view.read (Elt Ideal) (aggOf (rowArr V c) (msgArr V c) (biasArr V c) : Vec Ideal S100000x64 .f32) := by
  have h634 : t.val % 635 = 634 := (Gen.flush1_3 t).mp hf
  show (cfg1.win 3).cut (grid1.coords t) ((Gen.dat1 (F := Ideal) V c).after 3 t) = _
  rw [Gen.after1_3]
  funext y
  rw [cut3 t (Gen.outsAt1 V c t.val t.isLt) y, read_blk3 t (aggOf (rowArr V c) (msgArr V c) (biasArr V c)) y]
  exact outs_flush V c t h634 ((cfg1.win 3).xinj (grid1.coords t) y) (((cfg1.win 3).blk t).view.emb y)
    (emb3_0 t y) (emb3_1 t y)

/-- Every node row lies in the block some flushing point writes back: the last point of its block's run. -/
theorem cover (i : S100000x64.Idx) :
    ∃ t : Fin cfg1.N, (cfg1.win 3).flush t = true ∧ i ∈ ((cfg1.win 3).blk t).view.set := by
  have hi0 : (i 0).val < 100000 := (i 0).isLt
  have hi1 : (i 1).val < 64 := (i 1).isLt
  have hN : cfg1.N = 31750 := Gen.N_1
  have hlt : 635 * ((i 0).val / 2000) + 634 < cfg1.N := by rw [hN]; omega
  refine ⟨⟨635 * ((i 0).val / 2000) + 634, hlt⟩, (Gen.flush1_3 _).mpr (by show (635 * ((i 0).val / 2000) + 634) % 635 = 634; omega), ?_⟩
  show i ∈ ((View.whole main_v38).slice (win1_3.rect ⟨635 * ((i 0).val / 2000) + 634, hlt⟩)).set
  rw [View.set_slice_whole, Rect.mem_set_unit]
  intro a
  match a with
  | ⟨0, _⟩ =>
    show win1_3.index ⟨635 * ((i 0).val / 2000) + 634, hlt⟩ 0 * 2000 ≤ (i 0).val
      ∧ (i 0).val < win1_3.index ⟨635 * ((i 0).val / 2000) + 634, hlt⟩ 0 * 2000 + 2000
    rw [idx3_0]
    show (635 * ((i 0).val / 2000) + 634) / 635 * 2000 ≤ (i 0).val
      ∧ (i 0).val < (635 * ((i 0).val / 2000) + 634) / 635 * 2000 + 2000
    omega
  | ⟨1, _⟩ =>
    show win1_3.index ⟨635 * ((i 0).val / 2000) + 634, hlt⟩ 1 * 64 ≤ (i 1).val
      ∧ (i 1).val < win1_3.index ⟨635 * ((i 0).val / 2000) + 634, hlt⟩ 1 * 64 + 64
    rw [idx3_1]; omega

/-- After the region the whole output is the layer's aggregation of the arrays the region found. -/
theorem agg_arr1 :
    ((Gen.dat1 (F := Ideal) V c).arrAt 3 cfg1.N : Vec Ideal S100000x64 .f32)
      = aggOf (V c main_v32 : Vec Ideal S1300480 .i32) (V c main_v36 : Vec Ideal S1300480x64 .f32)
          (V c main_v37 : Vec Ideal S1x64 .f32) :=
  (Gen.dat1 (F := Ideal) V c).arrAt_eq_of_cover 3
    (aggOf (rowArr V c) (msgArr V c) (biasArr V c) : Vec Ideal S100000x64 .f32) (flushed_eq V c) cover

end Region

end Cert.KernelIdeal.ScatterArr1

end
-- ==== Proof.GatherBody0.lean ====
/-
  The gather body on one block of 2048 edges, at the exact values.

  For the block's words `x0 e`, weights `x1 e` and the table `x2` (100000 rows of 64), the body leaves at (e, d)
      (∑ r < 100000, [x0 e = r] · x2 (r, d)) · x1 e.
  It gets there in three steps. The accumulator is set to zero. Trip k of fifty forms the 2048 × 2000 matrix of
  indicators [x0 e = 2000 k + j], multiplies it with rows 2000 k … 2000 k + 1999 of the table and adds the product to
  the accumulator: after k trips the accumulator holds the sum over the first 2000 k rows (an induction over the
  trips; the fifty blocks of two thousand rows are the hundred thousand rows). The stored block is the accumulator
  times the weights along the rows.
-/
import proofs.«158019_j83202106458211_1_alg».proof.Proof.Gen.KernelIdeal.Frame
import proofs.«158019_j83202106458211_1_alg».proof.Proof.Spec
import Idealize.ShloMosaic.Lib.ValueIdx
import Idealize.ShloMosaic.Lib.Pipeline.Value
import Idealize.ShloMosaic.PureOps.Ideal.Laws
import Idealize.ShloMosaic.Lib.ValueLayout
import Idealize.ShloMosaic.Lib.StableHlo.Predicate
import Idealize.ShloMosaic.Lib.Tactic

noncomputable section

namespace Cert.KernelIdeal.GatherBody0

open Idealize.ShloMosaic Idealize.ShloMosaic.TcCoe Idealize.SL.Sem Idealize.ShloMosaic.ValueIdx Cert.KernelIdeal Cert.Gcn
open Idealize.ShloMosaic.Tactic

/-! ## The trip's matrix product read at an index

The product contracts the left operand's axis 1 with the right operand's axis 0; the four lemmas say which
coordinate each operand axis reads. -/

/-- The left operand's row is the result's row. -/
theorem lhs_D0_0 (i : S2048x64.Idx) (q : dot_S2048x2000_S2000x64_S2048x64_1_0_0_1_n_n.contr.Idx) :
    (dot_S2048x2000_S2000x64_S2048x64_1_0_0_1_n_n.lhsIdx i q 0).val = (i 0).val := by
  unfold DotDims.lhsIdx
  rw [dif_neg (show ¬(0 : Fin S2048x2000.rank) ∈ dot_S2048x2000_S2000x64_S2048x64_1_0_0_1_n_n.lhsBatch by decide),
    dif_pos (show (0 : Fin S2048x2000.rank) ∈ dot_S2048x2000_S2000x64_S2048x64_1_0_0_1_n_n.lhsNonContracting by decide)]
  rfl

/-- The left operand's column is the contraction position. -/
theorem lhs_D0_1 (i : S2048x64.Idx) (q : dot_S2048x2000_S2000x64_S2048x64_1_0_0_1_n_n.contr.Idx) :
    (dot_S2048x2000_S2000x64_S2048x64_1_0_0_1_n_n.lhsIdx i q 1).val = (q ⟨0, by decide⟩).val :=
  dot_S2048x2000_S2000x64_S2048x64_1_0_0_1_n_n.lhsIdx_val_of_single rfl i q

/-- The right operand's row is the contraction position. -/
theorem rhs_D0_0 (i : S2048x64.Idx) (q : dot_S2048x2000_S2000x64_S2048x64_1_0_0_1_n_n.contr.Idx) :
    (dot_S2048x2000_S2000x64_S2048x64_1_0_0_1_n_n.rhsIdx i q 0).val = (q ⟨0, by decide⟩).val :=
  dot_S2048x2000_S2000x64_S2048x64_1_0_0_1_n_n.rhsIdx_val_of_single rfl i q

/-- The right operand's column is the result's column. -/
theorem rhs_D0_1 (i : S2048x64.Idx) (q : dot_S2048x2000_S2000x64_S2048x64_1_0_0_1_n_n.contr.Idx) :
    (dot_S2048x2000_S2000x64_S2048x64_1_0_0_1_n_n.rhsIdx i q 1).val = (i 1).val := by
  unfold DotDims.rhsIdx
  rw [dif_neg (show ¬(1 : Fin S2000x64.rank) ∈ dot_S2048x2000_S2000x64_S2048x64_1_0_0_1_n_n.rhsBatch by decide),
    dif_pos (show (1 : Fin S2000x64.rank) ∈ dot_S2048x2000_S2000x64_S2048x64_1_0_0_1_n_n.rhsNonContracting by decide)]
  rfl

/-- A matrix product into a zero accumulator, read at row e, column d: the sum over the shared axis. -/
theorem matmul_zero_apply (A : FVec Ideal S2048x2000 .bf16) (B : FVec Ideal S2000x64 .bf16) (e : Fin 2048) (d : Fin 64) :
    matmul dot_S2048x2000_S2000x64_S2048x64_1_0_0_1_n_n none A B (constant (F := Ideal) S2048x64 .f32 0x00000000#32) (ix2 e d)
      = ∑ j : Fin 2000, A (ix2 e j) * B (ix2 j d) := by
  simp only [matmul]
  rw [Ideal.matmul_constant_zero_apply, ← Equiv.sum_comp (contrEquiv1 dot_S2048x2000_S2000x64_S2048x64_1_0_0_1_n_n 2000 rfl rfl).symm]
  refine Finset.sum_congr rfl fun k _ => ?_
  have hk := contrEquiv1_symm_val dot_S2048x2000_S2000x64_S2048x64_1_0_0_1_n_n 2000 rfl rfl k
  have el : dot_S2048x2000_S2000x64_S2048x64_1_0_0_1_n_n.lhsIdx (ix2 e d) ((contrEquiv1 dot_S2048x2000_S2000x64_S2048x64_1_0_0_1_n_n 2000 rfl rfl).symm k) = ix2 e k :=
    funext fun a => Fin.ext (by
      match a with
      | ⟨0, _⟩ => exact lhs_D0_0 _ _
      | ⟨1, _⟩ => exact (lhs_D0_1 _ _).trans hk)
  have er : dot_S2048x2000_S2000x64_S2048x64_1_0_0_1_n_n.rhsIdx (ix2 e d) ((contrEquiv1 dot_S2048x2000_S2000x64_S2048x64_1_0_0_1_n_n 2000 rfl rfl).symm k) = ix2 k d :=
    funext fun a => Fin.ext (by
      match a with
      | ⟨0, _⟩ => exact (rhs_D0_0 _ _).trans hk
      | ⟨1, _⟩ => exact rhs_D0_1 _ _)
  rw [el, er]

/-! ## The three stored blocks read at an index -/

/-- One entry of the one-hot operand: the comparison's bit, widened to a word and read as a number, is the indicator. -/
theorem onehot_entry (a b : BitVec 32) :
    FloatOps.sitofp (F := Ideal) .f32 ((IntOp.cmpi .eq a b).setWidth 32) = hot a b := by
  unfold hot
  by_cases h : a = b
  · rw [if_pos h, StableHlo.Predicate.cmpi_eq_iff.mpr h]
    show (((((1#1 : BitVec 1).setWidth 32).toInt : ℤ) : ℝ) : EReal) = 1
    rw [show ((1#1 : BitVec 1).setWidth 32).toInt = 1 by decide]
    norm_num
  · rw [if_neg h, eq_zero_of_ne_one (fun hc => h (StableHlo.Predicate.cmpi_eq_iff.mp hc))]
    show (((((0#1 : BitVec 1).setWidth 32).toInt : ℤ) : ℝ) : EReal) = 0
    rw [show ((0#1 : BitVec 1).setWidth 32).toInt = 0 by decide]
    norm_num

/-- The first row of the trip's block as a word: 2000 k. -/
theorem base_word (k : ℕ) :
    Scalar.muli (Scalar.addi 0#32 (Scalar.muli (Scf.iv 0#32 1#32 k) 1#32)) 2000#32 = BitVec.ofNat 32 (2000 * k) := by
  unfold Scalar.muli Scalar.addi IntOp.muli IntOp.addi Scf.iv
  simp only [BitVec.zero_add, BitVec.mul_one]
  rw [show (2000#32 : BitVec 32) = BitVec.ofNat 32 2000 from rfl, ← BitVec.ofNat_mul, Nat.mul_comm]

section Layout
variable {α : Type}

/-- An `[a]` array cast to `[a, 1]` reads, at `(i, u)`, the operand at `i`. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- An `[a, 1]` array broadcast to `[a, b]` reads, at `(p, c)`, the operand's one column at `p`. -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

end Layout

/-- A comparison of two word arrays is entry by entry. -/
theorem cmpi_at {s : Shape} {w : ℕ} (p : CmpIPredicate) (a b : IVec s w) (i : s.Idx) : cmpi p a b i = IntOp.cmpi p (a i) (b i) := rfl
/-- A sum of two word arrays is entry by entry. -/
theorem addi_at {s : Shape} {w : ℕ} (a b : IVec s w) (i : s.Idx) : addi a b i = IntOp.addi (a i) (b i) := rfl

/-- The block a trip stores, at (e, d): what the accumulator held there plus the sum, over the trip's two thousand
    rows j, of the indicator [v4 e = 2000 k + j] times row j of the loaded block. -/
theorem pay2_apply (v4 : Vec Ideal S2048 .i32) (k : Fin k0_t1_loop.trips) (v29 : Vec Ideal S2000x64 .bf16)
    (v31 : Vec Ideal S2048x64 .f32) (e : Fin 2048) (d : Fin 64) :
    Gen.k0_pay2 (F := Ideal) v4 k v29 v31 (ix2 e d)
      = v31 (ix2 e d) + ∑ j : Fin 2000, hot (v4 (ix1 e)) (BitVec.ofNat 32 (2000 * k.val + j.val)) * v29 (ix2 j d) := by
  unfold Gen.k0_pay2
  simp only [shapeCast_self]
  rw [addf_apply, matmul_zero_apply]
  refine congrArg (v31 (ix2 e d) + ·) (Finset.sum_congr rfl fun j _ => ?_)
  rw [truncf_apply, sitofp_apply, extui_apply, cmpi_at, broadcastTo_a1_ab_apply, shapeCast_a_a1_apply, broadcastTo_1b_ab_apply,
    addi_at, broadcast_apply, iota_single_apply, base_word, onehot_entry]
  rw [BitVec.ofNat_add]
  rfl

/-- The block the accumulator is reset to: zero everywhere. -/
theorem pay1_apply (y : S2048x64.Idx) : Gen.k0_pay1 (F := Ideal) y = 0 := by
  unfold Gen.k0_pay1
  simp only [shapeCast_self]
  rw [broadcast_apply]
  exact Ideal.ofBits_zero_f32

/-- The block stored at the end: the accumulator's row e scaled by the e-th weight. -/
theorem pay3_apply (v7 : Vec Ideal S2048x64 .f32) (v8 : Vec Ideal S2048 .f32) (e : Fin 2048) (d : Fin 64) :
    Gen.k0_pay3 (F := Ideal) v7 v8 (ix2 e d) = v7 (ix2 e d) * v8 (ix1 e) := by
  unfold Gen.k0_pay3
  simp only [shapeCast_self]
  rw [mulf_apply, broadcastTo_a1_ab_apply, shapeCast_a_a1_apply]

variable {F : FTy → Type} [FloatOps F]

/-! ## One trip, and the accumulator after one more trip -/

/-- The offsets of a store over the whole block are zero. -/
theorem hz : (![0, 0] : Fin 2 → Nat) = fun _ => 0 := funext fun a => by fin_cases a <;> rfl

/-- What one trip stores: one block over the whole accumulator, the trip's sum of products added to what the accumulator held. -/
theorem trip_piece (𝒱 : Variants) (c : Dev nD) (bd : Option 𝒱.V) (i : grid0.Coords) (arg1 : Memref sig .tc .vmem S2048 .i32) (harg1 : arg1.IsWhole) (arg2 : Memref sig .tc .vmem S2048 .f32) (harg2 : arg2.IsWhole) (arg3 : Memref sig .tc .vmem S100000x64 .bf16) (harg3 : arg3.IsWhole) (arg4 : Memref sig .tc .vmem S2048x64 .f32) (harg4 : arg4.IsWhole) (arg5 : Memref sig .tc .vmem S2048x64 .f32) (harg5 : arg5.IsWhole) (v4 : Vec F S2048 .i32) (X_arg3 : BufTy.Contents (Elt F) arg3.view.ty) (k : Fin k0_t1_loop.trips) (f_arg5 : BufTy.Contents (Elt F) arg5.view.ty) :
    Gen.tripL_k0_t1 (F := F) 𝒱 c bd i arg1 harg1 arg2 harg2 arg3 harg3 arg4 harg4 arg5 harg5 v4 X_arg3 k f_arg5
      = [⟨(Rect.unit (s := S2048x64) ![0, 0] S2048x64.size Gen.inb_S2048x64_S2048x64_0_0),
          Gen.k0_pay2 v4 k (View.readAt (Elt F) arg3.view (Rect.unit (s := S100000x64) (k0_off1 k) S2000x64.size (Gen.k0_off1_inb k)).toLoadRect X_arg3)
            (View.readAt (Elt F) arg5.view (Rect.unit (s := S2048x64) ![0, 0] S2048x64.size Gen.inb_S2048x64_S2048x64_0_0).toLoadRect f_arg5)⟩] := by
  unfold Gen.tripL_k0_t1 Gen.trip_k0_t1
  rfl

/-- The accumulator read after one more trip: that trip's block, computed from the accumulator read before it. -/
theorem read_succ (𝒱 : Variants) (c : Dev nD) (bd : Option 𝒱.V) (i : grid0.Coords) (arg1 : Memref sig .tc .vmem S2048 .i32) (harg1 : arg1.IsWhole) (arg2 : Memref sig .tc .vmem S2048 .f32) (harg2 : arg2.IsWhole) (arg3 : Memref sig .tc .vmem S100000x64 .bf16) (harg3 : arg3.IsWhole) (arg4 : Memref sig .tc .vmem S2048x64 .f32) (harg4 : arg4.IsWhole) (arg5 : Memref sig .tc .vmem S2048x64 .f32) (harg5 : arg5.IsWhole) (v4 : Vec F S2048 .i32) (X_arg3 : BufTy.Contents (Elt F) arg3.view.ty) (G : BufTy.Contents (Elt F) arg5.view.ty) (k : Fin k0_t1_loop.trips) :
    arg5.view.read (Elt F) (arg5.view.writes (Elt F) G (Gen.pb_k0_t1 (F := F) 𝒱 c bd i arg1 harg1 arg2 harg2 arg3 harg3 arg4 harg4 arg5 harg5 v4 X_arg3 G (k.val + 1)))
      = Gen.k0_pay2 v4 k (View.readAt (Elt F) arg3.view (Rect.unit (s := S100000x64) (k0_off1 k) S2000x64.size (Gen.k0_off1_inb k)).toLoadRect X_arg3)
          (arg5.view.read (Elt F) (arg5.view.writes (Elt F) G (Gen.pb_k0_t1 (F := F) 𝒱 c bd i arg1 harg1 arg2 harg2 arg3 harg3 arg4 harg4 arg5 harg5 v4 X_arg3 G k.val))) := by
  rw [Gen.pb_k0_t1_succ, View.writes_append, trip_piece]
  rw [View.read_writes_eq_canon _ _ _ (fun y => ⟨_, List.mem_singleton_self _, View.mem_set_unit_zero hz Gen.inb_S2048x64_S2048x64_0_0 y⟩),
    View.canon_unit_zero hz]
  rw [View.readAt_eq_ld arg5.view, View.ld_unit_zero (S := S2048x64) hz]

/-! ## The accumulator after k trips, at the exact values -/

/-- The trips of the loop: fifty. -/
theorem trips_eq : k0_t1_loop.trips = 50 := by decide

/-- A buffer's contents read through the accumulator's view, as a block of extended reals. -/
abbrev rd (arg5 : Memref sig .tc .vmem S2048x64 .f32) (f : BufTy.Contents (Elt Ideal) arg5.view.ty) : FVec Ideal S2048x64 .f32 :=
  arg5.view.read (Elt Ideal) f

/-- Row r of the table against the indicator of the e-th word; zero past the table's last row. -/
def term (x0 : Vec Ideal S2048 .i32) (x2 : FVec Ideal S100000x64 .bf16) (e : Fin 2048) (d : Fin 64) (r : ℕ) : EReal :=
  if h : r < 100000 then hot (x0 (ix1 e)) (BitVec.ofNat 32 r) * x2 (ix2 ⟨r, h⟩ d) else 0

/-- The block of the table trip k loads: its rows 2000 k + j. -/
theorem blk_apply (arg3 : Memref sig .tc .vmem S100000x64 .bf16) (X_arg3 : BufTy.Contents (Elt Ideal) arg3.view.ty)
    (x2 : FVec Ideal S100000x64 .bf16) (hX : arg3.view.read (Elt Ideal) X_arg3 = x2) (k : Fin k0_t1_loop.trips)
    (j : Fin 2000) (d : Fin 64) (h : 2000 * k.val + j.val < 100000) :
    (View.readAt (Elt Ideal) arg3.view (Rect.unit (s := S100000x64) (k0_off1 k) S2000x64.size (Gen.k0_off1_inb k)).toLoadRect X_arg3 : FVec Ideal S2000x64 .bf16) (ix2 j d) = x2 (ix2 ⟨2000 * k.val + j.val, h⟩ d) := by
  rw [View.readAt_eq_ld, hX]
  show x2 ((Rect.unit (s := S100000x64) (k0_off1 k) S2000x64.size (Gen.k0_off1_inb k)).toLoadRect.idx (ix2 j d)) = _
  refine congrArg x2 (Shape.idx_ext₂ ?_ ?_)
  · show k0_off1 k 0 + 1 * j.val = 2000 * k.val + j.val
    rw [Gen.k0_off1_eq k, Nat.one_mul]
    rfl
  · show k0_off1 k 1 + 1 * d.val = d.val
    rw [Gen.k0_off1_eq k, Nat.one_mul]
    exact Nat.zero_add _

/-- After k trips the accumulator holds what it held at the loop's entry plus the first 2000 k rows' terms. -/
theorem acc_after (𝒱 : Variants) (c : Dev nD) (bd : Option 𝒱.V) (i : grid0.Coords) (arg1 : Memref sig .tc .vmem S2048 .i32) (harg1 : arg1.IsWhole) (arg2 : Memref sig .tc .vmem S2048 .f32) (harg2 : arg2.IsWhole) (arg3 : Memref sig .tc .vmem S100000x64 .bf16) (harg3 : arg3.IsWhole) (arg4 : Memref sig .tc .vmem S2048x64 .f32) (harg4 : arg4.IsWhole) (arg5 : Memref sig .tc .vmem S2048x64 .f32) (harg5 : arg5.IsWhole) (v4 : Vec Ideal S2048 .i32) (X_arg3 : BufTy.Contents (Elt Ideal) arg3.view.ty) (x2 : FVec Ideal S100000x64 .bf16) (hX : arg3.view.read (Elt Ideal) X_arg3 = x2)
    (G : BufTy.Contents (Elt Ideal) arg5.view.ty) (e : Fin 2048) (d : Fin 64) :
    ∀ k : ℕ, k ≤ k0_t1_loop.trips →
      rd arg5 (arg5.view.writes (Elt Ideal) G (Gen.pb_k0_t1 (F := Ideal) 𝒱 c bd i arg1 harg1 arg2 harg2 arg3 harg3 arg4 harg4 arg5 harg5 v4 X_arg3 G k)) (ix2 e d)
        = rd arg5 G (ix2 e d) + ∑ r ∈ Finset.range (2000 * k), term v4 x2 e d r
  | 0, _ => by
    rw [Gen.pb_k0_t1.eq_1, View.writes_nil, Nat.mul_zero, Finset.range_zero, Finset.sum_empty, add_zero]
  | k + 1, hk => by
    have hk' : k < k0_t1_loop.trips := hk
    have ih := acc_after 𝒱 c bd i arg1 harg1 arg2 harg2 arg3 harg3 arg4 harg4 arg5 harg5 v4 X_arg3 x2 hX G e d k (Nat.le_of_lt hk')
    have hs := read_succ (F := Ideal) 𝒱 c bd i arg1 harg1 arg2 harg2 arg3 harg3 arg4 harg4 arg5 harg5 v4 X_arg3 G ⟨k, hk'⟩
    have hkt : k < 50 := trips_eq ▸ hk'
    show (arg5.view.read (Elt Ideal) (arg5.view.writes (Elt Ideal) G (Gen.pb_k0_t1 (F := Ideal) 𝒱 c bd i arg1 harg1 arg2 harg2 arg3 harg3 arg4 harg4 arg5 harg5 v4 X_arg3 G (k + 1)))) (ix2 e d) = _
    rw [hs, pay2_apply]
    show rd arg5 (arg5.view.writes (Elt Ideal) G (Gen.pb_k0_t1 (F := Ideal) 𝒱 c bd i arg1 harg1 arg2 harg2 arg3 harg3 arg4 harg4 arg5 harg5 v4 X_arg3 G k)) (ix2 e d) + _ = _
    rw [ih, Nat.mul_succ, Finset.sum_range_add, Finset.sum_range (fun x => term v4 x2 e d (2000 * k + x)), add_assoc]
    refine congrArg (rd arg5 G (ix2 e d) + ·) (congrArg (_ + ·) (Finset.sum_congr rfl fun j _ => ?_))
    have hlt : 2000 * k + j.val < 100000 := by have := j.isLt; omega
    rw [term, dif_pos hlt, blk_apply arg3 X_arg3 x2 hX ⟨k, hk'⟩ j d hlt]

/-! ## The whole body -/

/-- The offset of a load of a whole vector is zero. -/
theorem hz1 : (![0] : Fin 1 → Nat) = fun _ => 0 := funext fun a => by fin_cases a; rfl

/-- The body's output block: entry (e, d) is the e-th word's row of the table, as a sum over all rows against the
    indicator, scaled by the e-th weight. The accumulator is zeroed, fifty trips add two thousand rows each, and the
    stored block is the accumulator times the weights. -/
theorem out0_A_3_eq (c : Dev nD) (i : grid0.Coords) (arg1 : Memref sig .tc .vmem S2048 .i32) (harg1 : arg1.IsWhole) (arg2 : Memref sig .tc .vmem S2048 .f32) (harg2 : arg2.IsWhole)
      (arg3 : Memref sig .tc .vmem S100000x64 .bf16) (harg3 : arg3.IsWhole) (arg4 : Memref sig .tc .vmem S2048x64 .f32) (harg4 : arg4.IsWhole) (arg5 : Memref sig .tc .vmem S2048x64 .f32) (harg5 : arg5.IsWhole)
      (x0 : Vec Ideal S2048 .i32) (x1 : Vec Ideal S2048 .f32) (x2 : Vec Ideal S100000x64 .bf16) :
    Gen.out0_A_3 (F := Ideal) c i arg1 harg1 arg2 harg2 arg3 harg3 arg4 harg4 arg5 harg5 x0 x1 x2 = Cert.Gcn.msgsOf x0 x1 x2 := by
  unfold Gen.out0_A_3
  rw [View.read_writes_eq_canon _ _ _ (Gen.cover0_A_3 c i arg1 harg1 arg2 harg2 arg3 harg3 arg4 harg4 arg5 harg5 x0 x1 x2)]
  unfold Gen.kernelRun0_A
  dsimp only
  sl_unfold_words
  rw [View.canon_unit_zero hz]
  have h4 : View.readAt (Elt Ideal) arg1.view (Rect.unit (s := S2048) ![0] S2048.size Gen.inb_S2048_S2048_0).toLoadRect (harg1.unread x0) = x0 := by
    rw [View.readAt_eq_ld, harg1.read_unread, View.ld_unit_zero (S := S2048) hz1]
  have h8 : View.readAt (Elt Ideal) arg2.view (Rect.unit (s := S2048) ![0] S2048.size Gen.inb_S2048_S2048_0).toLoadRect (harg2.unread x1) = x1 := by
    rw [View.readAt_eq_ld, harg2.read_unread, View.ld_unit_zero (S := S2048) hz1]
  rw [h4, h8]
  funext y
  obtain ⟨e, d, rfl⟩ : ∃ (e : Fin 2048) (d : Fin 64), y = ix2 e d := ⟨y 0, y 1, eq_ix2 y⟩
  rw [pay3_apply]
  show _ = (∑ r : Fin 100000, hot (x0 (ix1 e)) (BitVec.ofNat 32 r.val) * x2 (ix2 r d)) * x1 (ix1 e)
  refine congrArg (· * x1 (ix1 e)) ?_
  rw [View.readAt_eq_ld arg5.view, View.ld_unit_zero (S := S2048x64) hz, View.writes_append]
  refine (acc_after Variants.none c none i arg1 harg1 arg2 harg2 arg3 harg3 arg4 harg4 arg5 harg5 x0 (harg3.unread x2) x2
    (harg3.read_unread x2) _ e d k0_t1_loop.trips le_rfl).trans ?_
  show arg5.view.read (Elt Ideal) (arg5.view.writes (Elt Ideal) arg5.view.junk _) (ix2 e d) + _ = _
  rw [View.read_writes_junk_eq_canon, View.canon_unit_zero hz, pay1_apply, zero_add, trips_eq]
  show ∑ r ∈ Finset.range 100000, term x0 x2 e d r = _
  rw [Finset.sum_range]
  exact Finset.sum_congr rfl fun r _ => by rw [term, dif_pos r.isLt]

end Cert.KernelIdeal.GatherBody0
end
-- ==== Proof.GatherArr0.lean ====
/-
  From blocks to the array, for the users' gather.

  The grid has 635 points. At point `t` the body reads rows `2048·t … 2048·t + 2047` of the column words and of the
  weights, and the whole table, and its result — the messages of those 2048 edges — goes back to rows
  `2048·t … 2048·t + 2047` of the output. A message row depends on its own column word, its own weight and one
  column of the table only, so block `t` of the messages of the whole arrays is the messages of block `t`; and the
  635 blocks of 2048 rows tile the 1300480 rows. Hence the output array ends as the messages of the whole arrays.
-/
import proofs.«158019_j83202106458211_1_alg».proof.Proof.Gen.KernelIdeal.Frame
import proofs.«158019_j83202106458211_1_alg».proof.Proof.Spec
import proofs.«158019_j83202106458211_1_alg».proof.Proof.GatherBody0
import Idealize.ShloMosaic.Lib.Pipeline.Value
import Idealize.ShloMosaic.Lib.ValueIdx

noncomputable section

namespace Cert.KernelIdeal.GatherArr0

open Idealize.ShloMosaic Idealize.ShloMosaic.TcCoe Idealize.SL.Sem Idealize.ShloMosaic.ValueIdx Cert.KernelIdeal Cert.Gcn
open Idealize.ShloMosaic.Pipeline (Dat)

/-- A message row reads one entry of the column words, one entry of the weights and one column of the table: two
    settings that agree on those three give the same message. -/
theorem msgsOf_congr {Mb Mp n : ℕ} (colB : IVec ⟨1, ![Mb]⟩ 32) (normB : FVec Ideal ⟨1, ![Mb]⟩ .f32)
    (tabB : FVec Ideal ⟨2, ![n, 64]⟩ .bf16) (colA : IVec ⟨1, ![Mp]⟩ 32) (normA : FVec Ideal ⟨1, ![Mp]⟩ .f32)
    (tabA : FVec Ideal ⟨2, ![n, 64]⟩ .bf16) (j : (⟨2, ![Mb, 64]⟩ : Shape).Idx) (k : (⟨2, ![Mp, 64]⟩ : Shape).Idx)
    (hcol : colB (ix1 (j 0)) = colA (ix1 (k 0))) (hnorm : normB (ix1 (j 0)) = normA (ix1 (k 0)))
    (htab : ∀ r : Fin n, tabB (ix2 r (j 1)) = tabA (ix2 r (k 1))) :
    msgsOf colB normB tabB j = msgsOf colA normA tabA k := by
  unfold msgsOf
  rw [hcol, hnorm]
  congr 1
  exact Finset.sum_congr rfl fun r _ => by rw [htab r]

variable (V : (c : Dev nD) → (b : Ref sig .tc) → Buf (Elt Ideal) ((c : Thread nD τ).loc b))

/-- The three input arrays as the region finds them: the column words, the weights, the table. -/
abbrev colArr (c : Dev nD) : Vec Ideal S1300480 .i32 := V c main_v33
abbrev normArr (c : Dev nD) : Vec Ideal S1300480 .f32 := V c main_v34
abbrev tabArr (c : Dev nD) : Vec Ideal S100000x64 .bf16 := V c main_v35

/-- Their blocks at a grid point. -/
abbrev colBlk (c : Dev nD) (t : Fin cfg0.N) : Vec Ideal S2048 .i32 := Gen.iblk0 V c 0 t
abbrev normBlk (c : Dev nD) (t : Fin cfg0.N) : Vec Ideal S2048 .f32 := Gen.iblk0 V c 1 t
abbrev tabBlk (c : Dev nD) (t : Fin cfg0.N) : Vec Ideal S100000x64 .bf16 := Gen.iblk0 V c 2 t

/-- The block indices at grid point `t`, decided over the 635 points: the column words, the weights and the output
    are at block `t` of the edge axis; the table's block index is zero on both axes. -/
theorem block_index : ∀ t : Fin cfg0.N,
    win0_0.index t (0 : Fin 1) = t.val ∧ win0_1.index t (0 : Fin 1) = t.val
    ∧ win0_2.index t (0 : Fin 2) = 0 ∧ win0_2.index t (1 : Fin 2) = 0
    ∧ win0_3.index t (0 : Fin 2) = t.val ∧ win0_3.index t (1 : Fin 2) = 0 :=
  (by decide +kernel : ∀ t : Fin grid0.N, _)

/-- Entry `y` of the column-word block at point `t` is entry `2048·t + y` of the array. -/
theorem colBlk_apply (c : Dev nD) (t : Fin cfg0.N) (y : Fin 2048) (k : Fin 1300480) (hk : k.val = 2048 * t.val + y.val) :
    colBlk V c t (ix1 y) = colArr V c (ix1 k) := by
  obtain ⟨e0, -⟩ := block_index t
  show ((cfg0.win 0).blk t).view.read (Elt Ideal) (V c main_v33) (ix1 y) = V c main_v33 (ix1 k)
  rw [View.read_apply]
  show V c main_v33 _ = V c main_v33 _
  congr 1
  funext a
  apply Fin.ext
  match a with
  | ⟨0, _⟩ => show win0_0.index t (0 : Fin 1) * 2048 + 1 * y.val = k.val; rw [e0, hk]; omega

/-- Entry `y` of the weight block at point `t` is entry `2048·t + y` of the array. -/
theorem normBlk_apply (c : Dev nD) (t : Fin cfg0.N) (y : Fin 2048) (k : Fin 1300480) (hk : k.val = 2048 * t.val + y.val) :
    normBlk V c t (ix1 y) = normArr V c (ix1 k) := by
  obtain ⟨-, e1, -⟩ := block_index t
  show ((cfg0.win 1).blk t).view.read (Elt Ideal) (V c main_v34) (ix1 y) = V c main_v34 (ix1 k)
  rw [View.read_apply]
  show V c main_v34 _ = V c main_v34 _
  congr 1
  funext a
  apply Fin.ext
  match a with
  | ⟨0, _⟩ => show win0_1.index t (0 : Fin 1) * 2048 + 1 * y.val = k.val; rw [e1, hk]; omega

/-- The table's block at every point is the whole table. -/
theorem tabBlk_apply (c : Dev nD) (t : Fin cfg0.N) (r : Fin 100000) (d : Fin 64) :
    tabBlk V c t (ix2 r d) = tabArr V c (ix2 r d) := by
  obtain ⟨-, -, e2, e3, -⟩ := block_index t
  show ((cfg0.win 2).blk t).view.read (Elt Ideal) (V c main_v35) (ix2 r d) = V c main_v35 (ix2 r d)
  rw [View.read_apply]
  show V c main_v35 _ = V c main_v35 _
  congr 1
  funext a
  apply Fin.ext
  match a with
  | ⟨0, _⟩ => show win0_2.index t (0 : Fin 2) * 100000 + 1 * r.val = r.val; rw [e2]; omega
  | ⟨1, _⟩ => show win0_2.index t (1 : Fin 2) * 64 + 1 * d.val = d.val; rw [e3]; omega

/-- What grid point `t` writes back is block `t` of the messages of the whole arrays: the body leaves the messages of
    the point's blocks; entry `(y₀, y₁)` of the output block sits at row `2048·t + y₀`, column `y₁` of the array, and
    the message there reads the same column word, weight and table column. -/
theorem flushed_eq (c : Dev nD) (t : Fin cfg0.N) :
    (Gen.dat0 V c).flushed 3 t
      = ((cfg0.win 3).blk t).view.read (Elt Ideal) (msgsOf (colArr V c) (normArr V c) (tabArr V c)) := by
  show (cfg0.win 3).cut (grid0.coords t) ((Gen.dat0 V c).after 3 t) = _
  rw [Gen.after0_3]
  unfold Gen.outsAt0
  rw [GatherBody0.out0_A_3_eq]
  obtain ⟨-, -, -, -, e4, e5⟩ := block_index t
  funext y
  rw [View.read_apply]
  have hy0 : (y 0).val < 2048 := (y 0).isLt
  have hy1 : (y 1).val < 64 := (y 1).isLt
  let k : S1300480x64.Idx := ((cfg0.win 3).blk t).view.emb y
  have hk0 : (k 0).val = 2048 * t.val + (y 0).val := by
    show win0_3.index t (0 : Fin 2) * 2048 + 1 * (y 0).val = _; rw [e4]; omega
  have hk1 : k 1 = ⟨(y 1).val, hy1⟩ := by
    apply Fin.ext
    show win0_3.index t (1 : Fin 2) * 64 + 1 * (y 1).val = (y 1).val; rw [e5]; omega
  show msgsOf (colBlk V c t) (normBlk V c t) (tabBlk V c t) ((cfg0.win 3).xinj (grid0.coords t) y)
      = msgsOf (colArr V c) (normArr V c) (tabArr V c) k
  refine msgsOf_congr (colBlk V c t) (normBlk V c t) (tabBlk V c t) (colArr V c) (normArr V c) (tabArr V c) _ k ?_ ?_ ?_
  · exact colBlk_apply V c t ⟨(y 0).val, hy0⟩ (k 0) hk0
  · exact normBlk_apply V c t ⟨(y 0).val, hy0⟩ (k 0) hk0
  · intro r
    rw [hk1]
    exact tabBlk_apply V c t r ⟨(y 1).val, hy1⟩

/-- An index of the output array is in point `t`'s block iff each coordinate is in the block's range on its axis. -/
theorem mem_blk (t : Fin cfg0.N) (i : S1300480x64.Idx) :
    i ∈ ((cfg0.win 3).blk t).view.set ↔ ∀ a : Fin 2, win0_3.index t a * S2048x64.size a ≤ (i a).val ∧ (i a).val < win0_3.index t a * S2048x64.size a + S2048x64.size a := by
  show i ∈ ((View.whole main_v36).slice (win0_3.rect t)).set ↔ _
  rw [View.set_slice_whole, Rect.mem_set_unit]
  exact Iff.rfl

/-- The 635 blocks of 2048 rows tile the 1300480 rows: row `r` is in block `r / 2048`, and every point writes back. -/
theorem cover (i : S1300480x64.Idx) :
    ∃ t : Fin cfg0.N, (cfg0.win 3).flush t = true ∧ i ∈ ((cfg0.win 3).blk t).view.set := by
  have hi0 : (i 0).val < 1300480 := (i 0).isLt
  have hi1 : (i 1).val < 64 := (i 1).isLt
  have hN : cfg0.N = 635 := Gen.N_0
  have ht : (i 0).val / 2048 < cfg0.N := by rw [hN]; omega
  refine ⟨⟨(i 0).val / 2048, ht⟩, Gen.flush0_3 _, ?_⟩
  rw [mem_blk]
  obtain ⟨-, -, -, -, e4, e5⟩ := block_index ⟨(i 0).val / 2048, ht⟩
  intro a
  match a with
  | ⟨0, _⟩ =>
    show win0_3.index ⟨(i 0).val / 2048, ht⟩ (0 : Fin 2) * 2048 ≤ (i 0).val ∧ (i 0).val < win0_3.index ⟨(i 0).val / 2048, ht⟩ (0 : Fin 2) * 2048 + 2048
    rw [e4]; show (i 0).val / 2048 * 2048 ≤ (i 0).val ∧ (i 0).val < (i 0).val / 2048 * 2048 + 2048; omega
  | ⟨1, _⟩ =>
    show win0_3.index ⟨(i 0).val / 2048, ht⟩ (1 : Fin 2) * 64 ≤ (i 1).val ∧ (i 1).val < win0_3.index ⟨(i 0).val / 2048, ht⟩ (1 : Fin 2) * 64 + 64
    rw [e5]; omega

/-- After the gather region the whole output array is the messages of the three input arrays as the region found
    them: every point writes back its block of that one array-wide function, and the blocks cover the array. -/
theorem msgs_arr0 (c : Dev nD) :
    ((Gen.dat0 (F := Ideal) V c).arrAt 3 cfg0.N : Vec Ideal S1300480x64 .f32)
      = Cert.Gcn.msgsOf (V c main_v33 : Vec Ideal S1300480 .i32) (V c main_v34 : Vec Ideal S1300480 .f32) (V c main_v35 : Vec Ideal S100000x64 .bf16) :=
  (Gen.dat0 (F := Ideal) V c).arrAt_eq_of_cover 3 (msgsOf (colArr V c) (normArr V c) (tabArr V c))
    (fun t _ => flushed_eq V c t) cover

end Cert.KernelIdeal.GatherArr0

end
-- ==== Proof.ScatterBody3.lean ====
/-
  One grid point `(i, k)` of the scatter kernel, read as a value.

  The point carries the `2000 × 64` output block of node rows `2000·i … 2000·i + 1999` and adds to it the product of a
  one-hot matrix `[2000, 2048]` — entry `(r, e)` is `1` where the word of node `2000·i + r` equals edge `e`'s row
  word — with the `2048 × 64` block of messages: at `(r, d)` that product is `∑ e, [2000·i + r = row e] · msgs e d`,
  the block's contribution `contribOf`. Three cases: the first point of a row of the grid zeroes the block first
  (so the block ends as `0 + contribution`), a middle point adds to what the point before left, the last point adds
  and then applies `max (· + bias, 0)`.
-/
import proofs.«158019_j83202106458211_1_alg».proof.Proof.Gen.KernelIdeal.Frame
import proofs.«158019_j83202106458211_1_alg».proof.Proof.Spec
import Idealize.ShloMosaic.Lib.ValueIdx
import Idealize.ShloMosaic.Lib.Pipeline.Value
import Idealize.ShloMosaic.PureOps.Ideal.Laws
import Idealize.ShloMosaic.Lib.ValueLayout
import Idealize.ShloMosaic.Lib.StableHlo.Predicate
import Idealize.ShloMosaic.Lib.Tactic

noncomputable section

namespace Cert.KernelIdeal.ScatterBody3

open Idealize.ShloMosaic Idealize.ShloMosaic.TcCoe Idealize.SL.Sem Idealize.ShloMosaic.ValueIdx Cert.KernelIdeal Cert.Gcn

/-! ## Words -/

/-- The word of node `a * 2000 + r`: the product and the sum of words are the words of the product and the sum. -/
theorem node_word (a r : ℕ) :
    IntOp.addi (Scalar.muli (BitVec.ofNat 32 a) 2000#32) (BitVec.ofNat 32 r) = BitVec.ofNat 32 (a * 2000 + r) := by
  show BitVec.ofNat 32 a * BitVec.ofNat 32 2000 + BitVec.ofNat 32 r = _
  rw [← BitVec.ofNat_mul, ← BitVec.ofNat_add]

/-- A one-hot entry: the comparison bit of two words, widened and read as a signed integer, is the indicator of
    their equality. -/
theorem onehot_word (a b : BitVec 32) :
    FloatOps.sitofp (F := Ideal) .f32 ((IntOp.cmpi .eq a b).setWidth 32) = hot a b := by
  unfold hot
  by_cases h : a = b
  · rw [if_pos h, StableHlo.Predicate.cmpi_eq_iff.mpr h]
    show ((((1#1 : BitVec 1).setWidth 32).toInt : ℝ) : EReal) = 1
    rw [show ((1#1 : BitVec 1).setWidth 32).toInt = 1 from by decide]
    simp
  · rw [if_neg h, eq_zero_of_ne_one (fun h1 => h (StableHlo.Predicate.cmpi_eq_iff.mp h1))]
    show ((((0#1 : BitVec 1).setWidth 32).toInt : ℝ) : EReal) = 0
    rw [show ((0#1 : BitVec 1).setWidth 32).toInt = 0 from by decide]
    simp

/-! ## The one-hot matrix at an entry -/

/-- Entry `(r, e)` of the one-hot matrix: the column of node words `w + r`, spread along the rows, against the row
    of edge words `row e`, spread down the columns. -/
theorem onehot_apply (w : BitVec 32) (row : IVec S2048 32)
    (hi : S2000x1.Iotas .tc 32 [0]) (hc1 : S2048.ShapeCasts S2048) (hc2 : S2048.ShapeCasts S1x2048)
    (hb1 : S2000x1.Broadcasts S2000x2048) (hb2 : S1x2048.Broadcasts S2000x2048) (hlt : 1 < 32)
    (hbits : FTy.bits .bf16 < FTy.bits .f32) (r : Fin 2000) (e : Fin 2048) :
    (truncf .bf16 (sitofp (F := Ideal) .f32 (extui 32 (cmpi .eq
        (broadcastTo S2000x2048 (addi (broadcast S2000x1 w) (iota .tc S2000x1 32 [0] hi)) hb1)
        (broadcastTo S2000x2048 (shapeCast S1x2048 (shapeCast S2048 row hc1) hc2) hb2)) hlt)) hbits
      : FVec Ideal S2000x2048 .bf16) (ix2 r e)
      = hot (IntOp.addi w (BitVec.ofNat 32 r.val)) (row (ix1 e)) := by
  have e1 : broadcastTo S2000x2048 (addi (broadcast S2000x1 w) (iota .tc S2000x1 32 [0] hi)) hb1 (ix2 r e)
      = IntOp.addi w (BitVec.ofNat 32 r.val) := by
    refine (broadcastTo_apply _ hb1 (ix2 r e) (ix2 r (0 : Fin 1)) fun a => ?_).trans ?_
    · match a with
      | ⟨0, _⟩ => rfl
      | ⟨1, _⟩ => rfl
    · show IntOp.addi w (iota .tc S2000x1 32 [0] hi (ix2 r (0 : Fin 1))) = _
      rw [iota_single_apply]
  have e2 : broadcastTo S2000x2048 (shapeCast S1x2048 (shapeCast S2048 row hc1) hc2) hb2 (ix2 r e) = row (ix1 e) := by
    rw [broadcastTo_1b_ab_apply, shapeCast_a_1a_apply, shapeCast_self]
  show FloatOps.sitofp (F := Ideal) .f32 ((IntOp.cmpi .eq
      (broadcastTo S2000x2048 (addi (broadcast S2000x1 w) (iota .tc S2000x1 32 [0] hi)) hb1 (ix2 r e))
      (broadcastTo S2000x2048 (shapeCast S1x2048 (shapeCast S2048 row hc1) hc2) hb2 (ix2 r e))).setWidth 32) = _
  rw [e1, e2, onehot_word]

/-! ## The block product at an entry -/

/-- On the product's left operand `[2000, 2048]`, axis 0 is the result's row … -/
theorem lhs_0 (j : S2000x64.Idx) (q : dot_S2000x2048_S2048x64_S2000x64_1_0_0_1_n_n.contr.Idx) :
    (dot_S2000x2048_S2048x64_S2000x64_1_0_0_1_n_n.lhsIdx j q 0).val = (j 0).val := by
  unfold DotDims.lhsIdx
  rw [dif_neg (show ¬(0 : Fin S2000x2048.rank) ∈ dot_S2000x2048_S2048x64_S2000x64_1_0_0_1_n_n.lhsBatch by decide),
    dif_pos (show (0 : Fin S2000x2048.rank) ∈ dot_S2000x2048_S2048x64_S2000x64_1_0_0_1_n_n.lhsNonContracting by decide)]
  rfl

/-- … and axis 1 the contracted one. -/
theorem lhs_1 (j : S2000x64.Idx) (q : dot_S2000x2048_S2048x64_S2000x64_1_0_0_1_n_n.contr.Idx) :
    (dot_S2000x2048_S2048x64_S2000x64_1_0_0_1_n_n.lhsIdx j q 1).val = (q ⟨0, by decide⟩).val :=
  dot_S2000x2048_S2048x64_S2000x64_1_0_0_1_n_n.lhsIdx_val_of_single rfl j q

/-- On the right operand `[2048, 64]`, axis 0 is the contracted one … -/
theorem rhs_0 (j : S2000x64.Idx) (q : dot_S2000x2048_S2048x64_S2000x64_1_0_0_1_n_n.contr.Idx) :
    (dot_S2000x2048_S2048x64_S2000x64_1_0_0_1_n_n.rhsIdx j q 0).val = (q ⟨0, by decide⟩).val :=
  dot_S2000x2048_S2048x64_S2000x64_1_0_0_1_n_n.rhsIdx_val_of_single rfl j q

/-- … and axis 1 the result's column. -/
theorem rhs_1 (j : S2000x64.Idx) (q : dot_S2000x2048_S2048x64_S2000x64_1_0_0_1_n_n.contr.Idx) :
    (dot_S2000x2048_S2048x64_S2000x64_1_0_0_1_n_n.rhsIdx j q 1).val = (j 1).val := by
  unfold DotDims.rhsIdx
  rw [dif_neg (show ¬(1 : Fin S2048x64.rank) ∈ dot_S2000x2048_S2048x64_S2000x64_1_0_0_1_n_n.rhsBatch by decide),
    dif_pos (show (1 : Fin S2048x64.rank) ∈ dot_S2000x2048_S2048x64_S2000x64_1_0_0_1_n_n.rhsNonContracting by decide)]
  rfl

/-- The `[2000, 2048] × [2048, 64]` product into the zero block, at entry `(r, d)`: the sum over the `2048`
    contracted positions of the operands' products. -/
theorem matmul_apply (A : FVec Ideal S2000x2048 .bf16) (B : FVec Ideal S2048x64 .bf16) (r : Fin 2000) (d : Fin 64) :
    matmul dot_S2000x2048_S2048x64_S2000x64_1_0_0_1_n_n none A B (constant S2000x64 .f32 0x00000000#32) (ix2 r d)
      = ∑ e : Fin 2048, A (ix2 r e) * B (ix2 e d) := by
  show FloatOps.matmul dot_S2000x2048_S2048x64_S2000x64_1_0_0_1_n_n none A B (constant S2000x64 .f32 0x00000000#32) (ix2 r d) = _
  rw [Ideal.matmul_constant_zero_apply,
    ← Equiv.sum_comp (contrEquiv1 dot_S2000x2048_S2048x64_S2000x64_1_0_0_1_n_n 2048 rfl rfl).symm]
  refine Finset.sum_congr rfl fun e _ => ?_
  have he := contrEquiv1_symm_val dot_S2000x2048_S2048x64_S2000x64_1_0_0_1_n_n 2048 rfl rfl e
  have el : dot_S2000x2048_S2048x64_S2000x64_1_0_0_1_n_n.lhsIdx (ix2 r d)
      ((contrEquiv1 dot_S2000x2048_S2048x64_S2000x64_1_0_0_1_n_n 2048 rfl rfl).symm e) = ix2 r e :=
    funext fun a => Fin.ext (by
      match a with
      | ⟨0, _⟩ => exact lhs_0 _ _
      | ⟨1, _⟩ => exact (lhs_1 _ _).trans he)
  have er : dot_S2000x2048_S2048x64_S2000x64_1_0_0_1_n_n.rhsIdx (ix2 r d)
      ((contrEquiv1 dot_S2000x2048_S2048x64_S2000x64_1_0_0_1_n_n 2048 rfl rfl).symm e) = ix2 e d :=
    funext fun a => Fin.ext (by
      match a with
      | ⟨0, _⟩ => exact (rhs_0 _ _).trans he
      | ⟨1, _⟩ => exact rhs_1 _ _)
  rw [el, er]

/-! ## The three stored values at an entry -/

/-- The reset stores the zero block. -/
theorem pay1_apply (r : Fin 2000) (d : Fin 64) : Gen.k3_pay1 (F := Ideal) (ix2 r d) = 0 := by
  unfold Gen.k3_pay1
  exact Ideal.ofBits_zero_f32

/-- The update stores, at `(r, d)`, what the block held plus the edges' contribution to node `i₀ · 2000 + r`. -/
theorem pay2_apply (i : grid3.Coords) (row : Vec Ideal S2048 .i32) (msgs : Vec Ideal S2048x64 .f32)
    (acc : Vec Ideal S2000x64 .f32) (r : Fin 2000) (d : Fin 64) :
    Gen.k3_pay2 (F := Ideal) i row msgs acc (ix2 r d)
      = acc (ix2 r d) + contribOf ((i 0).val * 2000) row msgs (ix2 r d) := by
  unfold Gen.k3_pay2
  dsimp only
  refine (addf_apply _ _ _).trans ?_
  refine congrArg₂ (· + ·) (congrFun (shapeCast_self acc _) _) ?_
  refine (matmul_apply _ _ r d).trans ?_
  unfold contribOf
  refine Finset.sum_congr rfl fun e _ => ?_
  refine congrArg₂ (· * ·) ?_ ?_
  · refine (onehot_apply _ row _ _ _ _ _ _ _ r e).trans ?_
    exact congrArg (fun w => hot w (row (ix1 e))) (node_word (i 0).val r.val)
  · exact congrFun (shapeCast_self msgs _) (ix2 e d)

/-- The last point stores, at `(r, d)`, the block plus the bias row, clipped at zero. -/
theorem pay3_apply (acc : Vec Ideal S2000x64 .f32) (b : Vec Ideal S1x64 .f32) (r : Fin 2000) (d : Fin 64) :
    Gen.k3_pay3 (F := Ideal) acc b (ix2 r d) = max (acc (ix2 r d) + b (ix2 0 d)) 0 := by
  unfold Gen.k3_pay3
  refine (maximumf_apply _ _ _).trans ?_
  refine congrArg₂ max ?_ Ideal.ofBits_zero_f32
  refine (addf_apply _ _ _).trans ?_
  refine congrArg₂ (· + ·) (congrFun (shapeCast_self acc _) _) ?_
  exact (broadcastTo_1b_ab_apply _ _ r d).trans (congrFun (shapeCast_self b _) _)

/-! ## The three cases' stored values as functions -/

/-- The update computed from the zero block is the contribution alone: `0 + ∑ = ∑`. -/
theorem val_A (i : grid3.Coords) (x0 : Vec Ideal S2048 .i32) (x1 : Vec Ideal S2048x64 .f32) :
    Gen.k3_pay2 (F := Ideal) i x0 x1 (Gen.k3_pay1 (F := Ideal)) = contribOf ((i 0).val * 2000) x0 x1 := by
  funext j
  obtain ⟨r, d, rfl⟩ : ∃ (r : Fin 2000) (d : Fin 64), j = ix2 r d := ⟨j 0, j 1, eq_ix2 j⟩
  refine (pay2_apply i x0 x1 _ r d).trans ?_
  rw [pay1_apply, zero_add]

/-- The update computed from a block `xo` is `xo` plus the contribution. -/
theorem val_B (i : grid3.Coords) (x0 : Vec Ideal S2048 .i32) (x1 : Vec Ideal S2048x64 .f32) (xo : Vec Ideal S2000x64 .f32) :
    Gen.k3_pay2 (F := Ideal) i x0 x1 xo = fun j => xo j + contribOf ((i 0).val * 2000) x0 x1 j := by
  funext j
  obtain ⟨r, d, rfl⟩ : ∃ (r : Fin 2000) (d : Fin 64), j = ix2 r d := ⟨j 0, j 1, eq_ix2 j⟩
  exact pay2_apply i x0 x1 xo r d

/-- The last point's store over that update: bias added, clipped at zero. -/
theorem val_C (i : grid3.Coords) (x0 : Vec Ideal S2048 .i32) (x1 : Vec Ideal S2048x64 .f32) (x2 : Vec Ideal S1x64 .f32)
    (xo : Vec Ideal S2000x64 .f32) :
    Gen.k3_pay3 (F := Ideal) (Gen.k3_pay2 (F := Ideal) i x0 x1 xo) x2
      = fun j => max ((xo j + contribOf ((i 0).val * 2000) x0 x1 j) + x2 (ix2 0 (j 1))) 0 := by
  funext j
  obtain ⟨r, d, rfl⟩ : ∃ (r : Fin 2000) (d : Fin 64), j = ix2 r d := ⟨j 0, j 1, eq_ix2 j⟩
  refine (pay3_apply _ x2 r d).trans ?_
  exact congrArg (fun t => max (t + x2 (ix2 0 d)) 0) (pay2_apply i x0 x1 xo r d)

/-! ## What each case leaves in the block, as the stored values -/

section Pieces
variable {F : FTy → Type} [FloatOps F]

theorem hz2 : (![0, 0] : Fin 2 → Nat) = fun _ => 0 := funext fun a => match a with | ⟨0, _⟩ => rfl | ⟨1, _⟩ => rfl
theorem hz1 : (![0] : Fin 1 → Nat) = fun _ => 0 := funext fun a => match a with | ⟨0, _⟩ => rfl

/-- A middle point: one store over the whole block, of the update computed from the block as it was. -/
theorem piece_B (c : Dev nD) (i : grid3.Coords) (arg2 : Memref sig .tc .vmem S2048 .i32) (harg2 : arg2.IsWhole)
    (arg3 : Memref sig .tc .vmem S2048x64 .f32) (harg3 : arg3.IsWhole) (arg4 : Memref sig .tc .vmem S1x64 .f32) (harg4 : arg4.IsWhole)
    (arg5 : Memref sig .tc .vmem S2000x64 .f32) (harg5 : arg5.IsWhole)
    (hc0 : ¬Gen.cond3_0 i) (hc1 : ¬Gen.cond3_1 i) (x0 : Vec F S2048 .i32) (x1 : Vec F S2048x64 .f32) (x2 : Vec F S1x64 .f32)
    (xo3 : Vec F S2000x64 .f32) :
    Gen.out3_B_3 c i arg2 harg2 arg3 harg3 arg4 harg4 arg5 harg5 hc0 hc1 x0 x1 x2 xo3 = Gen.k3_pay2 i x0 x1 xo3 := by
  unfold Gen.out3_B_3
  rw [View.read_writes_eq_canon _ _ _ (Gen.cover3_B_3 c i arg2 harg2 arg3 harg3 arg4 harg4 arg5 harg5 hc0 hc1 x0 x1 x2 xo3)]
  unfold Gen.kernelRun3_B
  dsimp only
  sl_unfold_words
  rw [View.canon_unit_zero hz2]
  simp only [View.readAt_eq_ld, harg2.read_unread, harg3.read_unread, harg5.read_unread, View.ld_unit_zero (S := S2048) hz1,
    View.ld_unit_zero (S := S2048x64) hz2, View.ld_unit_zero (S := S2000x64) hz2]

/-- The first point: the zero block is stored, read back, and the update computed from it is stored over it. -/
theorem piece_A (c : Dev nD) (i : grid3.Coords) (arg2 : Memref sig .tc .vmem S2048 .i32) (harg2 : arg2.IsWhole)
    (arg3 : Memref sig .tc .vmem S2048x64 .f32) (harg3 : arg3.IsWhole) (arg4 : Memref sig .tc .vmem S1x64 .f32) (harg4 : arg4.IsWhole)
    (arg5 : Memref sig .tc .vmem S2000x64 .f32) (harg5 : arg5.IsWhole)
    (hc0 : Gen.cond3_0 i) (hc1 : ¬Gen.cond3_1 i) (x0 : Vec F S2048 .i32) (x1 : Vec F S2048x64 .f32) (x2 : Vec F S1x64 .f32) :
    Gen.out3_A_3 c i arg2 harg2 arg3 harg3 arg4 harg4 arg5 harg5 hc0 hc1 x0 x1 x2 = Gen.k3_pay2 i x0 x1 (Gen.k3_pay1 (F := F)) := by
  unfold Gen.out3_A_3
  rw [View.read_writes_eq_canon _ _ _ (Gen.cover3_A_3 c i arg2 harg2 arg3 harg3 arg4 harg4 arg5 harg5 hc0 hc1 x0 x1 x2)]
  unfold Gen.kernelRun3_A
  dsimp only
  sl_unfold_words
  rw [View.canon_cons_unit_zero (S := S2000x64) hz2]
  simp only [View.readAt_eq_ld, harg2.read_unread, harg3.read_unread, View.ld_unit_zero (S := S2048) hz1,
    View.ld_unit_zero (S := S2048x64) hz2, View.readCov_unit_zero (S := S2000x64) _ hz2]

/-- The last point: the update is stored, read back, and the biased, clipped block is stored over it. -/
theorem piece_C (c : Dev nD) (i : grid3.Coords) (arg2 : Memref sig .tc .vmem S2048 .i32) (harg2 : arg2.IsWhole)
    (arg3 : Memref sig .tc .vmem S2048x64 .f32) (harg3 : arg3.IsWhole) (arg4 : Memref sig .tc .vmem S1x64 .f32) (harg4 : arg4.IsWhole)
    (arg5 : Memref sig .tc .vmem S2000x64 .f32) (harg5 : arg5.IsWhole)
    (hc0 : ¬Gen.cond3_0 i) (hc1 : Gen.cond3_1 i) (x0 : Vec F S2048 .i32) (x1 : Vec F S2048x64 .f32) (x2 : Vec F S1x64 .f32)
    (xo3 : Vec F S2000x64 .f32) :
    Gen.out3_C_3 c i arg2 harg2 arg3 harg3 arg4 harg4 arg5 harg5 hc0 hc1 x0 x1 x2 xo3 = Gen.k3_pay3 (Gen.k3_pay2 i x0 x1 xo3) x2 := by
  unfold Gen.out3_C_3
  rw [View.read_writes_eq_canon _ _ _ (Gen.cover3_C_3 c i arg2 harg2 arg3 harg3 arg4 harg4 arg5 harg5 hc0 hc1 x0 x1 x2 xo3)]
  unfold Gen.kernelRun3_C
  dsimp only
  sl_unfold_words
  rw [View.canon_cons_unit_zero (S := S2000x64) hz2]
  simp only [View.readAt_eq_ld, harg2.read_unread, harg3.read_unread, harg4.read_unread, harg5.read_unread,
    View.ld_unit_zero (S := S2048) hz1, View.ld_unit_zero (S := S2048x64) hz2, View.ld_unit_zero (S := S2000x64) hz2,
    View.ld_unit_zero (S := S1x64) hz2, View.readCov_unit_zero (S := S2000x64) _ hz2]

end Pieces

/-! ## The three cases as values -/

/-- The first point of a grid row leaves the block's contribution alone. -/
theorem out3_A_3_eq (c : Dev nD) (i : grid3.Coords) (arg2 : Memref sig .tc .vmem S2048 .i32) (harg2 : arg2.IsWhole)
    (arg3 : Memref sig .tc .vmem S2048x64 .f32) (harg3 : arg3.IsWhole) (arg4 : Memref sig .tc .vmem S1x64 .f32) (harg4 : arg4.IsWhole)
    (arg5 : Memref sig .tc .vmem S2000x64 .f32) (harg5 : arg5.IsWhole)
    (hc0 : Gen.cond3_0 i) (hc1 : ¬Gen.cond3_1 i) (x0 : Vec Ideal S2048 .i32) (x1 : Vec Ideal S2048x64 .f32) (x2 : Vec Ideal S1x64 .f32) :
    Gen.out3_A_3 (F := Ideal) c i arg2 harg2 arg3 harg3 arg4 harg4 arg5 harg5 hc0 hc1 x0 x1 x2 = Cert.Gcn.contribOf ((i 0).val * 2000) x0 x1 :=
  (piece_A (F := Ideal) c i arg2 harg2 arg3 harg3 arg4 harg4 arg5 harg5 hc0 hc1 x0 x1 x2).trans (val_A i x0 x1)

/-- A middle point adds the block's contribution to what the point before left. -/
theorem out3_B_3_eq (c : Dev nD) (i : grid3.Coords) (arg2 : Memref sig .tc .vmem S2048 .i32) (harg2 : arg2.IsWhole)
    (arg3 : Memref sig .tc .vmem S2048x64 .f32) (harg3 : arg3.IsWhole) (arg4 : Memref sig .tc .vmem S1x64 .f32) (harg4 : arg4.IsWhole)
    (arg5 : Memref sig .tc .vmem S2000x64 .f32) (harg5 : arg5.IsWhole)
    (hc0 : ¬Gen.cond3_0 i) (hc1 : ¬Gen.cond3_1 i) (x0 : Vec Ideal S2048 .i32) (x1 : Vec Ideal S2048x64 .f32) (x2 : Vec Ideal S1x64 .f32)
    (xo3 : Vec Ideal S2000x64 .f32) :
    Gen.out3_B_3 (F := Ideal) c i arg2 harg2 arg3 harg3 arg4 harg4 arg5 harg5 hc0 hc1 x0 x1 x2 xo3
      = fun j => xo3 j + Cert.Gcn.contribOf ((i 0).val * 2000) x0 x1 j :=
  (piece_B (F := Ideal) c i arg2 harg2 arg3 harg3 arg4 harg4 arg5 harg5 hc0 hc1 x0 x1 x2 xo3).trans (val_B i x0 x1 xo3)

/-- The last point adds the block's contribution, then the bias, and clips at zero. -/
theorem out3_C_3_eq (c : Dev nD) (i : grid3.Coords) (arg2 : Memref sig .tc .vmem S2048 .i32) (harg2 : arg2.IsWhole)
    (arg3 : Memref sig .tc .vmem S2048x64 .f32) (harg3 : arg3.IsWhole) (arg4 : Memref sig .tc .vmem S1x64 .f32) (harg4 : arg4.IsWhole)
    (arg5 : Memref sig .tc .vmem S2000x64 .f32) (harg5 : arg5.IsWhole)
    (hc0 : ¬Gen.cond3_0 i) (hc1 : Gen.cond3_1 i) (x0 : Vec Ideal S2048 .i32) (x1 : Vec Ideal S2048x64 .f32) (x2 : Vec Ideal S1x64 .f32)
    (xo3 : Vec Ideal S2000x64 .f32) :
    Gen.out3_C_3 (F := Ideal) c i arg2 harg2 arg3 harg3 arg4 harg4 arg5 harg5 hc0 hc1 x0 x1 x2 xo3
      = fun j => max ((xo3 j + Cert.Gcn.contribOf ((i 0).val * 2000) x0 x1 j) + x2 (ix2 0 (j 1))) 0 :=
  (piece_C (F := Ideal) c i arg2 harg2 arg3 harg3 arg4 harg4 arg5 harg5 hc0 hc1 x0 x1 x2 xo3).trans (val_C i x0 x1 x2 xo3)

end Cert.KernelIdeal.ScatterBody3
-- ==== Proof.ScatterArr3.lean ====
import proofs.«158019_j83202106458211_1_alg».proof.Proof.ScatterBody3
import Idealize.ShloMosaic.Lib.ValueIdx
import Idealize.ShloMosaic.Lib.Pipeline.Value
import Mathlib.Algebra.BigOperators.Fin
import Mathlib.Logic.Equiv.Fin.Basic

/-!
  The scatter region, from blocks to the whole array.

  The grid is 25 × 318, point t = 318 · i + k. Output block i (nodes 2000 i … 2000 i + 1999) is carried
  across k: emptied and given edge block 0's contribution at k = 0, given edge block k's contribution at
  every later k, and at k = 317 the bias is added and the result clipped at zero, after which the block is
  written back. Edge block k is edges 2048 k … 2048 k + 2047. So node 2000 i + r, feature d ends at
    max ((∑_{k < 318} ∑_{e < 2048} [2000 i + r = row (2048 k + e)] · msgs (2048 k + e) d) + b d) 0,
  and the double sum is the sum over all 318 · 2048 = 651264 edges: the layer's aggregation `aggOf`.
-/

noncomputable section

namespace Cert.KernelIdeal.ScatterArr3

open Idealize.ShloMosaic Idealize.ShloMosaic.TcCoe Idealize.SL.Sem Idealize.ShloMosaic.ValueIdx Cert.KernelIdeal Cert.Gcn
open Idealize.ShloMosaic.Pipeline (Dat)

/-! ## Sums over K · B positions, block by block -/

theorem blk_lt {K B : ℕ} (s : Fin K) (e : Fin B) : B * s.val + e.val < K * B :=
  calc B * s.val + e.val < B * s.val + B := Nat.add_lt_add_left e.isLt _
    _ = B * (s.val + 1) := (Nat.mul_succ _ _).symm
    _ ≤ B * K := Nat.mul_le_mul_left _ s.isLt
    _ = K * B := Nat.mul_comm _ _

/-- A sum over n = K · B positions is the sum over the K blocks of the sums inside each block; block s holds
    the positions B · s + e. -/
theorem sum_blocks {β : Type*} [AddCommMonoid β] {n : ℕ} (K B : ℕ) (h : n = K * B) (F : Fin n → β) :
    ∑ x : Fin n, F x = ∑ s : Fin K, ∑ e : Fin B, F ⟨B * s.val + e.val, h ▸ blk_lt s e⟩ := by
  subst h
  rw [← finProdFinEquiv.sum_comp, Fintype.sum_prod_type]
  refine Finset.sum_congr rfl fun s _ => Finset.sum_congr rfl fun e _ => congrArg F (Fin.ext ?_)
  show (finProdFinEquiv (s, e)).val = B * s.val + e.val
  rw [finProdFinEquiv_apply_val]; exact Nat.add_comm _ _

/-! ## One point's contribution, read off the whole arrays -/

/-- Edge e of the edge block that point n reads: position 2048 · (n mod 318) + e of the edge list. -/
def edgeAt (n : ℕ) (e : Fin 2048) : Fin 651264 :=
  ⟨2048 * (n % 318) + e.val, by have := Nat.mod_lt n (show 0 < 318 by decide); have := e.isLt; omega⟩

theorem edgeAt_of_mod {n : ℕ} {s : Fin 318} (h : n % 318 = s.val) (e : Fin 2048) (p : 2048 * s.val + e.val < 651264) :
    edgeAt n e = ⟨2048 * s.val + e.val, p⟩ := Fin.ext (by show 2048 * (n % 318) + e.val = _; rw [h])

/-- What point n adds to its node block: for node 2000 · (n / 318) + r and feature d, the messages of the
    point's 2048 edges whose row word is that node. -/
def addend (row : IVec ⟨1, ![651264]⟩ 32) (msgs : FVec Ideal ⟨2, ![651264, 64]⟩ .f32) (n : ℕ) :
    FVec Ideal ⟨2, ![2000, 64]⟩ .f32 :=
  fun j => ∑ e : Fin 2048, hot (BitVec.ofNat 32 (n / 318 * 2000 + (j 0).val)) (row (ix1 (edgeAt n e)))
    * msgs (ix2 (edgeAt n e) (j 1))

/-- The contributions of the 318 points of node block q, added up, are the sum over every edge. -/
theorem sum_addend (row : IVec ⟨1, ![651264]⟩ 32) (msgs : FVec Ideal ⟨2, ![651264, 64]⟩ .f32) (q : ℕ)
    (j : (⟨2, ![2000, 64]⟩ : Shape).Idx) :
    ∑ s ∈ Finset.range 318, addend row msgs (318 * q + s) j
      = ∑ e : Fin 651264, hot (BitVec.ofNat 32 (q * 2000 + (j 0).val)) (row (ix1 e)) * msgs (ix2 e (j 1)) := by
  rw [Finset.sum_range (fun s => addend row msgs (318 * q + s) j),
    sum_blocks 318 2048 (by norm_num)
      (fun e : Fin 651264 => hot (BitVec.ofNat 32 (q * 2000 + (j 0).val)) (row (ix1 e)) * msgs (ix2 e (j 1)))]
  refine Finset.sum_congr rfl fun s _ => Finset.sum_congr rfl fun e _ => ?_
  have hs : s.val < 318 := s.isLt
  have hq : (318 * q + s.val) / 318 = q := by omega
  have hr : (318 * q + s.val) % 318 = s.val := by omega
  rw [edgeAt_of_mod hr e (by have := e.isLt; omega), hq]

/-- The value a node block is written back with, against the layer's aggregation at the node's own index. -/
theorem agg_at (row : IVec ⟨1, ![651264]⟩ 32) (msgs : FVec Ideal ⟨2, ![651264, 64]⟩ .f32)
    (b : FVec Ideal ⟨2, ![1, 64]⟩ .f32) (q : ℕ) (j : (⟨2, ![2000, 64]⟩ : Shape).Idx)
    (i : (⟨2, ![50000, 64]⟩ : Shape).Idx) (h0 : (i 0).val = q * 2000 + (j 0).val) (h1 : (i 1).val = (j 1).val) :
    max ((∑ s ∈ Finset.range 318, addend row msgs (318 * q + s) j) + b (ix2 0 (j 1))) 0 = aggOf row msgs b i := by
  have e1 : i 1 = j 1 := Fin.ext h1
  unfold aggOf
  rw [sum_addend, h0, e1]

/-! ## The grid's coordinates and the windows' block indices -/

theorem stride1_0 : grid3.stride 0 = 318 := by decide
theorem stride1_1 : grid3.stride 1 = 1 := by decide

theorem lt_N (t : Fin cfg3.N) : t.val < 7950 := lt_of_lt_of_eq t.isLt (show cfg3.N = 7950 from Gen.N_3)

/-- Point t is (t / 318, t mod 318). -/
theorem coord0 (t : Fin cfg3.N) : (grid3.coords t 0).val = t.val / 318 := by
  have hN := lt_N t
  show t.val / grid3.stride 0 % 25 = t.val / 318
  rw [stride1_0]; omega

theorem coord1 (t : Fin cfg3.N) : (grid3.coords t 1).val = t.val % 318 := by
  show t.val / grid3.stride 1 % 318 = t.val % 318
  rw [stride1_1, Nat.div_one]

theorem word_of_lt {x : ℕ} (h : x < 318) : (BitVec.ofNat 32 x).toNat = x := by
  rw [BitVec.toNat_ofNat]; exact Nat.mod_eq_of_lt (by omega)

/-- The edge windows sit at block k, the output window at block i. -/
theorem idx0_0 (t : Fin cfg3.N) : win3_0.index t 0 = t.val % 318 := by
  show (BitVec.ofNat 32 (grid3.coords t 1).val).toNat = _
  rw [coord1, word_of_lt (Nat.mod_lt _ (by decide))]

theorem idx1_0 (t : Fin cfg3.N) : win3_1.index t 0 = t.val % 318 := by
  show (BitVec.ofNat 32 (grid3.coords t 1).val).toNat = _
  rw [coord1, word_of_lt (Nat.mod_lt _ (by decide))]

theorem idx1_1 (t : Fin cfg3.N) : win3_1.index t 1 = 0 := rfl

theorem idx2_0 (t : Fin cfg3.N) : win3_2.index t 0 = 0 := rfl
theorem idx2_1 (t : Fin cfg3.N) : win3_2.index t 1 = 0 := rfl

theorem idx3_0 (t : Fin cfg3.N) : win3_3.index t 0 = t.val / 318 := by
  have hN := lt_N t
  show (BitVec.ofNat 32 (grid3.coords t 0).val).toNat = _
  rw [coord0, word_of_lt (by omega)]

theorem idx3_1 (t : Fin cfg3.N) : win3_3.index t 1 = 0 := rfl

section Region

variable (V : (c : Dev nD) → (b : Ref sig .tc) → Buf (Elt Ideal) ((c : Thread nD τ).loc b)) (c : Dev nD)

/-- The three arrays as the region finds them, -/
abbrev rowArr : Vec Ideal S651264 .i32 := V c main_v71
abbrev msgArr : Vec Ideal S651264x64 .f32 := V c main_v75
abbrev biasArr : Vec Ideal S1x64 .f32 := V c main_v76
/-- and their blocks at a point. -/
abbrev rowBlk (t : Fin cfg3.N) : Vec Ideal S2048 .i32 := Gen.iblk3 V c 0 t
abbrev msgBlk (t : Fin cfg3.N) : Vec Ideal S2048x64 .f32 := Gen.iblk3 V c 1 t
abbrev biasBlk (t : Fin cfg3.N) : Vec Ideal S1x64 .f32 := Gen.iblk3 V c 2 t

/-- Edge e of the point's row block is edge 2048 k + e of the list. -/
theorem rowBlk_apply (t : Fin cfg3.N) (e : Fin 2048) :
    rowBlk V c t (ix1 e) = rowArr V c (ix1 (edgeAt t.val e)) := by
  unfold rowBlk Gen.iblk3
  rw [View.read_apply]
  show rowArr V c _ = _
  congr 1
  funext a
  apply Fin.ext
  match a with
  | ⟨0, _⟩ =>
    show win3_0.index t 0 * 2048 + 1 * e.val = 2048 * (t.val % 318) + e.val
    rw [idx0_0]; omega

/-- Edge e, feature d of the point's message block is edge 2048 k + e, feature d of the list. -/
theorem msgBlk_apply (t : Fin cfg3.N) (e : Fin 2048) (d : Fin 64) :
    msgBlk V c t (ix2 e d) = msgArr V c (ix2 (edgeAt t.val e) d) := by
  unfold msgBlk Gen.iblk3
  rw [View.read_apply]
  show msgArr V c _ = _
  congr 1
  funext a
  apply Fin.ext
  match a with
  | ⟨0, _⟩ =>
    show win3_1.index t 0 * 2048 + 1 * e.val = 2048 * (t.val % 318) + e.val
    rw [idx1_0]; omega
  | ⟨1, _⟩ =>
    show win3_1.index t 1 * 64 + 1 * d.val = d.val
    rw [idx1_1]; omega

/-- The bias block is the bias. -/
theorem biasBlk_apply (t : Fin cfg3.N) (d : Fin 64) :
    biasBlk V c t (ix2 0 d) = biasArr V c (ix2 0 d) := by
  unfold biasBlk Gen.iblk3
  rw [View.read_apply]
  show biasArr V c _ = _
  congr 1
  funext a
  apply Fin.ext
  match a with
  | ⟨0, _⟩ =>
    show win3_2.index t 0 * 1 + 1 * 0 = 0
    rw [idx2_0]
  | ⟨1, _⟩ =>
    show win3_2.index t 1 * 64 + 1 * d.val = d.val
    rw [idx2_1]; omega

/-- A point's blocks contribute the point's addend. -/
theorem contrib_blk (t : Fin cfg3.N) :
    contribOf ((grid3.coords t 0).val * 2000) (rowBlk V c t) (msgBlk V c t) = addend (rowArr V c) (msgArr V c) t.val := by
  funext j
  show ∑ e : Fin 2048, hot (BitVec.ofNat 32 ((grid3.coords t 0).val * 2000 + (j 0).val)) (rowBlk V c t (ix1 e))
      * msgBlk V c t (ix2 e (j 1))
    = ∑ e : Fin 2048, hot (BitVec.ofNat 32 (t.val / 318 * 2000 + (j 0).val)) (rowArr V c (ix1 (edgeAt t.val e)))
      * msgArr V c (ix2 (edgeAt t.val e) (j 1))
  rw [coord0]
  refine Finset.sum_congr rfl fun e _ => ?_
  rw [rowBlk_apply, msgBlk_apply V c t e (j 1)]

/-! ## What the carried block holds, point by point -/

/-- One step from the point before: add the point's addend; at the last point of a run also add the bias and clip. -/
def stepAt (row : IVec ⟨1, ![651264]⟩ 32) (msgs : FVec Ideal ⟨2, ![651264, 64]⟩ .f32)
    (b : FVec Ideal ⟨2, ![1, 64]⟩ .f32) (n : ℕ) (acc : FVec Ideal ⟨2, ![2000, 64]⟩ .f32) :
    FVec Ideal ⟨2, ![2000, 64]⟩ .f32 :=
  if n % 318 = 317 then fun j => max ((acc j + addend row msgs n j) + b (ix2 0 (j 1))) 0
  else fun j => acc j + addend row msgs n j

/-- The carried block as a function of the point. -/
abbrev outs : (n : ℕ) → n < cfg3.N → Vec Ideal S2000x64 .f32 := Gen.outsAt3 V c

/-- At the first point of a run the block holds that point's addend. -/
theorem outs_reset (n : ℕ) (h : n < cfg3.N) (h0 : n % 318 = 0) :
    outs V c n h = addend (rowArr V c) (msgArr V c) n := by
  have h1 : ¬(⟨n, h⟩ : Fin cfg3.N).val % 318 = 317 := by show ¬n % 318 = 317; omega
  refine (Gen.outsAt3_A V c ⟨n, h⟩ h0 h1).trans ?_
  refine (ScatterBody3.out3_A_3_eq c (grid3.coords ⟨n, h⟩) (Gen.ms3_0 ⟨n, h⟩) (Gen.hs3_0 ⟨n, h⟩) (Gen.ms3_1 ⟨n, h⟩) (Gen.hs3_1 ⟨n, h⟩)
    (Gen.ms3_2 ⟨n, h⟩) (Gen.hs3_2 ⟨n, h⟩) (Gen.ms3_3 ⟨n, h⟩) (Gen.hs3_3 ⟨n, h⟩) ((Gen.hcond3_0 ⟨n, h⟩).mpr h0)
    (fun hh => h1 ((Gen.hcond3_1 ⟨n, h⟩).mp hh)) (rowBlk V c ⟨n, h⟩) (msgBlk V c ⟨n, h⟩) (biasBlk V c ⟨n, h⟩)).trans ?_
  exact contrib_blk V c ⟨n, h⟩

/-- At every other point it steps from the point before. -/
theorem outs_step (n : ℕ) (h : n + 1 < cfg3.N) (h0 : ¬(n + 1) % 318 = 0) :
    outs V c (n + 1) h
      = stepAt (rowArr V c) (msgArr V c) (biasArr V c) (n + 1) (outs V c n (Nat.lt_of_succ_lt h)) := by
  by_cases h1 : (n + 1) % 318 = 317
  · refine (Gen.outsAt3_C V c ⟨n + 1, h⟩ h0 h1).trans ?_
    refine (ScatterBody3.out3_C_3_eq c (grid3.coords ⟨n + 1, h⟩) (Gen.ms3_0 ⟨n + 1, h⟩) (Gen.hs3_0 ⟨n + 1, h⟩) (Gen.ms3_1 ⟨n + 1, h⟩)
      (Gen.hs3_1 ⟨n + 1, h⟩) (Gen.ms3_2 ⟨n + 1, h⟩) (Gen.hs3_2 ⟨n + 1, h⟩) (Gen.ms3_3 ⟨n + 1, h⟩) (Gen.hs3_3 ⟨n + 1, h⟩)
      (fun hh => h0 ((Gen.hcond3_0 ⟨n + 1, h⟩).mp hh)) ((Gen.hcond3_1 ⟨n + 1, h⟩).mpr h1)
      (rowBlk V c ⟨n + 1, h⟩) (msgBlk V c ⟨n + 1, h⟩) (biasBlk V c ⟨n + 1, h⟩)
      (outs V c n (Nat.lt_of_succ_lt h))).trans ?_
    unfold stepAt
    rw [if_pos h1]
    funext j
    show max ((outs V c n _ j + contribOf ((grid3.coords ⟨n + 1, h⟩ 0).val * 2000) (rowBlk V c ⟨n + 1, h⟩)
        (msgBlk V c ⟨n + 1, h⟩) j) + biasBlk V c ⟨n + 1, h⟩ (ix2 0 (j 1))) 0 = _
    rw [contrib_blk V c ⟨n + 1, h⟩, biasBlk_apply V c ⟨n + 1, h⟩ (j 1)]
  · refine (Gen.outsAt3_B V c ⟨n + 1, h⟩ h0 h1).trans ?_
    refine (ScatterBody3.out3_B_3_eq c (grid3.coords ⟨n + 1, h⟩) (Gen.ms3_0 ⟨n + 1, h⟩) (Gen.hs3_0 ⟨n + 1, h⟩) (Gen.ms3_1 ⟨n + 1, h⟩)
      (Gen.hs3_1 ⟨n + 1, h⟩) (Gen.ms3_2 ⟨n + 1, h⟩) (Gen.hs3_2 ⟨n + 1, h⟩) (Gen.ms3_3 ⟨n + 1, h⟩) (Gen.hs3_3 ⟨n + 1, h⟩)
      (fun hh => h0 ((Gen.hcond3_0 ⟨n + 1, h⟩).mp hh)) (fun hh => h1 ((Gen.hcond3_1 ⟨n + 1, h⟩).mp hh))
      (rowBlk V c ⟨n + 1, h⟩) (msgBlk V c ⟨n + 1, h⟩) (biasBlk V c ⟨n + 1, h⟩)
      (outs V c n (Nat.lt_of_succ_lt h))).trans ?_
    unfold stepAt
    rw [if_neg h1]
    funext j
    show outs V c n _ j + contribOf ((grid3.coords ⟨n + 1, h⟩ 0).val * 2000) (rowBlk V c ⟨n + 1, h⟩)
        (msgBlk V c ⟨n + 1, h⟩) j = _
    rw [contrib_blk V c ⟨n + 1, h⟩]

/-- The fold of a whole run of 318 points from 318 q: every addend of the run, the bias, the clip. -/
theorem fold_run {N : ℕ} (row : IVec ⟨1, ![651264]⟩ 32) (msgs : FVec Ideal ⟨2, ![651264, 64]⟩ .f32)
    (b : FVec Ideal ⟨2, ![1, 64]⟩ .f32) (q : ℕ) (h : 318 * q + 317 < N) (j : (⟨2, ![2000, 64]⟩ : Shape).Idx) :
    Pipeline.accAt (N := N) (fun n _ => addend row msgs n) (fun n _ acc => stepAt row msgs b n acc) (318 * q) 317 h j
      = max ((∑ s ∈ Finset.range 318, addend row msgs (318 * q + s) j) + b (ix2 0 (j 1))) 0 := by
  show stepAt row msgs b (318 * q + (316 + 1))
      (Pipeline.accAt (N := N) (fun n _ => addend row msgs n) (fun n _ acc => stepAt row msgs b n acc) (318 * q) 316
        (Nat.lt_of_succ_lt h)) j = _
  have hlast : (318 * q + (316 + 1)) % 318 = 317 := by omega
  unfold stepAt
  rw [if_pos hlast]
  show max ((Pipeline.accAt (N := N) (fun n _ => addend row msgs n) (fun n _ acc => stepAt row msgs b n acc)
      (318 * q) 316 (Nat.lt_of_succ_lt h) j + addend row msgs (318 * q + (316 + 1)) j) + b (ix2 0 (j 1))) 0 = _
  rw [Pipeline.accAt_add_apply (N := N) (fun n _ => addend row msgs n) (fun n _ acc => stepAt row msgs b n acc)
    (fun _ => 0) (addend row msgs) (318 * q) 316 (fun _ i => (zero_add _).symm)
    (fun n hn acc i hlo hhi => by
      have hmid : ¬n % 318 = 317 := by omega
      show stepAt row msgs b n acc i = _
      unfold stepAt; rw [if_neg hmid])
    316 le_rfl (Nat.lt_of_succ_lt h) j, zero_add]
  exact congrArg (fun x => max (x + b (ix2 0 (j 1))) 0)
    (Finset.sum_range_succ (fun s => addend row msgs (318 * q + s) j) 317).symm

/-- At the last point of its run the carried block holds the layer's aggregation of its nodes. -/
theorem outs_flush (t : Fin cfg3.N) (hf : t.val % 318 = 317) (j : S2000x64.Idx) (i : S50000x64.Idx)
    (h0 : (i 0).val = t.val / 318 * 2000 + (j 0).val) (h1 : (i 1).val = (j 1).val) :
    outs V c t.val t.isLt j = aggOf (rowArr V c) (msgArr V c) (biasArr V c) i := by
  have ht : 318 * (t.val / 318) + 317 = t.val := by omega
  have h' : 318 * (t.val / 318) + 317 < cfg3.N := by rw [ht]; exact t.isLt
  have same : ∀ (u : ℕ) (hu : u < cfg3.N), u = t.val → outs V c u hu = outs V c t.val t.isLt :=
    fun u hu e => by subst e; rfl
  rw [← same _ h' ht,
    Pipeline.eq_accAt (outs V c) 318 (fun n _ => addend (rowArr V c) (msgArr V c) n)
      (fun n _ acc => stepAt (rowArr V c) (msgArr V c) (biasArr V c) n acc)
      (outs_reset V c) (outs_step V c) (t.val / 318) 317 (by decide) h']
  exact (fold_run (rowArr V c) (msgArr V c) (biasArr V c) (t.val / 318) h' j).trans
    (agg_at (rowArr V c) (msgArr V c) (biasArr V c) (t.val / 318) j i h0 h1)

/-! ## From the blocks to the array -/

/-- Reading the output window's block of an array: the array at the block's own indices. -/
theorem read_blk3 (t : Fin cfg3.N) (G : Vec Ideal S50000x64 .f32) (y : ((cfg3.win 3).xblock (grid3.coords t)).Idx) :
    ((cfg3.win 3).blk t).view.read (Elt Ideal) G y = G (((cfg3.win 3).blk t).view.emb y) := rfl

/-- The block is written back whole. -/
theorem cut3 (t : Fin cfg3.N) (X : Vec Ideal S2000x64 .f32) (y : ((cfg3.win 3).xblock (grid3.coords t)).Idx) :
    (cfg3.win 3).cut (grid3.coords t) X y = X ((cfg3.win 3).xinj (grid3.coords t) y) := rfl

/-- Row r of output block i is node 2000 i + r; the features are not moved. -/
theorem emb3_0 (t : Fin cfg3.N) (y : ((cfg3.win 3).xblock (grid3.coords t)).Idx) :
    ((((cfg3.win 3).blk t).view.emb y : S50000x64.Idx) 0).val
      = t.val / 318 * 2000 + (((cfg3.win 3).xinj (grid3.coords t) y : S2000x64.Idx) 0).val := by
  show win3_3.index t 0 * 2000 + 1 * (y 0).val = t.val / 318 * 2000 + (y 0).val
  rw [idx3_0]; omega

theorem emb3_1 (t : Fin cfg3.N) (y : ((cfg3.win 3).xblock (grid3.coords t)).Idx) :
    ((((cfg3.win 3).blk t).view.emb y : S50000x64.Idx) 1).val
      = (((cfg3.win 3).xinj (grid3.coords t) y : S2000x64.Idx) 1).val := by
  show win3_3.index t 1 * 64 + 1 * (y 1).val = (y 1).val
  rw [idx3_1]; omega

/-- What a flushing point writes back is its block of the layer's aggregation. -/
theorem flushed_eq (t : Fin cfg3.N) (hf : (cfg3.win 3).flush t = true) :
    (Gen.dat3 (F := Ideal) V c).flushed 3 t
      = ((cfg3.win 3).blk t).view.read (Elt Ideal) (aggOf (rowArr V c) (msgArr V c) (biasArr V c) : Vec Ideal S50000x64 .f32) := by
  have h634 : t.val % 318 = 317 := (Gen.flush3_3 t).mp hf
  show (cfg3.win 3).cut (grid3.coords t) ((Gen.dat3 (F := Ideal) V c).after 3 t) = _
  rw [Gen.after3_3]
  funext y
  rw [cut3 t (Gen.outsAt3 V c t.val t.isLt) y, read_blk3 t (aggOf (rowArr V c) (msgArr V c) (biasArr V c)) y]
  exact outs_flush V c t h634 ((cfg3.win 3).xinj (grid3.coords t) y) (((cfg3.win 3).blk t).view.emb y)
    (emb3_0 t y) (emb3_1 t y)

/-- Every node row lies in the block some flushing point writes back: the last point of its block's run. -/
theorem cover (i : S50000x64.Idx) :
    ∃ t : Fin cfg3.N, (cfg3.win 3).flush t = true ∧ i ∈ ((cfg3.win 3).blk t).view.set := by
  have hi0 : (i 0).val < 50000 := (i 0).isLt
  have hi1 : (i 1).val < 64 := (i 1).isLt
  have hN : cfg3.N = 7950 := Gen.N_3
  have hlt : 318 * ((i 0).val / 2000) + 317 < cfg3.N := by rw [hN]; omega
  refine ⟨⟨318 * ((i 0).val / 2000) + 317, hlt⟩, (Gen.flush3_3 _).mpr (by show (318 * ((i 0).val / 2000) + 317) % 318 = 317; omega), ?_⟩
  show i ∈ ((View.whole main_v77).slice (win3_3.rect ⟨318 * ((i 0).val / 2000) + 317, hlt⟩)).set
  rw [View.set_slice_whole, Rect.mem_set_unit]
  intro a
  match a with
  | ⟨0, _⟩ =>
    show win3_3.index ⟨318 * ((i 0).val / 2000) + 317, hlt⟩ 0 * 2000 ≤ (i 0).val
      ∧ (i 0).val < win3_3.index ⟨318 * ((i 0).val / 2000) + 317, hlt⟩ 0 * 2000 + 2000
    rw [idx3_0]
    show (318 * ((i 0).val / 2000) + 317) / 318 * 2000 ≤ (i 0).val
      ∧ (i 0).val < (318 * ((i 0).val / 2000) + 317) / 318 * 2000 + 2000
    omega
  | ⟨1, _⟩ =>
    show win3_3.index ⟨318 * ((i 0).val / 2000) + 317, hlt⟩ 1 * 64 ≤ (i 1).val
      ∧ (i 1).val < win3_3.index ⟨318 * ((i 0).val / 2000) + 317, hlt⟩ 1 * 64 + 64
    rw [idx3_1]; omega

/-- After the region the whole output is the layer's aggregation of the arrays the region found. -/
theorem agg_arr3 :
    ((Gen.dat3 (F := Ideal) V c).arrAt 3 cfg3.N : Vec Ideal S50000x64 .f32)
      = aggOf (V c main_v71 : Vec Ideal S651264 .i32) (V c main_v75 : Vec Ideal S651264x64 .f32)
          (V c main_v76 : Vec Ideal S1x64 .f32) :=
  (Gen.dat3 (F := Ideal) V c).arrAt_eq_of_cover 3
    (aggOf (rowArr V c) (msgArr V c) (biasArr V c) : Vec Ideal S50000x64 .f32) (flushed_eq V c) cover

end Region

end Cert.KernelIdeal.ScatterArr3

end
-- ==== Proof.GatherBody2.lean ====
/-
  The gather body on one block of 2048 edges, at the exact values.

  For the block's words `x0 e`, weights `x1 e` and the table `x2` (50000 rows of 64), the body leaves at (e, d)
      (∑ r < 50000, [x0 e = r] · x2 (r, d)) · x1 e.
  It gets there in three steps. The accumulator is set to zero. Trip k of fifty forms the 2048 × 2000 matrix of
  indicators [x0 e = 2000 k + j], multiplies it with rows 2000 k … 2000 k + 1999 of the table and adds the product to
  the accumulator: after k trips the accumulator holds the sum over the first 2000 k rows (an induction over the
  trips; the fifty blocks of two thousand rows are the hundred thousand rows). The stored block is the accumulator
  times the weights along the rows.
-/
import proofs.«158019_j83202106458211_1_alg».proof.Proof.Gen.KernelIdeal.Frame
import proofs.«158019_j83202106458211_1_alg».proof.Proof.Spec
import Idealize.ShloMosaic.Lib.ValueIdx
import Idealize.ShloMosaic.Lib.Pipeline.Value
import Idealize.ShloMosaic.PureOps.Ideal.Laws
import Idealize.ShloMosaic.Lib.ValueLayout
import Idealize.ShloMosaic.Lib.StableHlo.Predicate
import Idealize.ShloMosaic.Lib.Tactic

noncomputable section

namespace Cert.KernelIdeal.GatherBody2

open Idealize.ShloMosaic Idealize.ShloMosaic.TcCoe Idealize.SL.Sem Idealize.ShloMosaic.ValueIdx Cert.KernelIdeal Cert.Gcn
open Idealize.ShloMosaic.Tactic

/-! ## The trip's matrix product read at an index

The product contracts the left operand's axis 1 with the right operand's axis 0; the four lemmas say which
coordinate each operand axis reads. -/

/-- The left operand's row is the result's row. -/
theorem lhs_D0_0 (i : S2048x64.Idx) (q : dot_S2048x2000_S2000x64_S2048x64_1_0_0_1_n_n.contr.Idx) :
    (dot_S2048x2000_S2000x64_S2048x64_1_0_0_1_n_n.lhsIdx i q 0).val = (i 0).val := by
  unfold DotDims.lhsIdx
  rw [dif_neg (show ¬(0 : Fin S2048x2000.rank) ∈ dot_S2048x2000_S2000x64_S2048x64_1_0_0_1_n_n.lhsBatch by decide),
    dif_pos (show (0 : Fin S2048x2000.rank) ∈ dot_S2048x2000_S2000x64_S2048x64_1_0_0_1_n_n.lhsNonContracting by decide)]
  rfl

/-- The left operand's column is the contraction position. -/
theorem lhs_D0_1 (i : S2048x64.Idx) (q : dot_S2048x2000_S2000x64_S2048x64_1_0_0_1_n_n.contr.Idx) :
    (dot_S2048x2000_S2000x64_S2048x64_1_0_0_1_n_n.lhsIdx i q 1).val = (q ⟨0, by decide⟩).val :=
  dot_S2048x2000_S2000x64_S2048x64_1_0_0_1_n_n.lhsIdx_val_of_single rfl i q

/-- The right operand's row is the contraction position. -/
theorem rhs_D0_0 (i : S2048x64.Idx) (q : dot_S2048x2000_S2000x64_S2048x64_1_0_0_1_n_n.contr.Idx) :
    (dot_S2048x2000_S2000x64_S2048x64_1_0_0_1_n_n.rhsIdx i q 0).val = (q ⟨0, by decide⟩).val :=
  dot_S2048x2000_S2000x64_S2048x64_1_0_0_1_n_n.rhsIdx_val_of_single rfl i q

/-- The right operand's column is the result's column. -/
theorem rhs_D0_1 (i : S2048x64.Idx) (q : dot_S2048x2000_S2000x64_S2048x64_1_0_0_1_n_n.contr.Idx) :
    (dot_S2048x2000_S2000x64_S2048x64_1_0_0_1_n_n.rhsIdx i q 1).val = (i 1).val := by
  unfold DotDims.rhsIdx
  rw [dif_neg (show ¬(1 : Fin S2000x64.rank) ∈ dot_S2048x2000_S2000x64_S2048x64_1_0_0_1_n_n.rhsBatch by decide),
    dif_pos (show (1 : Fin S2000x64.rank) ∈ dot_S2048x2000_S2000x64_S2048x64_1_0_0_1_n_n.rhsNonContracting by decide)]
  rfl

/-- A matrix product into a zero accumulator, read at row e, column d: the sum over the shared axis. -/
theorem matmul_zero_apply (A : FVec Ideal S2048x2000 .bf16) (B : FVec Ideal S2000x64 .bf16) (e : Fin 2048) (d : Fin 64) :
    matmul dot_S2048x2000_S2000x64_S2048x64_1_0_0_1_n_n none A B (constant (F := Ideal) S2048x64 .f32 0x00000000#32) (ix2 e d)
      = ∑ j : Fin 2000, A (ix2 e j) * B (ix2 j d) := by
  simp only [matmul]
  rw [Ideal.matmul_constant_zero_apply, ← Equiv.sum_comp (contrEquiv1 dot_S2048x2000_S2000x64_S2048x64_1_0_0_1_n_n 2000 rfl rfl).symm]
  refine Finset.sum_congr rfl fun k _ => ?_
  have hk := contrEquiv1_symm_val dot_S2048x2000_S2000x64_S2048x64_1_0_0_1_n_n 2000 rfl rfl k
  have el : dot_S2048x2000_S2000x64_S2048x64_1_0_0_1_n_n.lhsIdx (ix2 e d) ((contrEquiv1 dot_S2048x2000_S2000x64_S2048x64_1_0_0_1_n_n 2000 rfl rfl).symm k) = ix2 e k :=
    funext fun a => Fin.ext (by
      match a with
      | ⟨0, _⟩ => exact lhs_D0_0 _ _
      | ⟨1, _⟩ => exact (lhs_D0_1 _ _).trans hk)
  have er : dot_S2048x2000_S2000x64_S2048x64_1_0_0_1_n_n.rhsIdx (ix2 e d) ((contrEquiv1 dot_S2048x2000_S2000x64_S2048x64_1_0_0_1_n_n 2000 rfl rfl).symm k) = ix2 k d :=
    funext fun a => Fin.ext (by
      match a with
      | ⟨0, _⟩ => exact (rhs_D0_0 _ _).trans hk
      | ⟨1, _⟩ => exact rhs_D0_1 _ _)
  rw [el, er]

/-! ## The three stored blocks read at an index -/

/-- One entry of the one-hot operand: the comparison's bit, widened to a word and read as a number, is the indicator. -/
theorem onehot_entry (a b : BitVec 32) :
    FloatOps.sitofp (F := Ideal) .f32 ((IntOp.cmpi .eq a b).setWidth 32) = hot a b := by
  unfold hot
  by_cases h : a = b
  · rw [if_pos h, StableHlo.Predicate.cmpi_eq_iff.mpr h]
    show (((((1#1 : BitVec 1).setWidth 32).toInt : ℤ) : ℝ) : EReal) = 1
    rw [show ((1#1 : BitVec 1).setWidth 32).toInt = 1 by decide]
    norm_num
  · rw [if_neg h, eq_zero_of_ne_one (fun hc => h (StableHlo.Predicate.cmpi_eq_iff.mp hc))]
    show (((((0#1 : BitVec 1).setWidth 32).toInt : ℤ) : ℝ) : EReal) = 0
    rw [show ((0#1 : BitVec 1).setWidth 32).toInt = 0 by decide]
    norm_num

/-- The first row of the trip's block as a word: 2000 k. -/
theorem base_word (k : ℕ) :
    Scalar.muli (Scalar.addi 0#32 (Scalar.muli (Scf.iv 0#32 1#32 k) 1#32)) 2000#32 = BitVec.ofNat 32 (2000 * k) := by
  unfold Scalar.muli Scalar.addi IntOp.muli IntOp.addi Scf.iv
  simp only [BitVec.zero_add, BitVec.mul_one]
  rw [show (2000#32 : BitVec 32) = BitVec.ofNat 32 2000 from rfl, ← BitVec.ofNat_mul, Nat.mul_comm]

section Layout
variable {α : Type}

/-- An `[a]` array cast to `[a, 1]` reads, at `(i, u)`, the operand at `i`. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- An `[a, 1]` array broadcast to `[a, b]` reads, at `(p, c)`, the operand's one column at `p`. -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

end Layout

/-- A comparison of two word arrays is entry by entry. -/
theorem cmpi_at {s : Shape} {w : ℕ} (p : CmpIPredicate) (a b : IVec s w) (i : s.Idx) : cmpi p a b i = IntOp.cmpi p (a i) (b i) := rfl
/-- A sum of two word arrays is entry by entry. -/
theorem addi_at {s : Shape} {w : ℕ} (a b : IVec s w) (i : s.Idx) : addi a b i = IntOp.addi (a i) (b i) := rfl

/-- The block a trip stores, at (e, d): what the accumulator held there plus the sum, over the trip's two thousand
    rows j, of the indicator [v4 e = 2000 k + j] times row j of the loaded block. -/
theorem pay2_apply (v4 : Vec Ideal S2048 .i32) (k : Fin k2_t1_loop.trips) (v29 : Vec Ideal S2000x64 .bf16)
    (v31 : Vec Ideal S2048x64 .f32) (e : Fin 2048) (d : Fin 64) :
    Gen.k2_pay2 (F := Ideal) v4 k v29 v31 (ix2 e d)
      = v31 (ix2 e d) + ∑ j : Fin 2000, hot (v4 (ix1 e)) (BitVec.ofNat 32 (2000 * k.val + j.val)) * v29 (ix2 j d) := by
  unfold Gen.k2_pay2
  simp only [shapeCast_self]
  rw [addf_apply, matmul_zero_apply]
  refine congrArg (v31 (ix2 e d) + ·) (Finset.sum_congr rfl fun j _ => ?_)
  rw [truncf_apply, sitofp_apply, extui_apply, cmpi_at, broadcastTo_a1_ab_apply, shapeCast_a_a1_apply, broadcastTo_1b_ab_apply,
    addi_at, broadcast_apply, iota_single_apply, base_word, onehot_entry]
  rw [BitVec.ofNat_add]
  rfl

/-- The block the accumulator is reset to: zero everywhere. -/
theorem pay1_apply (y : S2048x64.Idx) : Gen.k2_pay1 (F := Ideal) y = 0 := by
  unfold Gen.k2_pay1
  simp only [shapeCast_self]
  rw [broadcast_apply]
  exact Ideal.ofBits_zero_f32

/-- The block stored at the end: the accumulator's row e scaled by the e-th weight. -/
theorem pay3_apply (v7 : Vec Ideal S2048x64 .f32) (v8 : Vec Ideal S2048 .f32) (e : Fin 2048) (d : Fin 64) :
    Gen.k2_pay3 (F := Ideal) v7 v8 (ix2 e d) = v7 (ix2 e d) * v8 (ix1 e) := by
  unfold Gen.k2_pay3
  simp only [shapeCast_self]
  rw [mulf_apply, broadcastTo_a1_ab_apply, shapeCast_a_a1_apply]

variable {F : FTy → Type} [FloatOps F]

/-! ## One trip, and the accumulator after one more trip -/

/-- The offsets of a store over the whole block are zero. -/
theorem hz : (![0, 0] : Fin 2 → Nat) = fun _ => 0 := funext fun a => by fin_cases a <;> rfl

/-- What one trip stores: one block over the whole accumulator, the trip's sum of products added to what the accumulator held. -/
theorem trip_piece (𝒱 : Variants) (c : Dev nD) (bd : Option 𝒱.V) (i : grid2.Coords) (arg1 : Memref sig .tc .vmem S2048 .i32) (harg1 : arg1.IsWhole) (arg2 : Memref sig .tc .vmem S2048 .f32) (harg2 : arg2.IsWhole) (arg3 : Memref sig .tc .vmem S50000x64 .bf16) (harg3 : arg3.IsWhole) (arg4 : Memref sig .tc .vmem S2048x64 .f32) (harg4 : arg4.IsWhole) (arg5 : Memref sig .tc .vmem S2048x64 .f32) (harg5 : arg5.IsWhole) (v4 : Vec F S2048 .i32) (X_arg3 : BufTy.Contents (Elt F) arg3.view.ty) (k : Fin k2_t1_loop.trips) (f_arg5 : BufTy.Contents (Elt F) arg5.view.ty) :
    Gen.tripL_k2_t1 (F := F) 𝒱 c bd i arg1 harg1 arg2 harg2 arg3 harg3 arg4 harg4 arg5 harg5 v4 X_arg3 k f_arg5
      = [⟨(Rect.unit (s := S2048x64) ![0, 0] S2048x64.size Gen.inb_S2048x64_S2048x64_0_0),
          Gen.k2_pay2 v4 k (View.readAt (Elt F) arg3.view (Rect.unit (s := S50000x64) (k2_off1 k) S2000x64.size (Gen.k2_off1_inb k)).toLoadRect X_arg3)
            (View.readAt (Elt F) arg5.view (Rect.unit (s := S2048x64) ![0, 0] S2048x64.size Gen.inb_S2048x64_S2048x64_0_0).toLoadRect f_arg5)⟩] := by
  unfold Gen.tripL_k2_t1 Gen.trip_k2_t1
  rfl

/-- The accumulator read after one more trip: that trip's block, computed from the accumulator read before it. -/
theorem read_succ (𝒱 : Variants) (c : Dev nD) (bd : Option 𝒱.V) (i : grid2.Coords) (arg1 : Memref sig .tc .vmem S2048 .i32) (harg1 : arg1.IsWhole) (arg2 : Memref sig .tc .vmem S2048 .f32) (harg2 : arg2.IsWhole) (arg3 : Memref sig .tc .vmem S50000x64 .bf16) (harg3 : arg3.IsWhole) (arg4 : Memref sig .tc .vmem S2048x64 .f32) (harg4 : arg4.IsWhole) (arg5 : Memref sig .tc .vmem S2048x64 .f32) (harg5 : arg5.IsWhole) (v4 : Vec F S2048 .i32) (X_arg3 : BufTy.Contents (Elt F) arg3.view.ty) (G : BufTy.Contents (Elt F) arg5.view.ty) (k : Fin k2_t1_loop.trips) :
    arg5.view.read (Elt F) (arg5.view.writes (Elt F) G (Gen.pb_k2_t1 (F := F) 𝒱 c bd i arg1 harg1 arg2 harg2 arg3 harg3 arg4 harg4 arg5 harg5 v4 X_arg3 G (k.val + 1)))
      = Gen.k2_pay2 v4 k (View.readAt (Elt F) arg3.view (Rect.unit (s := S50000x64) (k2_off1 k) S2000x64.size (Gen.k2_off1_inb k)).toLoadRect X_arg3)
          (arg5.view.read (Elt F) (arg5.view.writes (Elt F) G (Gen.pb_k2_t1 (F := F) 𝒱 c bd i arg1 harg1 arg2 harg2 arg3 harg3 arg4 harg4 arg5 harg5 v4 X_arg3 G k.val))) := by
  rw [Gen.pb_k2_t1_succ, View.writes_append, trip_piece]
  rw [View.read_writes_eq_canon _ _ _ (fun y => ⟨_, List.mem_singleton_self _, View.mem_set_unit_zero hz Gen.inb_S2048x64_S2048x64_0_0 y⟩),
    View.canon_unit_zero hz]
  rw [View.readAt_eq_ld arg5.view, View.ld_unit_zero (S := S2048x64) hz]

/-! ## The accumulator after k trips, at the exact values -/

/-- The trips of the loop: fifty. -/
theorem trips_eq : k2_t1_loop.trips = 25 := by decide

/-- A buffer's contents read through the accumulator's view, as a block of extended reals. -/
abbrev rd (arg5 : Memref sig .tc .vmem S2048x64 .f32) (f : BufTy.Contents (Elt Ideal) arg5.view.ty) : FVec Ideal S2048x64 .f32 :=
  arg5.view.read (Elt Ideal) f

/-- Row r of the table against the indicator of the e-th word; zero past the table's last row. -/
def term (x0 : Vec Ideal S2048 .i32) (x2 : FVec Ideal S50000x64 .bf16) (e : Fin 2048) (d : Fin 64) (r : ℕ) : EReal :=
  if h : r < 50000 then hot (x0 (ix1 e)) (BitVec.ofNat 32 r) * x2 (ix2 ⟨r, h⟩ d) else 0

/-- The block of the table trip k loads: its rows 2000 k + j. -/
theorem blk_apply (arg3 : Memref sig .tc .vmem S50000x64 .bf16) (X_arg3 : BufTy.Contents (Elt Ideal) arg3.view.ty)
    (x2 : FVec Ideal S50000x64 .bf16) (hX : arg3.view.read (Elt Ideal) X_arg3 = x2) (k : Fin k2_t1_loop.trips)
    (j : Fin 2000) (d : Fin 64) (h : 2000 * k.val + j.val < 50000) :
    (View.readAt (Elt Ideal) arg3.view (Rect.unit (s := S50000x64) (k2_off1 k) S2000x64.size (Gen.k2_off1_inb k)).toLoadRect X_arg3 : FVec Ideal S2000x64 .bf16) (ix2 j d) = x2 (ix2 ⟨2000 * k.val + j.val, h⟩ d) := by
  rw [View.readAt_eq_ld, hX]
  show x2 ((Rect.unit (s := S50000x64) (k2_off1 k) S2000x64.size (Gen.k2_off1_inb k)).toLoadRect.idx (ix2 j d)) = _
  refine congrArg x2 (Shape.idx_ext₂ ?_ ?_)
  · show k2_off1 k 0 + 1 * j.val = 2000 * k.val + j.val
    rw [Gen.k2_off1_eq k, Nat.one_mul]
    rfl
  · show k2_off1 k 1 + 1 * d.val = d.val
    rw [Gen.k2_off1_eq k, Nat.one_mul]
    exact Nat.zero_add _

/-- After k trips the accumulator holds what it held at the loop's entry plus the first 2000 k rows' terms. -/
theorem acc_after (𝒱 : Variants) (c : Dev nD) (bd : Option 𝒱.V) (i : grid2.Coords) (arg1 : Memref sig .tc .vmem S2048 .i32) (harg1 : arg1.IsWhole) (arg2 : Memref sig .tc .vmem S2048 .f32) (harg2 : arg2.IsWhole) (arg3 : Memref sig .tc .vmem S50000x64 .bf16) (harg3 : arg3.IsWhole) (arg4 : Memref sig .tc .vmem S2048x64 .f32) (harg4 : arg4.IsWhole) (arg5 : Memref sig .tc .vmem S2048x64 .f32) (harg5 : arg5.IsWhole) (v4 : Vec Ideal S2048 .i32) (X_arg3 : BufTy.Contents (Elt Ideal) arg3.view.ty) (x2 : FVec Ideal S50000x64 .bf16) (hX : arg3.view.read (Elt Ideal) X_arg3 = x2)
    (G : BufTy.Contents (Elt Ideal) arg5.view.ty) (e : Fin 2048) (d : Fin 64) :
    ∀ k : ℕ, k ≤ k2_t1_loop.trips →
      rd arg5 (arg5.view.writes (Elt Ideal) G (Gen.pb_k2_t1 (F := Ideal) 𝒱 c bd i arg1 harg1 arg2 harg2 arg3 harg3 arg4 harg4 arg5 harg5 v4 X_arg3 G k)) (ix2 e d)
        = rd arg5 G (ix2 e d) + ∑ r ∈ Finset.range (2000 * k), term v4 x2 e d r
  | 0, _ => by
    rw [Gen.pb_k2_t1.eq_1, View.writes_nil, Nat.mul_zero, Finset.range_zero, Finset.sum_empty, add_zero]
  | k + 1, hk => by
    have hk' : k < k2_t1_loop.trips := hk
    have ih := acc_after 𝒱 c bd i arg1 harg1 arg2 harg2 arg3 harg3 arg4 harg4 arg5 harg5 v4 X_arg3 x2 hX G e d k (Nat.le_of_lt hk')
    have hs := read_succ (F := Ideal) 𝒱 c bd i arg1 harg1 arg2 harg2 arg3 harg3 arg4 harg4 arg5 harg5 v4 X_arg3 G ⟨k, hk'⟩
    have hkt : k < 25 := trips_eq ▸ hk'
    show (arg5.view.read (Elt Ideal) (arg5.view.writes (Elt Ideal) G (Gen.pb_k2_t1 (F := Ideal) 𝒱 c bd i arg1 harg1 arg2 harg2 arg3 harg3 arg4 harg4 arg5 harg5 v4 X_arg3 G (k + 1)))) (ix2 e d) = _
    rw [hs, pay2_apply]
    show rd arg5 (arg5.view.writes (Elt Ideal) G (Gen.pb_k2_t1 (F := Ideal) 𝒱 c bd i arg1 harg1 arg2 harg2 arg3 harg3 arg4 harg4 arg5 harg5 v4 X_arg3 G k)) (ix2 e d) + _ = _
    rw [ih, Nat.mul_succ, Finset.sum_range_add, Finset.sum_range (fun x => term v4 x2 e d (2000 * k + x)), add_assoc]
    refine congrArg (rd arg5 G (ix2 e d) + ·) (congrArg (_ + ·) (Finset.sum_congr rfl fun j _ => ?_))
    have hlt : 2000 * k + j.val < 50000 := by have := j.isLt; omega
    rw [term, dif_pos hlt, blk_apply arg3 X_arg3 x2 hX ⟨k, hk'⟩ j d hlt]

/-! ## The whole body -/

/-- The offset of a load of a whole vector is zero. -/
theorem hz1 : (![0] : Fin 1 → Nat) = fun _ => 0 := funext fun a => by fin_cases a; rfl

/-- The body's output block: entry (e, d) is the e-th word's row of the table, as a sum over all rows against the
    indicator, scaled by the e-th weight. The accumulator is zeroed, fifty trips add two thousand rows each, and the
    stored block is the accumulator times the weights. -/
theorem out2_A_3_eq (c : Dev nD) (i : grid2.Coords) (arg1 : Memref sig .tc .vmem S2048 .i32) (harg1 : arg1.IsWhole) (arg2 : Memref sig .tc .vmem S2048 .f32) (harg2 : arg2.IsWhole)
      (arg3 : Memref sig .tc .vmem S50000x64 .bf16) (harg3 : arg3.IsWhole) (arg4 : Memref sig .tc .vmem S2048x64 .f32) (harg4 : arg4.IsWhole) (arg5 : Memref sig .tc .vmem S2048x64 .f32) (harg5 : arg5.IsWhole)
      (x0 : Vec Ideal S2048 .i32) (x1 : Vec Ideal S2048 .f32) (x2 : Vec Ideal S50000x64 .bf16) :
    Gen.out2_A_3 (F := Ideal) c i arg1 harg1 arg2 harg2 arg3 harg3 arg4 harg4 arg5 harg5 x0 x1 x2 = Cert.Gcn.msgsOf x0 x1 x2 := by
  unfold Gen.out2_A_3
  rw [View.read_writes_eq_canon _ _ _ (Gen.cover2_A_3 c i arg1 harg1 arg2 harg2 arg3 harg3 arg4 harg4 arg5 harg5 x0 x1 x2)]
  unfold Gen.kernelRun2_A
  dsimp only
  sl_unfold_words
  rw [View.canon_unit_zero hz]
  have h4 : View.readAt (Elt Ideal) arg1.view (Rect.unit (s := S2048) ![0] S2048.size Gen.inb_S2048_S2048_0).toLoadRect (harg1.unread x0) = x0 := by
    rw [View.readAt_eq_ld, harg1.read_unread, View.ld_unit_zero (S := S2048) hz1]
  have h8 : View.readAt (Elt Ideal) arg2.view (Rect.unit (s := S2048) ![0] S2048.size Gen.inb_S2048_S2048_0).toLoadRect (harg2.unread x1) = x1 := by
    rw [View.readAt_eq_ld, harg2.read_unread, View.ld_unit_zero (S := S2048) hz1]
  rw [h4, h8]
  funext y
  obtain ⟨e, d, rfl⟩ : ∃ (e : Fin 2048) (d : Fin 64), y = ix2 e d := ⟨y 0, y 1, eq_ix2 y⟩
  rw [pay3_apply]
  show _ = (∑ r : Fin 50000, hot (x0 (ix1 e)) (BitVec.ofNat 32 r.val) * x2 (ix2 r d)) * x1 (ix1 e)
  refine congrArg (· * x1 (ix1 e)) ?_
  rw [View.readAt_eq_ld arg5.view, View.ld_unit_zero (S := S2048x64) hz, View.writes_append]
  refine (acc_after Variants.none c none i arg1 harg1 arg2 harg2 arg3 harg3 arg4 harg4 arg5 harg5 x0 (harg3.unread x2) x2
    (harg3.read_unread x2) _ e d k2_t1_loop.trips le_rfl).trans ?_
  show arg5.view.read (Elt Ideal) (arg5.view.writes (Elt Ideal) arg5.view.junk _) (ix2 e d) + _ = _
  rw [View.read_writes_junk_eq_canon, View.canon_unit_zero hz, pay1_apply, zero_add, trips_eq]
  show ∑ r ∈ Finset.range 50000, term x0 x2 e d r = _
  rw [Finset.sum_range]
  exact Finset.sum_congr rfl fun r _ => by rw [term, dif_pos r.isLt]

end Cert.KernelIdeal.GatherBody2
end
-- ==== Proof.GatherArr2.lean ====
/-
  From blocks to the array, for the users' gather.

  The grid has 318 points. At point `t` the body reads rows `2048·t … 2048·t + 2047` of the column words and of the
  weights, and the whole table, and its result — the messages of those 2048 edges — goes back to rows
  `2048·t … 2048·t + 2047` of the output. A message row depends on its own column word, its own weight and one
  column of the table only, so block `t` of the messages of the whole arrays is the messages of block `t`; and the
  318 blocks of 2048 rows tile the 651264 rows. Hence the output array ends as the messages of the whole arrays.
-/
import proofs.«158019_j83202106458211_1_alg».proof.Proof.Gen.KernelIdeal.Frame
import proofs.«158019_j83202106458211_1_alg».proof.Proof.Spec
import proofs.«158019_j83202106458211_1_alg».proof.Proof.GatherBody2
import Idealize.ShloMosaic.Lib.Pipeline.Value
import Idealize.ShloMosaic.Lib.ValueIdx

noncomputable section

namespace Cert.KernelIdeal.GatherArr2

open Idealize.ShloMosaic Idealize.ShloMosaic.TcCoe Idealize.SL.Sem Idealize.ShloMosaic.ValueIdx Cert.KernelIdeal Cert.Gcn
open Idealize.ShloMosaic.Pipeline (Dat)

/-- A message row reads one entry of the column words, one entry of the weights and one column of the table: two
    settings that agree on those three give the same message. -/
theorem msgsOf_congr {Mb Mp n : ℕ} (colB : IVec ⟨1, ![Mb]⟩ 32) (normB : FVec Ideal ⟨1, ![Mb]⟩ .f32)
    (tabB : FVec Ideal ⟨2, ![n, 64]⟩ .bf16) (colA : IVec ⟨1, ![Mp]⟩ 32) (normA : FVec Ideal ⟨1, ![Mp]⟩ .f32)
    (tabA : FVec Ideal ⟨2, ![n, 64]⟩ .bf16) (j : (⟨2, ![Mb, 64]⟩ : Shape).Idx) (k : (⟨2, ![Mp, 64]⟩ : Shape).Idx)
    (hcol : colB (ix1 (j 0)) = colA (ix1 (k 0))) (hnorm : normB (ix1 (j 0)) = normA (ix1 (k 0)))
    (htab : ∀ r : Fin n, tabB (ix2 r (j 1)) = tabA (ix2 r (k 1))) :
    msgsOf colB normB tabB j = msgsOf colA normA tabA k := by
  unfold msgsOf
  rw [hcol, hnorm]
  congr 1
  exact Finset.sum_congr rfl fun r _ => by rw [htab r]

variable (V : (c : Dev nD) → (b : Ref sig .tc) → Buf (Elt Ideal) ((c : Thread nD τ).loc b))

/-- The three input arrays as the region finds them: the column words, the weights, the table. -/
abbrev colArr (c : Dev nD) : Vec Ideal S651264 .i32 := V c main_v72
abbrev normArr (c : Dev nD) : Vec Ideal S651264 .f32 := V c main_v73
abbrev tabArr (c : Dev nD) : Vec Ideal S50000x64 .bf16 := V c main_v74

/-- Their blocks at a grid point. -/
abbrev colBlk (c : Dev nD) (t : Fin cfg2.N) : Vec Ideal S2048 .i32 := Gen.iblk2 V c 0 t
abbrev normBlk (c : Dev nD) (t : Fin cfg2.N) : Vec Ideal S2048 .f32 := Gen.iblk2 V c 1 t
abbrev tabBlk (c : Dev nD) (t : Fin cfg2.N) : Vec Ideal S50000x64 .bf16 := Gen.iblk2 V c 2 t

/-- The block indices at grid point `t`, decided over the 318 points: the column words, the weights and the output
    are at block `t` of the edge axis; the table's block index is zero on both axes. -/
theorem block_index : ∀ t : Fin cfg2.N,
    win2_0.index t (0 : Fin 1) = t.val ∧ win2_1.index t (0 : Fin 1) = t.val
    ∧ win2_2.index t (0 : Fin 2) = 0 ∧ win2_2.index t (1 : Fin 2) = 0
    ∧ win2_3.index t (0 : Fin 2) = t.val ∧ win2_3.index t (1 : Fin 2) = 0 :=
  (by decide +kernel : ∀ t : Fin grid2.N, _)

/-- Entry `y` of the column-word block at point `t` is entry `2048·t + y` of the array. -/
theorem colBlk_apply (c : Dev nD) (t : Fin cfg2.N) (y : Fin 2048) (k : Fin 651264) (hk : k.val = 2048 * t.val + y.val) :
    colBlk V c t (ix1 y) = colArr V c (ix1 k) := by
  obtain ⟨e0, -⟩ := block_index t
  show ((cfg2.win 0).blk t).view.read (Elt Ideal) (V c main_v72) (ix1 y) = V c main_v72 (ix1 k)
  rw [View.read_apply]
  show V c main_v72 _ = V c main_v72 _
  congr 1
  funext a
  apply Fin.ext
  match a with
  | ⟨0, _⟩ => show win2_0.index t (0 : Fin 1) * 2048 + 1 * y.val = k.val; rw [e0, hk]; omega

/-- Entry `y` of the weight block at point `t` is entry `2048·t + y` of the array. -/
theorem normBlk_apply (c : Dev nD) (t : Fin cfg2.N) (y : Fin 2048) (k : Fin 651264) (hk : k.val = 2048 * t.val + y.val) :
    normBlk V c t (ix1 y) = normArr V c (ix1 k) := by
  obtain ⟨-, e1, -⟩ := block_index t
  show ((cfg2.win 1).blk t).view.read (Elt Ideal) (V c main_v73) (ix1 y) = V c main_v73 (ix1 k)
  rw [View.read_apply]
  show V c main_v73 _ = V c main_v73 _
  congr 1
  funext a
  apply Fin.ext
  match a with
  | ⟨0, _⟩ => show win2_1.index t (0 : Fin 1) * 2048 + 1 * y.val = k.val; rw [e1, hk]; omega

/-- The table's block at every point is the whole table. -/
theorem tabBlk_apply (c : Dev nD) (t : Fin cfg2.N) (r : Fin 50000) (d : Fin 64) :
    tabBlk V c t (ix2 r d) = tabArr V c (ix2 r d) := by
  obtain ⟨-, -, e2, e3, -⟩ := block_index t
  show ((cfg2.win 2).blk t).view.read (Elt Ideal) (V c main_v74) (ix2 r d) = V c main_v74 (ix2 r d)
  rw [View.read_apply]
  show V c main_v74 _ = V c main_v74 _
  congr 1
  funext a
  apply Fin.ext
  match a with
  | ⟨0, _⟩ => show win2_2.index t (0 : Fin 2) * 50000 + 1 * r.val = r.val; rw [e2]; omega
  | ⟨1, _⟩ => show win2_2.index t (1 : Fin 2) * 64 + 1 * d.val = d.val; rw [e3]; omega

/-- What grid point `t` writes back is block `t` of the messages of the whole arrays: the body leaves the messages of
    the point's blocks; entry `(y₀, y₁)` of the output block sits at row `2048·t + y₀`, column `y₁` of the array, and
    the message there reads the same column word, weight and table column. -/
theorem flushed_eq (c : Dev nD) (t : Fin cfg2.N) :
    (Gen.dat2 V c).flushed 3 t
      = ((cfg2.win 3).blk t).view.read (Elt Ideal) (msgsOf (colArr V c) (normArr V c) (tabArr V c)) := by
  show (cfg2.win 3).cut (grid2.coords t) ((Gen.dat2 V c).after 3 t) = _
  rw [Gen.after2_3]
  unfold Gen.outsAt2
  rw [GatherBody2.out2_A_3_eq]
  obtain ⟨-, -, -, -, e4, e5⟩ := block_index t
  funext y
  rw [View.read_apply]
  have hy0 : (y 0).val < 2048 := (y 0).isLt
  have hy1 : (y 1).val < 64 := (y 1).isLt
  let k : S651264x64.Idx := ((cfg2.win 3).blk t).view.emb y
  have hk0 : (k 0).val = 2048 * t.val + (y 0).val := by
    show win2_3.index t (0 : Fin 2) * 2048 + 1 * (y 0).val = _; rw [e4]; omega
  have hk1 : k 1 = ⟨(y 1).val, hy1⟩ := by
    apply Fin.ext
    show win2_3.index t (1 : Fin 2) * 64 + 1 * (y 1).val = (y 1).val; rw [e5]; omega
  show msgsOf (colBlk V c t) (normBlk V c t) (tabBlk V c t) ((cfg2.win 3).xinj (grid2.coords t) y)
      = msgsOf (colArr V c) (normArr V c) (tabArr V c) k
  refine msgsOf_congr (colBlk V c t) (normBlk V c t) (tabBlk V c t) (colArr V c) (normArr V c) (tabArr V c) _ k ?_ ?_ ?_
  · exact colBlk_apply V c t ⟨(y 0).val, hy0⟩ (k 0) hk0
  · exact normBlk_apply V c t ⟨(y 0).val, hy0⟩ (k 0) hk0
  · intro r
    rw [hk1]
    exact tabBlk_apply V c t r ⟨(y 1).val, hy1⟩

/-- An index of the output array is in point `t`'s block iff each coordinate is in the block's range on its axis. -/
theorem mem_blk (t : Fin cfg2.N) (i : S651264x64.Idx) :
    i ∈ ((cfg2.win 3).blk t).view.set ↔ ∀ a : Fin 2, win2_3.index t a * S2048x64.size a ≤ (i a).val ∧ (i a).val < win2_3.index t a * S2048x64.size a + S2048x64.size a := by
  show i ∈ ((View.whole main_v75).slice (win2_3.rect t)).set ↔ _
  rw [View.set_slice_whole, Rect.mem_set_unit]
  exact Iff.rfl

/-- The 318 blocks of 2048 rows tile the 651264 rows: row `r` is in block `r / 2048`, and every point writes back. -/
theorem cover (i : S651264x64.Idx) :
    ∃ t : Fin cfg2.N, (cfg2.win 3).flush t = true ∧ i ∈ ((cfg2.win 3).blk t).view.set := by
  have hi0 : (i 0).val < 651264 := (i 0).isLt
  have hi1 : (i 1).val < 64 := (i 1).isLt
  have hN : cfg2.N = 318 := Gen.N_2
  have ht : (i 0).val / 2048 < cfg2.N := by rw [hN]; omega
  refine ⟨⟨(i 0).val / 2048, ht⟩, Gen.flush2_3 _, ?_⟩
  rw [mem_blk]
  obtain ⟨-, -, -, -, e4, e5⟩ := block_index ⟨(i 0).val / 2048, ht⟩
  intro a
  match a with
  | ⟨0, _⟩ =>
    show win2_3.index ⟨(i 0).val / 2048, ht⟩ (0 : Fin 2) * 2048 ≤ (i 0).val ∧ (i 0).val < win2_3.index ⟨(i 0).val / 2048, ht⟩ (0 : Fin 2) * 2048 + 2048
    rw [e4]; show (i 0).val / 2048 * 2048 ≤ (i 0).val ∧ (i 0).val < (i 0).val / 2048 * 2048 + 2048; omega
  | ⟨1, _⟩ =>
    show win2_3.index ⟨(i 0).val / 2048, ht⟩ (1 : Fin 2) * 64 ≤ (i 1).val ∧ (i 1).val < win2_3.index ⟨(i 0).val / 2048, ht⟩ (1 : Fin 2) * 64 + 64
    rw [e5]; omega

/-- After the gather region the whole output array is the messages of the three input arrays as the region found
    them: every point writes back its block of that one array-wide function, and the blocks cover the array. -/
theorem msgs_arr2 (c : Dev nD) :
    ((Gen.dat2 (F := Ideal) V c).arrAt 3 cfg2.N : Vec Ideal S651264x64 .f32)
      = Cert.Gcn.msgsOf (V c main_v72 : Vec Ideal S651264 .i32) (V c main_v73 : Vec Ideal S651264 .f32) (V c main_v74 : Vec Ideal S50000x64 .bf16) :=
  (Gen.dat2 (F := Ideal) V c).arrAt_eq_of_cover 3 (msgsOf (colArr V c) (normArr V c) (tabArr V c))
    (fun t _ => flushed_eq V c t) cover

end Cert.KernelIdeal.GatherArr2

end
-- ==== Proof.HostTerms.lean ====
import proofs.«158019_j83202106458211_1_alg».proof.Proof.Gen.KernelIdeal.Frame

noncomputable section

namespace Cert.KernelIdeal.HostTerms

open Idealize.ShloMosaic Idealize.ShloMosaic.TcCoe Idealize.SL.Sem Cert.KernelIdeal Cert.KernelIdeal.Gen

variable {F : FTy → Type} [FloatOps F]

/-! ## The users' layer: 1200000 edges over 100000 nodes

The edge array has two rows of 1200000 node words: row 0 the targets, row 1 the sources. Each row is
flattened and followed by the node numbers `0 … 100000 - 1` (one self loop per node), 1300000 entries in all. -/

/-- Row 0 of the edge array, flattened: the target word of each given edge. -/
def rowRawU (a : IVec S2x1200000 32) : IVec S1200000 32 :=
  shapeCast S1200000 (extractStridedSlice S1x1200000 ![0, 0] a slices_S2x1200000_S1x1200000_0_0) shapeCasts_S1x1200000_S1200000

/-- Row 1 of the edge array, flattened: the source word of each given edge. -/
def colRawU (a : IVec S2x1200000 32) : IVec S1200000 32 :=
  shapeCast S1200000 (extractStridedSlice S1x1200000 ![1, 0] a slices_S2x1200000_S1x1200000_1_0) shapeCasts_S1x1200000_S1200000

/-- The targets: the given ones, then every node once. -/
def rowU (a : IVec S2x1200000 32) : IVec S1300000 32 :=
  concatenate S1300000 0 [⟨S1200000, rowRawU a⟩, ⟨S100000, iotaInDim S100000 32 0⟩] concatenates_S1200000_S100000_S1300000_d0

/-- The sources: the given ones, then every node once. -/
def colU (a : IVec S2x1200000 32) : IVec S1300000 32 :=
  concatenate S1300000 0 [⟨S1200000, colRawU a⟩, ⟨S100000, iotaInDim S100000 32 0⟩] concatenates_S1200000_S100000_S1300000_d0

/-- The degree of each node: a one added, for every entry of the target list, at the node that entry names. -/
def degU (a : IVec S2x1200000 32) : FVec F S100000 .f32 :=
  Host.scatterAdd scatter_S100000_S1300000x1_S1300000_n_0_0_1
    (broadcastInDim S100000 ![] bcast_S_S100000 (constant (F := F) S_ .f32 0x00000000#32))
    (broadcastInDim S1300000x1 ![0] bcast_S1300000_S1300000x1_0 (rowU a))
    (broadcastInDim S1300000 ![] bcast_S_S1300000 (constant (F := F) S_ .f32 0x3F800000#32))

/-- One over the square root of the degree (the degree kept above a tiny positive floor first), and zero at a
    node whose degree is not positive. -/
def dinvU (a : IVec S2x1200000 32) : FVec F S100000 .f32 :=
  select
    (cmpf .ogt (degU (F := F) a) (broadcastInDim S100000 ![] bcast_S_S100000 (constant (F := F) S_ .f32 0x00000000#32)))
    (Host.rsqrt (maximumf (degU (F := F) a) (broadcastInDim S100000 ![] bcast_S_S100000 (constant (F := F) S_ .f32 0x2B8CBCCC#32))))
    (broadcastInDim S100000 ![] bcast_S_S100000 (id (constant (F := F) S_ .f32 0x00000000#32)))

/-- A node word made non-negative the way an index is before a lookup: a negative word has the node count
    added, any other word is kept. -/
def wrapU (x : IVec S1300000 32) : IVec S1300000 32 :=
  select (cmpi .slt x (broadcastInDim S1300000 ![] bcast_S_S1300000 (constantI S_ 32 0#32)))
    (addi x (broadcastInDim S1300000 ![] bcast_S_S1300000 (constantI S_ 32 100000#32))) x

/-- The per-node values `t` looked up at the (wrapped) words of `x`, entry by entry. -/
def lookU (t : FVec F S100000 .f32) (x : IVec S1300000 32) : FVec F S1300000 .f32 :=
  Host.gather gather_S100000_S1300000x1_S1300000_n_0_n_n_0_1_1 t
    (broadcastInDim S1300000x1 ![0] bcast_S1300000_S1300000x1_0 (wrapU x))

/-- The weight of each entry: the inverse-root degree of its target times that of its source. -/
def normU (a : IVec S2x1200000 32) : FVec F S1300000 .f32 :=
  mulf (lookU (dinvU (F := F) a) (rowU a)) (lookU (dinvU (F := F) a) (colU a))

/-- The targets, extended by 480 zero words to 1300480 entries. -/
def rowpU (a : IVec S2x1200000 32) : IVec S1300480 32 :=
  pad S1300480 ![0] ![480] ![0] (rowU a) (id (constantI S_ 32 0#32)) pads_S1300000_S1300480_04800 h_S_

/-- The sources, extended by 480 zero words to 1300480 entries. -/
def colpU (a : IVec S2x1200000 32) : IVec S1300480 32 :=
  pad S1300480 ![0] ![480] ![0] (colU a) (id (constantI S_ 32 0#32)) pads_S1300000_S1300480_04800 h_S_

/-- The weights, extended by 480 entries holding the integer zero read as a float. -/
def normpU (a : IVec S2x1200000 32) : FVec F S1300480 .f32 :=
  pad S1300480 ![0] ![480] ![0] (normU (F := F) a) (sitofp (F := F) .f32 (constantI S_ 32 0#32)) pads_S1300000_S1300480_04800 h_S_

/-- The feature table narrowed from `f32` to `bf16`, element by element. -/
def tableU (w : FVec F S100000x64 .f32) : FVec F S100000x64 .bf16 :=
  truncf .bf16 w bitsLt_bf16_f32

/-! ## The items' layer: 600000 edges over 50000 nodes

The edge array has two rows of 600000 node words: row 0 the targets, row 1 the sources. Each row is
flattened and followed by the node numbers `0 … 50000 - 1` (one self loop per node), 650000 entries in all. -/

/-- Row 0 of the edge array, flattened: the target word of each given edge. -/
def rowRawI (a : IVec S2x600000 32) : IVec S600000 32 :=
  shapeCast S600000 (extractStridedSlice S1x600000 ![0, 0] a slices_S2x600000_S1x600000_0_0) shapeCasts_S1x600000_S600000

/-- Row 1 of the edge array, flattened: the source word of each given edge. -/
def colRawI (a : IVec S2x600000 32) : IVec S600000 32 :=
  shapeCast S600000 (extractStridedSlice S1x600000 ![1, 0] a slices_S2x600000_S1x600000_1_0) shapeCasts_S1x600000_S600000

/-- The targets: the given ones, then every node once. -/
def rowI (a : IVec S2x600000 32) : IVec S650000 32 :=
  concatenate S650000 0 [⟨S600000, rowRawI a⟩, ⟨S50000, iotaInDim S50000 32 0⟩] concatenates_S600000_S50000_S650000_d0

/-- The sources: the given ones, then every node once. -/
def colI (a : IVec S2x600000 32) : IVec S650000 32 :=
  concatenate S650000 0 [⟨S600000, colRawI a⟩, ⟨S50000, iotaInDim S50000 32 0⟩] concatenates_S600000_S50000_S650000_d0

/-- The degree of each node: a one added, for every entry of the target list, at the node that entry names. -/
def degI (a : IVec S2x600000 32) : FVec F S50000 .f32 :=
  Host.scatterAdd scatter_S50000_S650000x1_S650000_n_0_0_1
    (broadcastInDim S50000 ![] bcast_S_S50000 (constant (F := F) S_ .f32 0x00000000#32))
    (broadcastInDim S650000x1 ![0] bcast_S650000_S650000x1_0 (rowI a))
    (broadcastInDim S650000 ![] bcast_S_S650000 (constant (F := F) S_ .f32 0x3F800000#32))

/-- One over the square root of the degree (the degree kept above a tiny positive floor first), and zero at a
    node whose degree is not positive. -/
def dinvI (a : IVec S2x600000 32) : FVec F S50000 .f32 :=
  select
    (cmpf .ogt (degI (F := F) a) (broadcastInDim S50000 ![] bcast_S_S50000 (constant (F := F) S_ .f32 0x00000000#32)))
    (Host.rsqrt (maximumf (degI (F := F) a) (broadcastInDim S50000 ![] bcast_S_S50000 (constant (F := F) S_ .f32 0x2B8CBCCC#32))))
    (broadcastInDim S50000 ![] bcast_S_S50000 (id (constant (F := F) S_ .f32 0x00000000#32)))

/-- A node word made non-negative the way an index is before a lookup: a negative word has the node count
    added, any other word is kept. -/
def wrapI (x : IVec S650000 32) : IVec S650000 32 :=
  select (cmpi .slt x (broadcastInDim S650000 ![] bcast_S_S650000 (constantI S_ 32 0#32)))
    (addi x (broadcastInDim S650000 ![] bcast_S_S650000 (constantI S_ 32 50000#32))) x

/-- The per-node values `t` looked up at the (wrapped) words of `x`, entry by entry. -/
def lookI (t : FVec F S50000 .f32) (x : IVec S650000 32) : FVec F S650000 .f32 :=
  Host.gather gather_S50000_S650000x1_S650000_n_0_n_n_0_1_1 t
    (broadcastInDim S650000x1 ![0] bcast_S650000_S650000x1_0 (wrapI x))

/-- The weight of each entry: the inverse-root degree of its target times that of its source. -/
def normI (a : IVec S2x600000 32) : FVec F S650000 .f32 :=
  mulf (lookI (dinvI (F := F) a) (rowI a)) (lookI (dinvI (F := F) a) (colI a))

/-- The targets, extended by 1264 zero words to 651264 entries. -/
def rowpI (a : IVec S2x600000 32) : IVec S651264 32 :=
  pad S651264 ![0] ![1264] ![0] (rowI a) (id (constantI S_ 32 0#32)) pads_S650000_S651264_012640 h_S_

/-- The sources, extended by 1264 zero words to 651264 entries. -/
def colpI (a : IVec S2x600000 32) : IVec S651264 32 :=
  pad S651264 ![0] ![1264] ![0] (colI a) (id (constantI S_ 32 0#32)) pads_S650000_S651264_012640 h_S_

/-- The weights, extended by 1264 entries holding the integer zero read as a float. -/
def normpI (a : IVec S2x600000 32) : FVec F S651264 .f32 :=
  pad S651264 ![0] ![1264] ![0] (normI (F := F) a) (sitofp (F := F) .f32 (constantI S_ 32 0#32)) pads_S650000_S651264_012640 h_S_

/-- The feature table narrowed from `f32` to `bf16`, element by element. -/
def tableI (w : FVec F S50000x64 .f32) : FVec F S50000x64 .bf16 :=
  truncf .bf16 w bitsLt_bf16_f32

/-! ## The biases -/

/-- A bias of 64 entries laid out as one row of 64. -/
def biasU (b : FVec F S64 .f32) : FVec F S1x64 .f32 := shapeCast S1x64 b shapeCasts_S64_S1x64

/-- The items' bias, the same way. -/
def biasI (b : FVec F S64 .f32) : FVec F S1x64 .f32 := shapeCast S1x64 b shapeCasts_S64_S1x64

open StableHlo

/-! ## The users' stretches of host operations, over any contents `V` they start from

Each lemma reads one buffer after a run of operations as the operations' own composition applied to what `V`
held at the buffers the run reads and does not write. -/

section Users

variable (V : Valuation τ sig (Elt F))

/-- After the first stretch the target list's buffer holds `rowU` of the edge array. -/
theorem users_rows : (after hostOps0 V (Proc.devRef .tc main_v3) : Vec F S1300000 .i32)
    = rowU (V (Proc.devRef .tc main_arg0)) := by
  dsimp only [hostOps0]; after_results; rfl

/-- … and the source list's buffer `colU`. -/
theorem users_cols : (after hostOps0 V (Proc.devRef .tc main_v6) : Vec F S1300000 .i32)
    = colU (V (Proc.devRef .tc main_arg0)) := by
  dsimp only [hostOps0]; after_results; rfl

/-- … the mask "the degree is positive", -/
theorem users_pos : (after hostOps0 V (Proc.devRef .tc main_v12) : Vec F S100000 .i1)
    = cmpf .ogt (degU (F := F) (V (Proc.devRef .tc main_arg0)))
        (broadcastInDim S100000 ![] bcast_S_S100000 (constant (F := F) S_ .f32 0x00000000#32)) := by
  dsimp only [hostOps0]; after_results; rfl

/-- … the inverse root of the floored degree, -/
theorem users_rs : (after hostOps0 V (Proc.devRef .tc main_v15) : Vec F S100000 .f32)
    = Host.rsqrt (maximumf (degU (F := F) (V (Proc.devRef .tc main_arg0)))
        (broadcastInDim S100000 ![] bcast_S_S100000 (constant (F := F) S_ .f32 0x2B8CBCCC#32))) := by
  dsimp only [hostOps0]; after_results; rfl

/-- … and the scalar zero the selection falls back to. -/
theorem users_zero : (after hostOps0 V (Proc.devRef .tc main_cst_3) : Vec F S_ .f32)
    = constant (F := F) S_ .f32 0x00000000#32 := by
  dsimp only [hostOps0]; after_results

set_option maxHeartbeats 1600000 in
/-- The next two stretches (the selection, then the two lookups and their product) leave the weights: the
    product of the selected per-node values looked up at the targets and at the sources. -/
theorem users_prod : (after hostOps0_2 (after hostOps0_1 V) (Proc.devRef .tc main_v31) : Vec F S1300000 .f32)
    = mulf
        (lookU (select (V (Proc.devRef .tc main_v12) : Vec F S100000 .i1) (V (Proc.devRef .tc main_v15) : Vec F S100000 .f32)
            (broadcastInDim S100000 ![] bcast_S_S100000 (id (V (Proc.devRef .tc main_cst_3) : Vec F S_ .f32))))
          (V (Proc.devRef .tc main_v3) : Vec F S1300000 .i32))
        (lookU (select (V (Proc.devRef .tc main_v12) : Vec F S100000 .i1) (V (Proc.devRef .tc main_v15) : Vec F S100000 .f32)
            (broadcastInDim S100000 ![] bcast_S_S100000 (id (V (Proc.devRef .tc main_cst_3) : Vec F S_ .f32))))
          (V (Proc.devRef .tc main_v6) : Vec F S1300000 .i32)) := by
  dsimp only [hostOps0_2, hostOps0_1]; after_results_simp; rfl

/-- The last six stretches pad the weights they find. -/
theorem users_padw :
    (after hostOps0_8 (after hostOps0_7 (after hostOps0_6 (after hostOps0_5 (after hostOps0_4 (after hostOps0_3 V)))))
        (Proc.devRef .tc main_v34) : Vec F S1300480 .f32)
    = pad S1300480 ![0] ![480] ![0] (V (Proc.devRef .tc main_v31) : Vec F S1300000 .f32)
        (sitofp (F := F) .f32 (constantI S_ 32 0#32)) pads_S1300000_S1300480_04800 h_S_ := by
  dsimp only [hostOps0_8, hostOps0_7, hostOps0_6, hostOps0_5, hostOps0_4, hostOps0_3]; after_results; rfl

/-- All nine stretches: the padded weights. -/
theorem users_norm : (after hostOps0_8 (after hostOps0_7 (after hostOps0_6 (after hostOps0_5 (after hostOps0_4 (after hostOps0_3
      (after hostOps0_2 (after hostOps0_1 (after hostOps0 V)))))))) (Proc.devRef .tc main_v34) : Vec F S1300480 .f32)
    = normpU (F := F) (V (Proc.devRef .tc main_arg0)) := by
  rw [users_padw, users_prod, users_rows, users_cols, users_pos, users_rs, users_zero]; rfl

set_option maxHeartbeats 1600000 in
/-- All nine stretches: the padded sources. -/
theorem users_col : (after hostOps0_8 (after hostOps0_7 (after hostOps0_6 (after hostOps0_5 (after hostOps0_4 (after hostOps0_3
      (after hostOps0_2 (after hostOps0_1 (after hostOps0 V)))))))) (Proc.devRef .tc main_v33) : Vec F S1300480 .i32)
    = colpU (V (Proc.devRef .tc main_arg0)) := by
  dsimp only [hostOps0_8, hostOps0_7, hostOps0_6, hostOps0_5, hostOps0_4, hostOps0_3, hostOps0_2, hostOps0_1, hostOps0]
  after_results; rfl

set_option maxHeartbeats 1600000 in
/-- All nine stretches: the padded targets. -/
theorem users_row : (after hostOps0_8 (after hostOps0_7 (after hostOps0_6 (after hostOps0_5 (after hostOps0_4 (after hostOps0_3
      (after hostOps0_2 (after hostOps0_1 (after hostOps0 V)))))))) (Proc.devRef .tc main_v32) : Vec F S1300480 .i32)
    = rowpU (V (Proc.devRef .tc main_arg0)) := by
  dsimp only [hostOps0_8, hostOps0_7, hostOps0_6, hostOps0_5, hostOps0_4, hostOps0_3, hostOps0_2, hostOps0_1, hostOps0]
  after_results; rfl

set_option maxHeartbeats 1600000 in
/-- All nine stretches: the narrowed table. -/
theorem users_table : (after hostOps0_8 (after hostOps0_7 (after hostOps0_6 (after hostOps0_5 (after hostOps0_4 (after hostOps0_3
      (after hostOps0_2 (after hostOps0_1 (after hostOps0 V)))))))) (Proc.devRef .tc main_v35) : Vec F S100000x64 .bf16)
    = tableU (F := F) (V (Proc.devRef .tc main_arg2)) := by
  dsimp only [hostOps0_8, hostOps0_7, hostOps0_6, hostOps0_5, hostOps0_4, hostOps0_3, hostOps0_2, hostOps0_1, hostOps0]
  after_results; rfl

set_option maxHeartbeats 1600000 in
/-- None of the nine stretches writes `main_arg1`. -/
theorem users_keep_arg1 : after hostOps0_8 (after hostOps0_7 (after hostOps0_6 (after hostOps0_5 (after hostOps0_4 (after hostOps0_3
      (after hostOps0_2 (after hostOps0_1 (after hostOps0 V)))))))) (Proc.devRef .tc main_arg1) = V (Proc.devRef .tc main_arg1) := by
  dsimp only [hostOps0_8, hostOps0_7, hostOps0_6, hostOps0_5, hostOps0_4, hostOps0_3, hostOps0_2, hostOps0_1, hostOps0]
  after_results

set_option maxHeartbeats 1600000 in
/-- None of the nine stretches writes `main_arg3`. -/
theorem users_keep_arg3 : after hostOps0_8 (after hostOps0_7 (after hostOps0_6 (after hostOps0_5 (after hostOps0_4 (after hostOps0_3
      (after hostOps0_2 (after hostOps0_1 (after hostOps0 V)))))))) (Proc.devRef .tc main_arg3) = V (Proc.devRef .tc main_arg3) := by
  dsimp only [hostOps0_8, hostOps0_7, hostOps0_6, hostOps0_5, hostOps0_4, hostOps0_3, hostOps0_2, hostOps0_1, hostOps0]
  after_results

set_option maxHeartbeats 1600000 in
/-- None of the nine stretches writes `main_arg4`. -/
theorem users_keep_arg4 : after hostOps0_8 (after hostOps0_7 (after hostOps0_6 (after hostOps0_5 (after hostOps0_4 (after hostOps0_3
      (after hostOps0_2 (after hostOps0_1 (after hostOps0 V)))))))) (Proc.devRef .tc main_arg4) = V (Proc.devRef .tc main_arg4) := by
  dsimp only [hostOps0_8, hostOps0_7, hostOps0_6, hostOps0_5, hostOps0_4, hostOps0_3, hostOps0_2, hostOps0_1, hostOps0]
  after_results

set_option maxHeartbeats 1600000 in
/-- None of the nine stretches writes `main_arg5`. -/
theorem users_keep_arg5 : after hostOps0_8 (after hostOps0_7 (after hostOps0_6 (after hostOps0_5 (after hostOps0_4 (after hostOps0_3
      (after hostOps0_2 (after hostOps0_1 (after hostOps0 V)))))))) (Proc.devRef .tc main_arg5) = V (Proc.devRef .tc main_arg5) := by
  dsimp only [hostOps0_8, hostOps0_7, hostOps0_6, hostOps0_5, hostOps0_4, hostOps0_3, hostOps0_2, hostOps0_1, hostOps0]
  after_results

end Users

/-! ## The items' stretches of host operations, over any contents `V` they start from

Each lemma reads one buffer after a run of operations as the operations' own composition applied to what `V`
held at the buffers the run reads and does not write. -/

section Items

variable (V : Valuation τ sig (Elt F))

/-- After the first stretch the target list's buffer holds `rowI` of the edge array. -/
theorem items_rows : (after hostOps2 V (Proc.devRef .tc main_v42) : Vec F S650000 .i32)
    = rowI (V (Proc.devRef .tc main_arg1)) := by
  dsimp only [hostOps2]; after_results; rfl

/-- … and the source list's buffer `colI`. -/
theorem items_cols : (after hostOps2 V (Proc.devRef .tc main_v45) : Vec F S650000 .i32)
    = colI (V (Proc.devRef .tc main_arg1)) := by
  dsimp only [hostOps2]; after_results; rfl

/-- … the mask "the degree is positive", -/
theorem items_pos : (after hostOps2 V (Proc.devRef .tc main_v51) : Vec F S50000 .i1)
    = cmpf .ogt (degI (F := F) (V (Proc.devRef .tc main_arg1)))
        (broadcastInDim S50000 ![] bcast_S_S50000 (constant (F := F) S_ .f32 0x00000000#32)) := by
  dsimp only [hostOps2]; after_results; rfl

/-- … the inverse root of the floored degree, -/
theorem items_rs : (after hostOps2 V (Proc.devRef .tc main_v54) : Vec F S50000 .f32)
    = Host.rsqrt (maximumf (degI (F := F) (V (Proc.devRef .tc main_arg1)))
        (broadcastInDim S50000 ![] bcast_S_S50000 (constant (F := F) S_ .f32 0x2B8CBCCC#32))) := by
  dsimp only [hostOps2]; after_results; rfl

/-- … and the scalar zero the selection falls back to. -/
theorem items_zero : (after hostOps2 V (Proc.devRef .tc main_cst_14) : Vec F S_ .f32)
    = constant (F := F) S_ .f32 0x00000000#32 := by
  dsimp only [hostOps2]; after_results

set_option maxHeartbeats 1600000 in
/-- The next two stretches (the selection, then the two lookups and their product) leave the weights: the
    product of the selected per-node values looked up at the targets and at the sources. -/
theorem items_prod : (after hostOps2_2 (after hostOps2_1 V) (Proc.devRef .tc main_v70) : Vec F S650000 .f32)
    = mulf
        (lookI (select (V (Proc.devRef .tc main_v51) : Vec F S50000 .i1) (V (Proc.devRef .tc main_v54) : Vec F S50000 .f32)
            (broadcastInDim S50000 ![] bcast_S_S50000 (id (V (Proc.devRef .tc main_cst_14) : Vec F S_ .f32))))
          (V (Proc.devRef .tc main_v42) : Vec F S650000 .i32))
        (lookI (select (V (Proc.devRef .tc main_v51) : Vec F S50000 .i1) (V (Proc.devRef .tc main_v54) : Vec F S50000 .f32)
            (broadcastInDim S50000 ![] bcast_S_S50000 (id (V (Proc.devRef .tc main_cst_14) : Vec F S_ .f32))))
          (V (Proc.devRef .tc main_v45) : Vec F S650000 .i32)) := by
  dsimp only [hostOps2_2, hostOps2_1]; after_results_simp; rfl

/-- The last six stretches pad the weights they find. -/
theorem items_padw :
    (after hostOps2_8 (after hostOps2_7 (after hostOps2_6 (after hostOps2_5 (after hostOps2_4 (after hostOps2_3 V)))))
        (Proc.devRef .tc main_v73) : Vec F S651264 .f32)
    = pad S651264 ![0] ![1264] ![0] (V (Proc.devRef .tc main_v70) : Vec F S650000 .f32)
        (sitofp (F := F) .f32 (constantI S_ 32 0#32)) pads_S650000_S651264_012640 h_S_ := by
  dsimp only [hostOps2_8, hostOps2_7, hostOps2_6, hostOps2_5, hostOps2_4, hostOps2_3]; after_results; rfl

/-- All nine stretches: the padded weights. -/
theorem items_norm : (after hostOps2_8 (after hostOps2_7 (after hostOps2_6 (after hostOps2_5 (after hostOps2_4 (after hostOps2_3
      (after hostOps2_2 (after hostOps2_1 (after hostOps2 V)))))))) (Proc.devRef .tc main_v73) : Vec F S651264 .f32)
    = normpI (F := F) (V (Proc.devRef .tc main_arg1)) := by
  rw [items_padw, items_prod, items_rows, items_cols, items_pos, items_rs, items_zero]; rfl

set_option maxHeartbeats 1600000 in
/-- All nine stretches: the padded sources. -/
theorem items_col : (after hostOps2_8 (after hostOps2_7 (after hostOps2_6 (after hostOps2_5 (after hostOps2_4 (after hostOps2_3
      (after hostOps2_2 (after hostOps2_1 (after hostOps2 V)))))))) (Proc.devRef .tc main_v72) : Vec F S651264 .i32)
    = colpI (V (Proc.devRef .tc main_arg1)) := by
  dsimp only [hostOps2_8, hostOps2_7, hostOps2_6, hostOps2_5, hostOps2_4, hostOps2_3, hostOps2_2, hostOps2_1, hostOps2]
  after_results; rfl

set_option maxHeartbeats 1600000 in
/-- All nine stretches: the padded targets. -/
theorem items_row : (after hostOps2_8 (after hostOps2_7 (after hostOps2_6 (after hostOps2_5 (after hostOps2_4 (after hostOps2_3
      (after hostOps2_2 (after hostOps2_1 (after hostOps2 V)))))))) (Proc.devRef .tc main_v71) : Vec F S651264 .i32)
    = rowpI (V (Proc.devRef .tc main_arg1)) := by
  dsimp only [hostOps2_8, hostOps2_7, hostOps2_6, hostOps2_5, hostOps2_4, hostOps2_3, hostOps2_2, hostOps2_1, hostOps2]
  after_results; rfl

set_option maxHeartbeats 1600000 in
/-- All nine stretches: the narrowed table. -/
theorem items_table : (after hostOps2_8 (after hostOps2_7 (after hostOps2_6 (after hostOps2_5 (after hostOps2_4 (after hostOps2_3
      (after hostOps2_2 (after hostOps2_1 (after hostOps2 V)))))))) (Proc.devRef .tc main_v74) : Vec F S50000x64 .bf16)
    = tableI (F := F) (V (Proc.devRef .tc main_arg4)) := by
  dsimp only [hostOps2_8, hostOps2_7, hostOps2_6, hostOps2_5, hostOps2_4, hostOps2_3, hostOps2_2, hostOps2_1, hostOps2]
  after_results; rfl

set_option maxHeartbeats 1600000 in
/-- None of the nine stretches writes `main_arg5`. -/
theorem items_keep_arg5 : after hostOps2_8 (after hostOps2_7 (after hostOps2_6 (after hostOps2_5 (after hostOps2_4 (after hostOps2_3
      (after hostOps2_2 (after hostOps2_1 (after hostOps2 V)))))))) (Proc.devRef .tc main_arg5) = V (Proc.devRef .tc main_arg5) := by
  dsimp only [hostOps2_8, hostOps2_7, hostOps2_6, hostOps2_5, hostOps2_4, hostOps2_3, hostOps2_2, hostOps2_1, hostOps2]
  after_results

end Items
/-! ## The four regions' input arrays, as terms of the program's arguments

`Gen.V9`, `Gen.V11`, `Gen.V21`, `Gen.V23` are the buffer contents when regions 0, 1, 2, 3 are entered: the fold of the
stretches above from the launch memory, with each earlier region's arrays replaced by what it leaves. -/

section Run

variable (m : (ℓ : Loc nD τ sig) → Buf (Elt F) ℓ) (ρ : Dev nD → PrngReg) (c : Dev nD)

/-! ### What an argument's buffer holds at the later boundaries: its launch contents -/

/-- Region 0 and the stretches before it leave an argument other than the users' edge array and table untouched. -/
theorem W10_arg1 : Gen.W10 m ρ c (Proc.devRef .tc main_arg1) = m ((c.tc : Thread nD τ).loc main_arg1) :=
  (Gen.W10_of_ne m ρ c main_arg1 (by decide)).trans (users_keep_arg1 (Gen.W0 m ρ c))
theorem W10_arg3 : Gen.W10 m ρ c (Proc.devRef .tc main_arg3) = m ((c.tc : Thread nD τ).loc main_arg3) :=
  (Gen.W10_of_ne m ρ c main_arg3 (by decide)).trans (users_keep_arg3 (Gen.W0 m ρ c))
theorem W10_arg4 : Gen.W10 m ρ c (Proc.devRef .tc main_arg4) = m ((c.tc : Thread nD τ).loc main_arg4) :=
  (Gen.W10_of_ne m ρ c main_arg4 (by decide)).trans (users_keep_arg4 (Gen.W0 m ρ c))
theorem W10_arg5 : Gen.W10 m ρ c (Proc.devRef .tc main_arg5) = m ((c.tc : Thread nD τ).loc main_arg5) :=
  (Gen.W10_of_ne m ρ c main_arg5 (by decide)).trans (users_keep_arg5 (Gen.W0 m ρ c))

/-- The one operation between regions 0 and 1 writes the users' bias row only. -/
theorem W11_of_ne (b : Ref sig .tc) (hb : b ≠ main_v37) :
    Gen.W11 m ρ c (Proc.devRef .tc b) = Gen.W10 m ρ c (Proc.devRef .tc b) := by
  show after hostOps1 (Gen.W10 m ρ c) (Proc.devRef .tc b) = _
  dsimp only [hostOps1]
  simp only [after_cons, after_nil]
  rw [reshape_result_ne]; exact hb

/-- So do region 1 and that operation. -/
theorem W12_arg1 : Gen.W12 m ρ c (Proc.devRef .tc main_arg1) = m ((c.tc : Thread nD τ).loc main_arg1) :=
  (Gen.W12_of_ne m ρ c main_arg1 (by decide)).trans ((W11_of_ne m ρ c main_arg1 (by decide)).trans (W10_arg1 m ρ c))
theorem W12_arg4 : Gen.W12 m ρ c (Proc.devRef .tc main_arg4) = m ((c.tc : Thread nD τ).loc main_arg4) :=
  (Gen.W12_of_ne m ρ c main_arg4 (by decide)).trans ((W11_of_ne m ρ c main_arg4 (by decide)).trans (W10_arg4 m ρ c))
theorem W12_arg5 : Gen.W12 m ρ c (Proc.devRef .tc main_arg5) = m ((c.tc : Thread nD τ).loc main_arg5) :=
  (Gen.W12_of_ne m ρ c main_arg5 (by decide)).trans ((W11_of_ne m ρ c main_arg5 (by decide)).trans (W10_arg5 m ρ c))

/-- … and the items' stretches and region 2, for the items' bias. -/
theorem W22_arg5 : Gen.W22 m ρ c (Proc.devRef .tc main_arg5) = m ((c.tc : Thread nD τ).loc main_arg5) :=
  (Gen.W22_of_ne m ρ c main_arg5 (by decide)).trans ((items_keep_arg5 (Gen.W12 m ρ c)).trans (W12_arg5 m ρ c))

/-- The one operation between regions 2 and 3 writes the items' bias row only. -/
theorem W23_of_ne (b : Ref sig .tc) (hb : b ≠ main_v76) :
    Gen.W23 m ρ c (Proc.devRef .tc b) = Gen.W22 m ρ c (Proc.devRef .tc b) := by
  show after hostOps3 (Gen.W22 m ρ c) (Proc.devRef .tc b) = _
  dsimp only [hostOps3]
  simp only [after_cons, after_nil]
  rw [reshape_result_ne]; exact hb

/-! ### Region 0 (the users' gather) -/

theorem V9_col : (Gen.V9 m ρ c main_v33 : Vec F S1300480 .i32) = colpU (m ((c.tc : Thread nD τ).loc main_arg0)) :=
  users_col (Gen.W0 m ρ c)

theorem V9_norm : (Gen.V9 m ρ c main_v34 : Vec F S1300480 .f32) = normpU (F := F) (m ((c.tc : Thread nD τ).loc main_arg0)) :=
  users_norm (Gen.W0 m ρ c)

theorem V9_table : (Gen.V9 m ρ c main_v35 : Vec F S100000x64 .bf16) = tableU (F := F) (m ((c.tc : Thread nD τ).loc main_arg2)) :=
  users_table (Gen.W0 m ρ c)

/-! ### Region 1 (the users' scatter) -/

theorem V11_row : (Gen.V11 m ρ c main_v32 : Vec F S1300480 .i32) = rowpU (m ((c.tc : Thread nD τ).loc main_arg0)) :=
  (W11_of_ne m ρ c main_v32 (by decide)).trans ((Gen.W10_of_ne m ρ c main_v32 (by decide)).trans (users_row (Gen.W0 m ρ c)))

theorem V11_msgs : (Gen.V11 m ρ c main_v36 : Vec F S1300480x64 .f32) = (Gen.dat0 (Gen.V9 m ρ) c).arrAt (3 : Fin 4) cfg0.N :=
  (W11_of_ne m ρ c main_v36 (by decide)).trans (Gen.W10_arr m ρ c (3 : Fin 4))

theorem V11_bias : (Gen.V11 m ρ c main_v37 : Vec F S1x64 .f32) = biasU (F := F) (m ((c.tc : Thread nD τ).loc main_arg3)) := by
  show (after hostOps1 (Gen.W10 m ρ c) (Proc.devRef .tc main_v37) : Vec F S1x64 .f32) = _
  dsimp only [hostOps1]
  after_results
  rw [W10_arg3]
  rfl

/-! ### Region 2 (the items' gather) -/

theorem V21_col : (Gen.V21 m ρ c main_v72 : Vec F S651264 .i32) = colpI (m ((c.tc : Thread nD τ).loc main_arg1)) :=
  (items_col (Gen.W12 m ρ c)).trans (congrArg colpI (W12_arg1 m ρ c))

theorem V21_norm : (Gen.V21 m ρ c main_v73 : Vec F S651264 .f32) = normpI (F := F) (m ((c.tc : Thread nD τ).loc main_arg1)) :=
  (items_norm (Gen.W12 m ρ c)).trans (congrArg (normpI (F := F)) (W12_arg1 m ρ c))

theorem V21_table : (Gen.V21 m ρ c main_v74 : Vec F S50000x64 .bf16) = tableI (F := F) (m ((c.tc : Thread nD τ).loc main_arg4)) :=
  (items_table (Gen.W12 m ρ c)).trans (congrArg (tableI (F := F)) (W12_arg4 m ρ c))

/-! ### Region 3 (the items' scatter) -/

theorem V23_row : (Gen.V23 m ρ c main_v71 : Vec F S651264 .i32) = rowpI (m ((c.tc : Thread nD τ).loc main_arg1)) :=
  (W23_of_ne m ρ c main_v71 (by decide)).trans ((Gen.W22_of_ne m ρ c main_v71 (by decide)).trans
    ((items_row (Gen.W12 m ρ c)).trans (congrArg rowpI (W12_arg1 m ρ c))))

theorem V23_msgs : (Gen.V23 m ρ c main_v75 : Vec F S651264x64 .f32) = (Gen.dat2 (Gen.V21 m ρ) c).arrAt (3 : Fin 4) cfg2.N :=
  (W23_of_ne m ρ c main_v75 (by decide)).trans (Gen.W22_arr m ρ c (3 : Fin 4))

theorem V23_bias : (Gen.V23 m ρ c main_v76 : Vec F S1x64 .f32) = biasI (F := F) (m ((c.tc : Thread nD τ).loc main_arg5)) := by
  show (after hostOps3 (Gen.W22 m ρ c) (Proc.devRef .tc main_v76) : Vec F S1x64 .f32) = _
  dsimp only [hostOps3]
  after_results
  rw [W22_arg5]
  rfl

end Run

end Cert.KernelIdeal.HostTerms

end
-- ==== Proof.HostRead.lean ====
import proofs.«158019_j83202106458211_1_alg».proof.Proof.HostTerms
import Idealize.ShloMosaic.Lib.KernelVsHost
import Idealize.ShloMosaic.Lib.ValueLayout
import Idealize.ShloMosaic.Lib.IdealHost

/-!
# The host-side arrays read at one index

The arrays the two layers are fed — targets, sources and weights of the edge list with its self loops, each
extended by zeros to a whole number of blocks; the feature table in the narrower float format; the bias as a
one-row matrix — are compositions of a slice, a flattening, a concatenation with the node numbers, and a
padding. Read at a single index, a padding is the array below the old length and the padding value beyond; a
concatenation is the first piece below its length and the second, shifted back, beyond; the node numbers read
their own position; at exact real arithmetic a change of float format is the identity; and a vector laid out as
one row reads the vector.
-/

noncomputable section

namespace Cert.KernelIdeal.HostRead

open Idealize.ShloMosaic Idealize.ShloMosaic.TcCoe Idealize.SL.Sem Idealize.ShloMosaic.ValueIdx
open Cert.KernelIdeal Cert.KernelIdeal.HostTerms

/-! ## Padding after the end, and two vectors end to end, over any lengths -/

section Generic
variable {α : Type}

/-- A vector padded only after its last entry reads the vector below the old length and the padding value `z` from
    there on. -/
theorem pad_high_apply {M Mp p : ℕ} (x : (⟨1, ![M]⟩ : Shape).Idx → α) (v : (⟨0, ![]⟩ : Shape).Idx → α)
    (h : (⟨1, ![M]⟩ : Shape).Pads (![0] : Fin 1 → ℕ) ![p] ![0] ⟨1, ![Mp]⟩) (hu : 0 < (⟨0, ![]⟩ : Shape).numel)
    (z : α) (hz : v ix0 = z) (e : Fin Mp) :
    pad ⟨1, ![Mp]⟩ ![0] ![p] ![0] x v h hu (ix1 e) = if hlt : e.val < M then x (ix1 ⟨e.val, hlt⟩) else z := by
  by_cases hlt : e.val < M
  · rw [dif_pos hlt]
    exact pad_apply_of_inside _ _ _ x v h hu (ix1 e) (ix1 ⟨e.val, hlt⟩)
      (fun a => match a with | ⟨0, _⟩ => by show e.val = 0 + e.val * (0 + 1); omega)
  · rw [dif_neg hlt, ← hz]
    refine (pad_apply_of_not_inside _ _ _ x v h hu (ix1 e) ⟨0, Nat.one_pos⟩ ?_).trans (congrArg v (eq_ix0 _))
    intro hc
    have h3 : (e.val - 0) / (0 + 1) < M := hc.2.2
    exact hlt (by simpa using h3)

/-- Two vectors laid end to end read the first below its length and the second, shifted back by that length, from
    there on. -/
theorem concat_pair_apply {n₁ n₂ N : ℕ} (x₁ : (⟨1, ![n₁]⟩ : Shape).Idx → α) (x₂ : (⟨1, ![n₂]⟩ : Shape).Idx → α)
    (h : Shape.Concatenates [(⟨1, ![n₁]⟩ : Shape), ⟨1, ![n₂]⟩] ⟨1, ![N]⟩ 0) (hN : N = n₁ + n₂) (e : Fin N) :
    concatenate ⟨1, ![N]⟩ 0 [⟨⟨1, ![n₁]⟩, x₁⟩, ⟨⟨1, ![n₂]⟩, x₂⟩] h (ix1 e)
      = if hlt : e.val < n₁ then x₁ (ix1 ⟨e.val, hlt⟩) else x₂ (ix1 ⟨e.val - n₁, by have := e.isLt; omega⟩) := by
  by_cases hlt : e.val < n₁
  · rw [dif_pos hlt]
    exact concatenate_pair_apply_left 0 x₁ x₂ h (ix1 e) rfl (ix1 ⟨e.val, hlt⟩)
      (fun b => match b with | ⟨0, _⟩ => rfl)
  · rw [dif_neg hlt]
    exact concatenate_pair_apply_right 0 x₁ x₂ h (ix1 e) rfl rfl (ix1 ⟨e.val - n₁, by have := e.isLt; omega⟩)
      (fun b hb => match b, hb with | ⟨0, _⟩, hb => absurd rfl hb)
      (by show (e.val - n₁) + n₁ = e.val; omega)

end Generic

/-- A word made from a number below 2^31 reads back, signed, as that number. -/
theorem toInt_ofNat_small (k : ℕ) (hk : k < 2147483648) : (BitVec.ofNat 32 k).toInt = (k : ℤ) := by
  have h1 : (BitVec.ofNat 32 k).toNat = k := by rw [BitVec.toNat_ofNat]; omega
  rw [BitVec.toInt_eq_toNat_of_lt (by rw [h1]; omega), h1]

/-! ## The users' layer read at an index -/

/-- The padded targets are the targets below 1300000 and the zero word from there on. -/
theorem rowpU_apply (a0 : IVec S2x1200000 32) (e : Fin 1300480) :
    rowpU a0 (ix1 e) = if h : e.val < 1300000 then rowU a0 (ix1 ⟨e.val, h⟩) else 0#32 := by
  unfold rowpU
  exact pad_high_apply (rowU a0) _ _ _ 0#32 rfl e

/-- The padded sources are the sources below 1300000 and the zero word from there on. -/
theorem colpU_apply (a0 : IVec S2x1200000 32) (e : Fin 1300480) :
    colpU a0 (ix1 e) = if h : e.val < 1300000 then colU a0 (ix1 ⟨e.val, h⟩) else 0#32 := by
  unfold colpU
  exact pad_high_apply (colU a0) _ _ _ 0#32 rfl e

/-- The padded weights are the weights below 1300000; beyond, the integer zero converted, which is the real zero. -/
theorem normpU_apply (a0 : IVec S2x1200000 32) (e : Fin 1300480) :
    normpU (F := Ideal) a0 (ix1 e)
      = if h : e.val < 1300000 then normU (F := Ideal) a0 (ix1 ⟨e.val, h⟩) else (0 : EReal) := by
  unfold normpU
  exact pad_high_apply (normU (F := Ideal) a0) _ _ _ (0 : EReal) sitofp_zero e

/-- The targets are the given edge row below 1200000; entry `e` beyond is the self loop of node `e - 1200000`. -/
theorem rowU_apply (a0 : IVec S2x1200000 32) (e : Fin 1300000) :
    rowU a0 (ix1 e)
      = if h : e.val < 1200000 then rowRawU a0 (ix1 ⟨e.val, h⟩) else BitVec.ofNat 32 (e.val - 1200000) := by
  unfold rowU
  exact concat_pair_apply _ _ _ (by decide) e

/-- The sources are the given edge row below 1200000; entry `e` beyond is the self loop of node `e - 1200000`. -/
theorem colU_apply (a0 : IVec S2x1200000 32) (e : Fin 1300000) :
    colU a0 (ix1 e)
      = if h : e.val < 1200000 then colRawU a0 (ix1 ⟨e.val, h⟩) else BitVec.ofNat 32 (e.val - 1200000) := by
  unfold colU
  exact concat_pair_apply _ _ _ (by decide) e

/-- Every source names a node once every given source does: a self loop's source is its own node, below 100000. -/
theorem colU_in_range (a0 : IVec S2x1200000 32)
    (hraw : ∀ e : Fin 1200000, 0 ≤ (colRawU a0 (ix1 e)).toInt ∧ (colRawU a0 (ix1 e)).toInt < 100000) (e : Fin 1300000) :
    0 ≤ (colU a0 (ix1 e)).toInt ∧ (colU a0 (ix1 e)).toInt < 100000 := by
  rw [colU_apply]
  by_cases h : e.val < 1200000
  · rw [dif_pos h]; exact hraw ⟨e.val, h⟩
  · rw [dif_neg h, toInt_ofNat_small _ (by have := e.isLt; omega)]
    have := e.isLt
    omega

/-- Narrowing the table's format changes no value. -/
theorem tableU_apply (a2 : FVec Ideal S100000x64 .f32) (j : S100000x64.Idx) : tableU (F := Ideal) a2 j = a2 j := rfl

/-- The bias laid out as one row reads, at column `d` of that row, entry `d`. -/
theorem biasU_apply (a3 : FVec Ideal S64 .f32) (d : Fin 64) : biasU (F := Ideal) a3 (ix2 0 d) = a3 (ix1 d) := by
  unfold biasU
  exact shapeCast_a_1a_apply a3 _ 0 d

/-! ## The items' layer read at an index -/

/-- The padded targets are the targets below 650000 and the zero word from there on. -/
theorem rowpI_apply (a0 : IVec S2x600000 32) (e : Fin 651264) :
    rowpI a0 (ix1 e) = if h : e.val < 650000 then rowI a0 (ix1 ⟨e.val, h⟩) else 0#32 := by
  unfold rowpI
  exact pad_high_apply (rowI a0) _ _ _ 0#32 rfl e

/-- The padded sources are the sources below 650000 and the zero word from there on. -/
theorem colpI_apply (a0 : IVec S2x600000 32) (e : Fin 651264) :
    colpI a0 (ix1 e) = if h : e.val < 650000 then colI a0 (ix1 ⟨e.val, h⟩) else 0#32 := by
  unfold colpI
  exact pad_high_apply (colI a0) _ _ _ 0#32 rfl e

/-- The padded weights are the weights below 650000; beyond, the integer zero converted, which is the real zero. -/
theorem normpI_apply (a0 : IVec S2x600000 32) (e : Fin 651264) :
    normpI (F := Ideal) a0 (ix1 e)
      = if h : e.val < 650000 then normI (F := Ideal) a0 (ix1 ⟨e.val, h⟩) else (0 : EReal) := by
  unfold normpI
  exact pad_high_apply (normI (F := Ideal) a0) _ _ _ (0 : EReal) sitofp_zero e

/-- The targets are the given edge row below 600000; entry `e` beyond is the self loop of node `e - 600000`. -/
theorem rowI_apply (a0 : IVec S2x600000 32) (e : Fin 650000) :
    rowI a0 (ix1 e)
      = if h : e.val < 600000 then rowRawI a0 (ix1 ⟨e.val, h⟩) else BitVec.ofNat 32 (e.val - 600000) := by
  unfold rowI
  exact concat_pair_apply _ _ _ (by decide) e

/-- The sources are the given edge row below 600000; entry `e` beyond is the self loop of node `e - 600000`. -/
theorem colI_apply (a0 : IVec S2x600000 32) (e : Fin 650000) :
    colI a0 (ix1 e)
      = if h : e.val < 600000 then colRawI a0 (ix1 ⟨e.val, h⟩) else BitVec.ofNat 32 (e.val - 600000) := by
  unfold colI
  exact concat_pair_apply _ _ _ (by decide) e

/-- Every source names a node once every given source does: a self loop's source is its own node, below 50000. -/
theorem colI_in_range (a0 : IVec S2x600000 32)
    (hraw : ∀ e : Fin 600000, 0 ≤ (colRawI a0 (ix1 e)).toInt ∧ (colRawI a0 (ix1 e)).toInt < 50000) (e : Fin 650000) :
    0 ≤ (colI a0 (ix1 e)).toInt ∧ (colI a0 (ix1 e)).toInt < 50000 := by
  rw [colI_apply]
  by_cases h : e.val < 600000
  · rw [dif_pos h]; exact hraw ⟨e.val, h⟩
  · rw [dif_neg h, toInt_ofNat_small _ (by have := e.isLt; omega)]
    have := e.isLt
    omega

/-- Narrowing the table's format changes no value. -/
theorem tableI_apply (a2 : FVec Ideal S50000x64 .f32) (j : S50000x64.Idx) : tableI (F := Ideal) a2 j = a2 j := rfl

/-- The bias laid out as one row reads, at column `d` of that row, entry `d`. -/
theorem biasI_apply (a3 : FVec Ideal S64 .f32) (d : Fin 64) : biasI (F := Ideal) a3 (ix2 0 d) = a3 (ix1 d) := by
  unfold biasI
  exact shapeCast_a_1a_apply a3 _ 0 d

end Cert.KernelIdeal.HostRead

end
-- ==== Proof.Bridge.lean ====
/-
  The padded one-hot form of the layer equals the plain edge-list form.

  Three facts join the two sides.
    * A sum over all table rows against the indicator "the word is row r" keeps exactly one term, the row the
      word names, as soon as the word's value lies below the number of rows.
    * A word whose signed reading is non-negative has the same signed and unsigned value; clamping a value that
      already lies below n into [0, n - 1] changes nothing.
    * A sum over the padded edge range splits into the true edges and the pad; every pad term carries the
      weight 0, and in the extended reals x * 0 = 0 for every x, the infinities included.
-/
import proofs.«158019_j83202106458211_1_alg».proof.Proof.Spec
import Mathlib.Algebra.BigOperators.Fin

noncomputable section

namespace Cert.Gcn

open Idealize.ShloMosaic Idealize.ShloMosaic.ValueIdx

/-- Among the words `0, 1, …, n - 1` (with `n ≤ 2 ^ 32`) only `w.toNat` is the word `w`: the indicator sum
    keeps that single term. -/
theorem sum_hot_ofNat {n : ℕ} (hn32 : n ≤ 4294967296) (w : BitVec 32) (hw : w.toNat < n) (f : Fin n → EReal) :
    ∑ r : Fin n, hot w (BitVec.ofNat 32 r.val) * f r = f ⟨w.toNat, hw⟩ := by
  rw [Finset.sum_eq_single (⟨w.toNat, hw⟩ : Fin n)]
  · have h : BitVec.ofNat 32 w.toNat = w := by
      apply BitVec.eq_of_toNat_eq
      rw [BitVec.toNat_ofNat]
      exact Nat.mod_eq_of_lt w.isLt
    show hot w (BitVec.ofNat 32 w.toNat) * f ⟨w.toNat, hw⟩ = f ⟨w.toNat, hw⟩
    rw [h, hot_self, one_mul]
  · intro r _ hr
    have hne : w ≠ BitVec.ofNat 32 r.val := by
      intro h
      apply hr
      apply Fin.ext
      have h2 : w.toNat = r.val % 2 ^ 32 := by
        have := congrArg BitVec.toNat h
        rwa [BitVec.toNat_ofNat] at this
      have h3 : r.val % 2 ^ 32 = r.val := Nat.mod_eq_of_lt (by have := r.isLt; omega)
      show r.val = w.toNat
      omega
    rw [hot_of_ne hne, zero_mul]
  · intro h
    exact absurd (Finset.mem_univ _) h

/-- A word read signed as a value in `[0, n)` names the node of its unsigned value. -/
theorem nodeOf_of_range {n : ℕ} (hn : 0 < n) (w : BitVec 32) (h0 : 0 ≤ w.toInt) (h1 : w.toInt < n) :
    ∃ hw : w.toNat < n, nodeOf n hn w = ⟨w.toNat, hw⟩ := by
  have hcond := BitVec.toInt_eq_toNat_cond w
  have hlt := w.isLt
  have hti : w.toInt = (w.toNat : ℤ) := by
    rw [hcond] at h0 ⊢
    split
    · rfl
    · rename_i hge
      rw [if_neg hge] at h0
      omega
  have hw : w.toNat < n := by omega
  refine ⟨hw, ?_⟩
  apply Fin.ext
  show min w.toInt.toNat (n - 1) = w.toNat
  rw [hti, Int.toNat_natCast]
  omega

/-- A sum over `Mp` entries whose entries from `M` on are zero is the sum over the first `M`. -/
theorem sum_pad {M Mp : ℕ} (hM : M ≤ Mp) (f : Fin M → EReal) (g : Fin Mp → EReal)
    (hg : ∀ e : Fin Mp, g e = if h : e.val < M then f ⟨e.val, h⟩ else 0) :
    ∑ e : Fin Mp, g e = ∑ e : Fin M, f e := by
  obtain ⟨k, rfl⟩ := Nat.exists_eq_add_of_le hM
  rw [Fin.sum_univ_add]
  have h1 : ∀ e : Fin M, g (Fin.castAdd k e) = f e := by
    intro e
    rw [hg (Fin.castAdd k e), dif_pos (show (Fin.castAdd k e).val < M from e.isLt)]
    rfl
  have h2 : ∀ e : Fin k, g (Fin.natAdd M e) = 0 := by
    intro e
    rw [hg (Fin.natAdd M e), dif_neg (show ¬ (Fin.natAdd M e).val < M by simp [Fin.natAdd])]
  rw [Finset.sum_congr rfl (fun e _ => h1 e), Finset.sum_congr rfl (fun e _ => h2 e),
    Finset.sum_const_zero, add_zero]

/-- The padded one-hot layer is the edge-list layer. -/
theorem agg_eq_layer {M Mp n : ℕ} (hn : 0 < n) (hn31 : n ≤ 2147483647) (hM : M ≤ Mp)
    (row col : IVec ⟨1, ![M]⟩ 32) (norm : FVec Ideal ⟨1, ![M]⟩ .f32) (rowp colp : IVec ⟨1, ![Mp]⟩ 32)
    (normp : FVec Ideal ⟨1, ![Mp]⟩ .f32)
    (Wb : FVec Ideal ⟨2, ![n, 64]⟩ .bf16) (W : FVec Ideal ⟨2, ![n, 64]⟩ .f32) (b2 : FVec Ideal ⟨2, ![1, 64]⟩ .f32)
    (b : FVec Ideal ⟨1, ![64]⟩ .f32)
    (hrow : ∀ e : Fin Mp, rowp (ix1 e) = if h : e.val < M then row (ix1 ⟨e.val, h⟩) else 0#32)
    (hcolp : ∀ e : Fin Mp, colp (ix1 e) = if h : e.val < M then col (ix1 ⟨e.val, h⟩) else 0#32)
    (hnorm : ∀ e : Fin Mp, normp (ix1 e) = if h : e.val < M then norm (ix1 ⟨e.val, h⟩) else (0 : EReal))
    (hW : ∀ j, Wb j = W j) (hb : ∀ d : Fin 64, b2 (ix2 0 d) = b (ix1 d))
    (hcol : ∀ e : Fin M, 0 ≤ (col (ix1 e)).toInt ∧ (col (ix1 e)).toInt < n) :
    aggOf rowp (msgsOf colp normp Wb) b2 = layerOf hn row col norm W b := by
  funext j
  obtain ⟨i, d, rfl⟩ : ∃ (i : Fin n) (d : Fin 64), j = ix2 i d := ⟨j 0, j 1, eq_ix2 j⟩
  show max ((∑ e : Fin Mp, hot (BitVec.ofNat 32 i.val) (rowp (ix1 e))
        * ((∑ r : Fin n, hot (colp (ix1 e)) (BitVec.ofNat 32 r.val) * Wb (ix2 r d)) * normp (ix1 e)))
        + b2 (ix2 0 d)) 0
      = max ((∑ e : Fin M, hot (BitVec.ofNat 32 i.val) (row (ix1 e))
        * (W (ix2 (nodeOf n hn (col (ix1 e))) d) * norm (ix1 e))) + b (ix1 d)) 0
  rw [hb d]
  congr 2
  refine sum_pad hM _ _ ?_
  intro e
  by_cases h : e.val < M
  · -- a true edge: the indicator sum over the table rows keeps the row the word names
    obtain ⟨hw, hnode⟩ := nodeOf_of_range hn (col (ix1 ⟨e.val, h⟩)) (hcol ⟨e.val, h⟩).1 (hcol ⟨e.val, h⟩).2
    rw [dif_pos h, hrow e, hcolp e, hnorm e, dif_pos h, dif_pos h, dif_pos h, hnode,
      sum_hot_ofNat (by omega) (col (ix1 ⟨e.val, h⟩)) hw (fun r => Wb (ix2 r d)), hW]
  · -- a pad entry: its weight is 0
    rw [dif_neg h, hnorm e, dif_neg h, mul_zero, mul_zero]

end Cert.Gcn

end
-- ==== Proof.LayerValue.lean ====
/-
  The two layers the kernel's program leaves in its result buffers, as functions of the argument arrays.

  For each layer the output array of the scatter region is `aggOf` of what the region finds (the padded targets, the
  message array, the bias row), the message array is `msgsOf` of what the gather region finds (the padded sources
  and weights, the narrowed table), and those are the host operations' terms of the arguments. With every source
  word naming a node, the padded sums against indicators are the reference's spelling `layerOf` over the true
  entries: a padded entry carries weight zero and adds nothing, and the sum of a table column against the indicator
  of a source word is that column's entry at the word.
-/
import proofs.«158019_j83202106458211_1_alg».proof.Proof.ScatterArr1
import proofs.«158019_j83202106458211_1_alg».proof.Proof.GatherArr0
import proofs.«158019_j83202106458211_1_alg».proof.Proof.ScatterArr3
import proofs.«158019_j83202106458211_1_alg».proof.Proof.GatherArr2
import proofs.«158019_j83202106458211_1_alg».proof.Proof.HostRead
import proofs.«158019_j83202106458211_1_alg».proof.Proof.Bridge

noncomputable section

namespace Cert.KernelIdeal.LayerValue

open Idealize.ShloMosaic Idealize.ShloMosaic.TcCoe Idealize.SL.Sem Idealize.ShloMosaic.ValueIdx
open Cert.KernelIdeal Cert.KernelIdeal.HostTerms Cert.KernelIdeal.HostRead Cert.Gcn

variable (m : (ℓ : Loc nD τ sig) → Buf (Elt Ideal) ℓ) (ρ : Dev nD → PrngReg)

/-- The users' layer: what the second region leaves in its output array is the layer of the users' arguments. -/
theorem user_layer (c : Dev nD)
    (hraw : ∀ e : Fin 1200000, 0 ≤ (colRawU (m ((c.tc : Thread nD τ).loc main_arg0)) (ix1 e)).toInt
      ∧ (colRawU (m ((c.tc : Thread nD τ).loc main_arg0)) (ix1 e)).toInt < 100000) :
    ((Gen.dat1 (F := Ideal) (Gen.V11 m ρ) c).arrAt 3 cfg1.N : Vec Ideal S100000x64 .f32)
      = layerOf (by decide : 0 < 100000) (rowU (m ((c.tc : Thread nD τ).loc main_arg0)))
          (colU (m ((c.tc : Thread nD τ).loc main_arg0))) (normU (F := Ideal) (m ((c.tc : Thread nD τ).loc main_arg0)))
          (m ((c.tc : Thread nD τ).loc main_arg2)) (m ((c.tc : Thread nD τ).loc main_arg3)) := by
  rw [ScatterArr1.agg_arr1 (Gen.V11 m ρ) c, V11_row, V11_msgs, V11_bias, GatherArr0.msgs_arr0 (Gen.V9 m ρ) c,
    V9_col, V9_norm, V9_table]
  exact agg_eq_layer (by decide) (by decide) (by decide) _ _ _ _ _ _ _ _ _ _
    (rowpU_apply _) (colpU_apply _) (normpU_apply _) (tableU_apply _) (biasU_apply _) (colU_in_range _ hraw)

/-- The items' layer: what the fourth region leaves in its output array is the layer of the items' arguments. -/
theorem item_layer (c : Dev nD)
    (hraw : ∀ e : Fin 600000, 0 ≤ (colRawI (m ((c.tc : Thread nD τ).loc main_arg1)) (ix1 e)).toInt
      ∧ (colRawI (m ((c.tc : Thread nD τ).loc main_arg1)) (ix1 e)).toInt < 50000) :
    ((Gen.dat3 (F := Ideal) (Gen.V23 m ρ) c).arrAt 3 cfg3.N : Vec Ideal S50000x64 .f32)
      = layerOf (by decide : 0 < 50000) (rowI (m ((c.tc : Thread nD τ).loc main_arg1)))
          (colI (m ((c.tc : Thread nD τ).loc main_arg1))) (normI (F := Ideal) (m ((c.tc : Thread nD τ).loc main_arg1)))
          (m ((c.tc : Thread nD τ).loc main_arg4)) (m ((c.tc : Thread nD τ).loc main_arg5)) := by
  rw [ScatterArr3.agg_arr3 (Gen.V23 m ρ) c, V23_row, V23_msgs, V23_bias, GatherArr2.msgs_arr2 (Gen.V21 m ρ) c,
    V21_col, V21_norm, V21_table]
  exact agg_eq_layer (by decide) (by decide) (by decide) _ _ _ _ _ _ _ _ _ _
    (rowpI_apply _) (colpI_apply _) (normpI_apply _) (tableI_apply _) (biasI_apply _) (colI_in_range _ hraw)

end Cert.KernelIdeal.LayerValue

end
-- ==== Proof.PreDecode.lean ====
/-
  The precondition's range conjuncts, read back. The printed predicate is a conjunction (a chain of one-bit `and`s)
  of twelve `all`-reductions; the last eight say that every entry of the second row of each edge array, read as a
  signed word, is at least 0 and below the node count. If the predicate is all ones, each conjunct is 1 (a one-bit
  `and` is 1 only if both sides are), an `all`-reduction that is 1 had a 1 at every entry, and a signed compare word
  that is 1 is the inequality between the signed readings.
-/
import proofs.«158019_j83202106458211_1_alg».proof.Pre_finite_inputs
import proofs.«158019_j83202106458211_1_alg».proof.Proof.Gen.Pre_finite_inputs
import Idealize.ShloMosaic.Lib.ReduceAll
import Idealize.ShloMosaic.Lib.ValueIdx

noncomputable section

namespace Cert.KernelIdeal.PreDecode

open Idealize.ShloMosaic Idealize.ShloMosaic.ValueIdx Cert.Pre_finite_inputs

/-- The scalar shape has exactly one index. -/
instance subsingleton_scalarIdx : Subsingleton S_.Idx := ⟨fun a b => funext fun d => d.elim0⟩

section Decode

variable {s : Shape} {axes : List (Fin s.rank)}

/-- A one-bit `and` of two scalars is 1 at the one index only if both are. -/
theorem andi_ix0 (A B : IVec S_ 1) (h : andi A B ix0 = 1#1) : A ix0 = 1#1 ∧ B ix0 = 1#1 :=
  IntOp.andi_eq_one.1 h

/-- If the `all` of the signed tests "x i ≥ c" (c a broadcast scalar constant) is 1, every entry passes the test. -/
theorem all_sge (x : IVec s 32) (c : BitVec 32) (hb : S_.BroadcastsInDim s (![] : Fin 0 → Fin s.rank))
    (hr : s.ReducesTo axes S_) (h0 : 0 < S_.numel) (init : IVec S_ 1)
    (e : Host.reduce IntOp.andi (cmpi .sge x (broadcastInDim s ![] hb (constantI S_ 32 c))) init hr h0 ix0 = 1#1)
    (i : s.Idx) : c.toInt ≤ (x i).toInt :=
  IntOp.cmpi_sge.1 (Host.reduce_andi_all _ init hr h0 ix0 e i)

/-- If the `all` of the signed tests "x i < c" is 1, every entry passes the test. -/
theorem all_slt (x : IVec s 32) (c : BitVec 32) (hb : S_.BroadcastsInDim s (![] : Fin 0 → Fin s.rank))
    (hr : s.ReducesTo axes S_) (h0 : 0 < S_.numel) (init : IVec S_ 1)
    (e : Host.reduce IntOp.andi (cmpi .slt x (broadcastInDim s ![] hb (constantI S_ 32 c))) init hr h0 ix0 = 1#1)
    (i : s.Idx) : (x i).toInt < c.toInt :=
  IntOp.cmpi_slt.1 (Host.reduce_andi_all _ init hr h0 ix0 e i)

end Decode

variable [Facts]
open Facts

/-- The second row of the first edge array as a vector: the slice [1:2, :] reshaped to rank 1. -/
def colRaw0 (a0 : IVec S2x1200000 32) : IVec S1200000 32 :=
  shapeCast S1200000 (extractStridedSlice S1x1200000 ![1, 0] a0 slices_S2x1200000_S1x1200000_1_0) shapeCasts_S1x1200000_S1200000

/-- The second row of the second edge array as a vector. -/
def colRaw1 (a1 : IVec S2x600000 32) : IVec S600000 32 :=
  shapeCast S600000 (extractStridedSlice S1x600000 ![1, 0] a1 slices_S2x600000_S1x600000_1_0) shapeCasts_S1x600000_S600000

/-- The precondition decoded: every second-row entry, read signed, names a node. -/
theorem col_in_range (a0 : IVec S2x1200000 32) (a1 : IVec S2x600000 32)
    (a2 : FVec Ideal S100000x64 .f32) (a3 : FVec Ideal S64 .f32) (a4 : FVec Ideal S50000x64 .f32) (a5 : FVec Ideal S64 .f32)
    (h : fn (F := Ideal) a0 a1 a2 a3 a4 a5 = fun _ => 1#1) :
    (∀ e : Fin 1200000, 0 ≤ (colRaw0 a0 (ix1 e)).toInt ∧ (colRaw0 a0 (ix1 e)).toInt < 100000)
    ∧ (∀ e : Fin 600000, 0 ≤ (colRaw1 a1 (ix1 e)).toInt ∧ (colRaw1 a1 (ix1 e)).toInt < 50000) := by
  have e := congrFun h ix0
  dsimp only [fn, fn_part1, fn_part2] at e
  -- the chain of `and`s, peeled from the outside: the items' upper and lower tests, then the users'
  obtain ⟨e, hI_lt⟩ := andi_ix0 _ _ e
  obtain ⟨e, hI_ge⟩ := andi_ix0 _ _ e
  obtain ⟨e, hU_lt⟩ := andi_ix0 _ _ e
  obtain ⟨-, hU_ge⟩ := andi_ix0 _ _ e
  refine ⟨fun k => ⟨?_, ?_⟩, fun k => ⟨?_, ?_⟩⟩
  · exact all_sge (colRaw0 a0) 0#32 _ _ _ _ hU_ge (ix1 k)
  · exact all_slt (colRaw0 a0) 100000#32 _ _ _ _ hU_lt (ix1 k)
  · exact all_sge (colRaw1 a1) 0#32 _ _ _ _ hI_ge (ix1 k)
  · exact all_slt (colRaw1 a1) 50000#32 _ _ _ _ hI_lt (ix1 k)

end Cert.KernelIdeal.PreDecode

end
-- ==== Proof.RefSide.lean ====
/-
  The reference's side of the claim: what its host operations compute, read index by index.

  Each layer of the reference ends the same way. A negative source word is wrapped by the node count; the table's
  rows are gathered at the source words (the start word read signed and clamped into the table); each gathered row is
  scaled by its edge weight; the scaled rows are added up, onto zeros, at the target words (read signed, a row landing
  outside dropped); the bias is added and the result clipped at zero. When no source word is negative this is the
  layer of `Cert.Gcn.layerOf`: the sum over the update elements that land on a node is the sum over all edges against
  the indicator of the target word being that node.

  The lemmas on the gather, the scatter, the broadcasts and the words are stated over any sizes; the two layers
  instantiate them.
-/
import proofs.«158019_j83202106458211_1_alg».proof.Proof.RefRun
import proofs.«158019_j83202106458211_1_alg».proof.Proof.Spec
import Idealize.ShloMosaic.PureOps.Ideal.Laws
import Idealize.ShloMosaic.Lib.ValueIdx
import Idealize.ShloMosaic.Lib.Pipeline.Value

noncomputable section

namespace Cert.ReferenceIdeal.RefValue

open Idealize.ShloMosaic Idealize.ShloMosaic.TcCoe Idealize.SL.Sem Idealize.ShloMosaic.ValueIdx
open Cert.ReferenceIdeal Cert.ReferenceIdeal.Gen Cert.Gcn

/-! ## The row gather and the row scatter read at an index -/

/-- Dimension numbers of a gather of whole rows: a table `[N, 64]`, one start word per result row (`[M, 1]`), result `[M, 64]`. -/
abbrev rowsGather (N M : Nat)
    (wf : GatherDims.WF ⟨2, ![N, 64]⟩ ⟨2, ![M, 1]⟩ ⟨2, ![M, 64]⟩ [1] [0] [] [0] [] 1 ![1, 64]) :
    GatherDims ⟨2, ![N, 64]⟩ ⟨2, ![M, 1]⟩ ⟨2, ![M, 64]⟩ where
  offsetDims := [1]
  collapsedSliceDims := [0]
  operandBatchingDims := []
  startIndicesBatchingDims := []
  startIndexMap := [0]
  indexVectorDim := 1
  sliceSizes := ![1, 64]
  wf := wf

section
variable {N M w : Nat}
  (wf : GatherDims.WF ⟨2, ![N, 64]⟩ ⟨2, ![M, 1]⟩ ⟨2, ![M, 64]⟩ [1] [0] [] [0] [] 1 ![1, 64])
  (idx : IVec ⟨2, ![M, 1]⟩ w) (e : Fin M) (d : Fin 64)

theorem rowsGather_idx0 :
    ((rowsGather N M wf).operandIdx (ix2 e d) idx 0).val = min (idx (ix2 e 0)).toInt.toNat (N - 1) := by
  show (rowsGather N M wf).start (ix2 e d) idx 0 + (rowsGather N M wf).batchCoord (ix2 e d) 0
    + (rowsGather N M wf).offCoord (ix2 e d) 0 = _
  rw [GatherDims.batchCoord_eq_zero _ _ _ List.not_mem_nil,
    GatherDims.offCoord_eq_zero _ _ _ (fun h => ((GatherDims.mem_sKept _ _).mp h).1 (List.mem_singleton.mpr rfl))]
  simp only [Nat.add_zero]
  unfold GatherDims.start
  rw [dif_pos (show (0 : Fin 2) ∈ (rowsGather N M wf).startIndexMap from List.mem_singleton.mpr rfl)]
  have hsi : (rowsGather N M wf).siIdx (ix2 e d) ⟨List.idxOf (0 : Fin 2) (rowsGather N M wf).startIndexMap,
      List.idxOf_lt_length_iff.2 (List.mem_singleton.mpr rfl)⟩ = ix2 e 0 := by
    funext b; refine Fin.ext ?_
    match b with
    | ⟨0, _⟩ => rfl
    | ⟨1, _⟩ => rfl
  rw [hsi]
  rfl

theorem rowsGather_idx1 :
    ((rowsGather N M wf).operandIdx (ix2 e d) idx 1).val = d.val := by
  show (rowsGather N M wf).start (ix2 e d) idx 1 + (rowsGather N M wf).batchCoord (ix2 e d) 1
    + (rowsGather N M wf).offCoord (ix2 e d) 1 = _
  rw [GatherDims.batchCoord_eq_zero _ _ _ List.not_mem_nil]
  have hs : (rowsGather N M wf).start (ix2 e d) idx 1 = 0 := by
    unfold GatherDims.start
    rw [dif_neg (show (1 : Fin 2) ∉ ([0] : List (Fin 2)) by decide)]
  rw [hs]
  simp only [Nat.add_zero, Nat.zero_add]
  unfold GatherDims.offCoord
  have hk : (1 : Fin 2) ∈ (rowsGather N M wf).sKept :=
    (GatherDims.mem_sKept _ _).mpr ⟨show (1 : Fin 2) ∉ ([0] : List (Fin 2)) by decide, List.not_mem_nil⟩
  rw [dif_pos hk]
  rfl

end

theorem gather_rows_apply {α : Type} {N M w : Nat} (hN : 0 < N)
    (wf : GatherDims.WF ⟨2, ![N, 64]⟩ ⟨2, ![M, 1]⟩ ⟨2, ![M, 64]⟩ [1] [0] [] [0] [] 1 ![1, 64])
    (x : (⟨2, ![N, 64]⟩ : Shape).Idx → α) (idx : IVec ⟨2, ![M, 1]⟩ w) (e : Fin M) (d : Fin 64) :
    Host.gather (rowsGather N M wf) x idx (ix2 e d)
      = x (ix2 ⟨min (idx (ix2 e 0)).toInt.toNat (N - 1), by omega⟩ d) := by
  unfold Host.gather
  congr 1
  funext a
  refine Fin.ext ?_
  match a with
  | ⟨0, _⟩ => exact rowsGather_idx0 wf idx e d
  | ⟨1, _⟩ => exact rowsGather_idx1 wf idx e d

/-- The same with the start word named, so that a known word can be put in its place. -/
theorem gather_rows_apply_of {α : Type} {N M w : Nat} (hN : 0 < N)
    (wf : GatherDims.WF ⟨2, ![N, 64]⟩ ⟨2, ![M, 1]⟩ ⟨2, ![M, 64]⟩ [1] [0] [] [0] [] 1 ![1, 64])
    (x : (⟨2, ![N, 64]⟩ : Shape).Idx → α) (idx : IVec ⟨2, ![M, 1]⟩ w) (e : Fin M) (d : Fin 64)
    (c : BitVec w) (hc : idx (ix2 e 0) = c) :
    Host.gather (rowsGather N M wf) x idx (ix2 e d)
      = x (ix2 ⟨min c.toInt.toNat (N - 1), by omega⟩ d) := by
  subst hc
  exact gather_rows_apply hN wf x idx e d

/-- Dimension numbers of a scatter of whole rows: updates `[M, 64]`, one start word per update row (`[M, 1]`), operand `[N, 64]`. -/
abbrev rowsScatter (N M : Nat)
    (wf : ScatterDims.WF ⟨2, ![N, 64]⟩ ⟨2, ![M, 1]⟩ ⟨2, ![M, 64]⟩ [1] [0] [0] 1) :
    ScatterDims ⟨2, ![N, 64]⟩ ⟨2, ![M, 1]⟩ ⟨2, ![M, 64]⟩ where
  updateWindowDims := [1]
  insertedWindowDims := [0]
  scatterDimsToOperandDims := [0]
  indexVectorDim := 1
  wf := wf

section
variable {N M w : Nat}
  (wf : ScatterDims.WF ⟨2, ![N, 64]⟩ ⟨2, ![M, 1]⟩ ⟨2, ![M, 64]⟩ [1] [0] [0] 1)
  (idx : IVec ⟨2, ![M, 1]⟩ w) (e : Fin M) (d : Fin 64)

theorem rowsScatter_start0 : (rowsScatter N M wf).start (ix2 e d) idx 0 = (idx (ix2 e 0)).toInt := by
  unfold ScatterDims.start
  rw [dif_pos (show (0 : Fin 2) ∈ (rowsScatter N M wf).scatterDimsToOperandDims from List.mem_singleton.mpr rfl)]
  have hsi : (rowsScatter N M wf).siIdx (ix2 e d) ⟨List.idxOf (0 : Fin 2) (rowsScatter N M wf).scatterDimsToOperandDims,
      List.idxOf_lt_length_iff.2 (List.mem_singleton.mpr rfl)⟩ = ix2 e 0 := by
    funext b; refine Fin.ext ?_
    match b with
    | ⟨0, _⟩ => rfl
    | ⟨1, _⟩ => rfl
  rw [hsi]

theorem rowsScatter_start1 : (rowsScatter N M wf).start (ix2 e d) idx 1 = 0 := by
  unfold ScatterDims.start
  rw [dif_neg (show (1 : Fin 2) ∉ ([0] : List (Fin 2)) by decide)]

theorem rowsScatter_window0 : (rowsScatter N M wf).window (ix2 e d) 0 = 0 := by
  unfold ScatterDims.window
  have hk : (0 : Fin 2) ∉ (rowsScatter N M wf).sKept := by
    show (0 : Fin 2) ∉ (List.finRange 2).filter (· ∉ ([0] : List (Fin 2)))
    decide
  rw [dif_neg hk]

theorem rowsScatter_window1 : (rowsScatter N M wf).window (ix2 e d) 1 = d.val := by
  unfold ScatterDims.window
  have hk : (1 : Fin 2) ∈ (rowsScatter N M wf).sKept := by
    show (1 : Fin 2) ∈ (List.finRange 2).filter (· ∉ ([0] : List (Fin 2)))
    decide
  rw [dif_pos hk]
  rfl

/-- Update element `(e, d)` lands on operand element `i` exactly when the start word of row `e`, read signed, is `i`'s
    row and `d` is `i`'s column. -/
theorem rowsScatter_resultIdx (i : (⟨2, ![N, 64]⟩ : Shape).Idx) :
    (rowsScatter N M wf).resultIdx? (ix2 e d) idx = some i
      ↔ (idx (ix2 e 0)).toInt = ((i 0).val : Int) ∧ d = i 1 := by
  have hi0 : (i 0).val < N := (i 0).isLt
  have hd : d.val < 64 := d.isLt
  unfold ScatterDims.resultIdx?
  split
  · rename_i h
    constructor
    · intro hsome
      have hfun := Option.some.inj hsome
      have h0 := congrArg (fun f => (f 0).val) hfun
      have h1 := congrArg (fun f => (f 1).val) hfun
      simp only [rowsScatter_start0, rowsScatter_start1, rowsScatter_window0, rowsScatter_window1] at h0 h1
      have hh := (h 0).1
      rw [rowsScatter_start0, rowsScatter_window0] at hh
      refine ⟨by omega, Fin.ext (by omega)⟩
    · rintro ⟨h0, h1⟩
      congr 1
      funext a
      refine Fin.ext ?_
      match a with
      | ⟨0, _⟩ =>
        show ((rowsScatter N M wf).start (ix2 e d) idx 0 + ((rowsScatter N M wf).window (ix2 e d) 0 : Int)).toNat = (i 0).val
        rw [rowsScatter_start0, rowsScatter_window0, h0]; omega
      | ⟨1, _⟩ =>
        show ((rowsScatter N M wf).start (ix2 e d) idx 1 + ((rowsScatter N M wf).window (ix2 e d) 1 : Int)).toNat = (i 1).val
        rw [rowsScatter_start1, rowsScatter_window1, h1]; omega
  · rename_i h
    constructor
    · intro hsome; exact absurd hsome (by simp)
    · rintro ⟨h0, h1⟩
      exfalso; apply h
      intro a
      match a with
      | ⟨0, _⟩ =>
        show 0 ≤ (rowsScatter N M wf).start (ix2 e d) idx 0 + ((rowsScatter N M wf).window (ix2 e d) 0 : Int)
          ∧ (rowsScatter N M wf).start (ix2 e d) idx 0 + ((rowsScatter N M wf).window (ix2 e d) 0 : Int) < (N : Int)
        rw [rowsScatter_start0, rowsScatter_window0, h0]; omega
      | ⟨1, _⟩ =>
        show 0 ≤ (rowsScatter N M wf).start (ix2 e d) idx 1 + ((rowsScatter N M wf).window (ix2 e d) 1 : Int)
          ∧ (rowsScatter N M wf).start (ix2 e d) idx 1 + ((rowsScatter N M wf).window (ix2 e d) 1 : Int) < (64 : Int)
        rw [rowsScatter_start1, rowsScatter_window1]; omega

/-- The same, the operand element given by its coordinates. -/
theorem rowsScatter_resultIdx_ix2 (i0 : Fin N) (i1 : Fin 64) :
    (rowsScatter N M wf).resultIdx? (ix2 e d) idx = some (ix2 i0 i1)
      ↔ (idx (ix2 e 0)).toInt = (i0.val : Int) ∧ d = i1 :=
  rowsScatter_resultIdx wf idx e d (ix2 i0 i1)

end

/-! ## Broadcasts read at an index -/

section Bcast
variable {α : Type}

/-- A scalar broadcast reads the scalar everywhere. -/
theorem bcast_scalar_apply {t : Shape} (h : (⟨0, ![]⟩ : Shape).BroadcastsInDim t (![] : Fin 0 → Fin t.rank))
    (v : (⟨0, ![]⟩ : Shape).Idx → α) (j : t.Idx) : broadcastInDim t ![] h v j = v ix0 :=
  congrArg v (funext fun a => a.elim0)

/-- A vector `[M]` stood up as a column `[M, 1]`. -/
theorem bcast_col_apply {M : Nat} (h : (⟨1, ![M]⟩ : Shape).BroadcastsInDim ⟨2, ![M, 1]⟩ ![0])
    (v : (⟨1, ![M]⟩ : Shape).Idx → α) (e : Fin M) (z : Fin 1) :
    broadcastInDim ⟨2, ![M, 1]⟩ ![0] h v (ix2 e z) = v (ix1 e) := by
  refine broadcastInDim_apply _ h v _ (ix1 e) (fun a => ?_)
  match a with
  | ⟨0, _⟩ =>
    show e.val = if M = 1 then 0 else e.val
    split
    · omega
    · rfl

/-- A column `[M, 1]` repeated along 64 features. -/
theorem bcast_feat_apply {M : Nat} (h : (⟨2, ![M, 1]⟩ : Shape).BroadcastsInDim ⟨2, ![M, 64]⟩ ![0, 1])
    (v : (⟨2, ![M, 1]⟩ : Shape).Idx → α) (e : Fin M) (d : Fin 64) :
    broadcastInDim ⟨2, ![M, 64]⟩ ![0, 1] h v (ix2 e d) = v (ix2 e 0) := by
  refine broadcastInDim_apply _ h v _ (ix2 e 0) (fun a => ?_)
  match a with
  | ⟨0, _⟩ =>
    show e.val = if M = 1 then 0 else e.val
    split
    · omega
    · rfl
  | ⟨1, _⟩ => rfl

/-- A vector `[64]` laid as a row `[1, 64]`. -/
theorem bcast_row_apply (h : (⟨1, ![64]⟩ : Shape).BroadcastsInDim ⟨2, ![1, 64]⟩ ![1])
    (v : (⟨1, ![64]⟩ : Shape).Idx → α) (z : Fin 1) (d : Fin 64) :
    broadcastInDim ⟨2, ![1, 64]⟩ ![1] h v (ix2 z d) = v (ix1 d) := by
  refine broadcastInDim_apply _ h v _ (ix1 d) (fun a => ?_)
  match a with
  | ⟨0, _⟩ => rfl

/-- A row `[1, 64]` repeated down `N` rows. -/
theorem bcast_rows_apply {N : Nat} (h : (⟨2, ![1, 64]⟩ : Shape).BroadcastsInDim ⟨2, ![N, 64]⟩ ![0, 1])
    (v : (⟨2, ![1, 64]⟩ : Shape).Idx → α) (i : Fin N) (d : Fin 64) :
    broadcastInDim ⟨2, ![N, 64]⟩ ![0, 1] h v (ix2 i d) = v (ix2 0 d) := by
  refine broadcastInDim_apply _ h v _ (ix2 0 d) (fun a => ?_)
  match a with
  | ⟨0, _⟩ => rfl
  | ⟨1, _⟩ => rfl

end Bcast

/-! ## Words -/

/-- A word that reads non-negative is not below zero, so the wrap of a negative index leaves it alone. -/
theorem wrap_of_nonneg (x K : BitVec 32) (hx : 0 ≤ x.toInt) :
    Scalar.select (IntOp.cmpi .slt x 0#32) (IntOp.addi x K) x = x := by
  have h : IntOp.cmpi .slt x 0#32 = 0#1 := by
    show BitVec.ofBool (x.slt 0#32) = 0#1
    have : x.slt 0#32 = false := by
      rw [BitVec.slt_eq_decide]
      simpa using hx
    rw [this]; rfl
  rw [h]; exact select_zero _ _

/-- A word reads signed as the small natural `i` exactly when it is the word of `i`. -/
theorem toInt_eq_iff (r : BitVec 32) (i : Nat) (hi : i < 2147483648) :
    r.toInt = (i : Int) ↔ BitVec.ofNat 32 i = r := by
  constructor
  · intro h
    have := BitVec.ofInt_toInt (x := r)
    rw [h] at this
    rw [← this]; simp
  · rintro rfl
    rw [BitVec.toInt_eq_toNat_cond, BitVec.toNat_ofNat]
    have : i % 2 ^ 32 = i := Nat.mod_eq_of_lt (by omega)
    rw [this]
    split <;> omega

/-! ## The layer's last operations, over any sizes -/

section Core
variable {N M : Nat}
  (hb0 : (⟨0, ![]⟩ : Shape).BroadcastsInDim ⟨1, ![M]⟩ (![] : Fin 0 → Fin 1))
  (hb1 : (⟨1, ![M]⟩ : Shape).BroadcastsInDim ⟨2, ![M, 1]⟩ ![0])
  (hb2 : (⟨2, ![M, 1]⟩ : Shape).BroadcastsInDim ⟨2, ![M, 64]⟩ ![0, 1])
  (hb3 : (⟨0, ![]⟩ : Shape).BroadcastsInDim ⟨2, ![N, 64]⟩ (![] : Fin 0 → Fin 2))
  (hb4 : (⟨1, ![64]⟩ : Shape).BroadcastsInDim ⟨2, ![1, 64]⟩ ![1])
  (hb5 : (⟨2, ![1, 64]⟩ : Shape).BroadcastsInDim ⟨2, ![N, 64]⟩ ![0, 1])
  (wfg : GatherDims.WF ⟨2, ![N, 64]⟩ ⟨2, ![M, 1]⟩ ⟨2, ![M, 64]⟩ [1] [0] [] [0] [] 1 ![1, 64])
  (wfs : ScatterDims.WF ⟨2, ![N, 64]⟩ ⟨2, ![M, 1]⟩ ⟨2, ![M, 64]⟩ [1] [0] [0] 1)
  (K : BitVec 32)

/-- Wrap a negative column word by `K`, gather the table's rows there, scale each by its edge weight, add the rows up at the
    row words onto zeros, add the bias, clip at zero. -/
def layerTerm (row col : IVec ⟨1, ![M]⟩ 32) (norm : FVec Ideal ⟨1, ![M]⟩ .f32)
    (W : FVec Ideal ⟨2, ![N, 64]⟩ .f32) (b : FVec Ideal ⟨1, ![64]⟩ .f32) : FVec Ideal ⟨2, ![N, 64]⟩ .f32 :=
  maximumf
    (addf
      (Host.scatterAdd (rowsScatter N M wfs)
        (broadcastInDim ⟨2, ![N, 64]⟩ ![] hb3 (constant (F := Ideal) ⟨0, ![]⟩ .f32 0x00000000#32))
        (broadcastInDim ⟨2, ![M, 1]⟩ ![0] hb1 row)
        (mulf
          (Host.gather (rowsGather N M wfg) W
            (broadcastInDim ⟨2, ![M, 1]⟩ ![0] hb1
              (select (cmpi .slt col (broadcastInDim ⟨1, ![M]⟩ ![] hb0 (constantI ⟨0, ![]⟩ 32 0#32)))
                (addi col (broadcastInDim ⟨1, ![M]⟩ ![] hb0 (constantI ⟨0, ![]⟩ 32 K))) col)))
          (broadcastInDim ⟨2, ![M, 64]⟩ ![0, 1] hb2 (broadcastInDim ⟨2, ![M, 1]⟩ ![0] hb1 norm))))
      (broadcastInDim ⟨2, ![N, 64]⟩ ![0, 1] hb5 (broadcastInDim ⟨2, ![1, 64]⟩ ![1] hb4 b)))
    (broadcastInDim ⟨2, ![N, 64]⟩ ![] hb3 (constant (F := Ideal) ⟨0, ![]⟩ .f32 0x00000000#32))

theorem layerTerm_eq (hN : 0 < N) (hN31 : N ≤ 2147483648)
    (row col : IVec ⟨1, ![M]⟩ 32) (norm : FVec Ideal ⟨1, ![M]⟩ .f32)
    (W : FVec Ideal ⟨2, ![N, 64]⟩ .f32) (b : FVec Ideal ⟨1, ![64]⟩ .f32)
    (hcol : ∀ e : Fin M, 0 ≤ (col (ix1 e)).toInt) :
    layerTerm hb0 hb1 hb2 hb3 hb4 hb5 wfg wfs K row col norm W b = layerOf hN row col norm W b := by
  funext j
  obtain ⟨i, d, rfl⟩ : ∃ (i : Fin N) (d : Fin 64), j = ix2 i d := ⟨j 0, j 1, eq_ix2 j⟩
  have hi : i.val < 2147483648 := lt_of_lt_of_le i.isLt hN31
  unfold layerTerm
  show _ = max ((∑ e : Fin M, hot (BitVec.ofNat 32 i.val) (row (ix1 e))
      * (W (ix2 (nodeOf N hN (col (ix1 e))) d) * norm (ix1 e))) + b (ix1 d)) 0
  rw [maximumf_apply, addf_apply, bcast_scalar_apply, constant_apply, Ideal.ofBits_zero_f32,
    bcast_rows_apply, bcast_row_apply]
  congr 2
  -- the scatter-add onto zeros is the sum of the updates that land on `(i, d)`
  show FloatOps.hostScatterAdd (rowsScatter N M wfs) .single _ _ _ (ix2 i d) = _
  rw [Ideal.hostScatterAdd_def]
  unfold Ideal.hostScatterAdd
  rw [bcast_scalar_apply, constant_apply, Ideal.ofBits_zero_f32, zero_add, Finset.sum_filter, sum_idx2]
  refine Finset.sum_congr rfl fun e _ => ?_
  simp only [rowsScatter_resultIdx_ix2]
  rw [bcast_col_apply]
  -- the wrapped column word is the column word, and the gathered row is the table's at its node
  have hw : select (cmpi .slt col (broadcastInDim ⟨1, ![M]⟩ ![] hb0 (constantI ⟨0, ![]⟩ 32 0#32)))
      (addi col (broadcastInDim ⟨1, ![M]⟩ ![] hb0 (constantI ⟨0, ![]⟩ 32 K))) col (ix1 e) = col (ix1 e) :=
    wrap_of_nonneg (col (ix1 e)) K (hcol e)
  have hupd : ∀ d' : Fin 64, mulf
      (Host.gather (rowsGather N M wfg) W
        (broadcastInDim ⟨2, ![M, 1]⟩ ![0] hb1
          (select (cmpi .slt col (broadcastInDim ⟨1, ![M]⟩ ![] hb0 (constantI ⟨0, ![]⟩ 32 0#32)))
            (addi col (broadcastInDim ⟨1, ![M]⟩ ![] hb0 (constantI ⟨0, ![]⟩ 32 K))) col)))
      (broadcastInDim ⟨2, ![M, 64]⟩ ![0, 1] hb2 (broadcastInDim ⟨2, ![M, 1]⟩ ![0] hb1 norm)) (ix2 e d')
      = W (ix2 (nodeOf N hN (col (ix1 e))) d') * norm (ix1 e) := by
    intro d'
    rw [mulf_apply, gather_rows_apply_of hN wfg W _ e d' (col (ix1 e)) (by rw [bcast_col_apply, hw]),
      bcast_feat_apply, bcast_col_apply]
    rfl
  simp only [hupd]
  by_cases hr : (row (ix1 e)).toInt = (i.val : Int)
  · have hh : BitVec.ofNat 32 i.val = row (ix1 e) := (toInt_eq_iff _ _ hi).mp hr
    simp only [hr, true_and, Finset.sum_ite_eq', Finset.mem_univ, if_true]
    rw [hh, hot, if_pos rfl, one_mul]
  · have hh : ¬ BitVec.ofNat 32 i.val = row (ix1 e) := fun h => hr ((toInt_eq_iff _ _ hi).mpr h)
    simp only [hr, false_and, if_false, Finset.sum_const_zero]
    rw [hot, if_neg hh, zero_mul]

end Core

/-! ## The reference's first operations, as functions of an edge array

The edge array has two rows of node words. The reference flattens each and appends the node numbers (a self loop per
node); counts, per node, the entries of the first list naming it; takes one over the root of that count (floored
at a tiny positive number first; zero where the count is not positive); and weighs each entry by the product of
that value at its two (wrapped) node words. -/

variable {F : FTy → Type} [FloatOps F]

/-- Row 0 of the users' edge array as a flat list. -/
def rowRawR (a : IVec S2x1200000 32) : IVec S1200000 32 :=
  shapeCast S1200000 (extractStridedSlice S1x1200000 ![0, 0] a slices_S2x1200000_S1x1200000_0_0) shapeCasts_S1x1200000_S1200000

/-- Row 1 of the users' edge array as a flat list. -/
def colRawR (a : IVec S2x1200000 32) : IVec S1200000 32 :=
  shapeCast S1200000 (extractStridedSlice S1x1200000 ![1, 0] a slices_S2x1200000_S1x1200000_1_0) shapeCasts_S1x1200000_S1200000

/-- The users' target words: row 0, then `0 … 99999`. -/
def rowR (a : IVec S2x1200000 32) : IVec S1300000 32 :=
  concatenate S1300000 0 [⟨S1200000, rowRawR a⟩, ⟨S100000, iotaInDim S100000 32 0⟩] concatenates_S1200000_S100000_S1300000_d0

/-- The users' source words: row 1, then `0 … 99999`. -/
def colR (a : IVec S2x1200000 32) : IVec S1300000 32 :=
  concatenate S1300000 0 [⟨S1200000, colRawR a⟩, ⟨S100000, iotaInDim S100000 32 0⟩] concatenates_S1200000_S100000_S1300000_d0

/-- How many target words name each user node: ones added up at the target words, onto zeros. -/
def degR (a : IVec S2x1200000 32) : FVec F S100000 .f32 :=
  Host.scatterAdd scatter_S100000_S1300000x1_S1300000_n_0_0_1
    (broadcastInDim S100000 ![] bcast_S_S100000 (constant (F := F) S_ .f32 0x00000000#32))
    (broadcastInDim S1300000x1 ![0] bcast_S1300000_S1300000x1_0 (rowR a))
    (broadcastInDim S1300000 ![] bcast_S_S1300000 (constant (F := F) S_ .f32 0x3F800000#32))

/-- One over the root of the count kept above its floor, and zero where the count is not positive. -/
def dinvR (a : IVec S2x1200000 32) : FVec F S100000 .f32 :=
  select
    (cmpf .ogt (degR (F := F) a) (broadcastInDim S100000 ![] bcast_S_S100000 (constant (F := F) S_ .f32 0x00000000#32)))
    (Host.rsqrt (maximumf (degR (F := F) a) (broadcastInDim S100000 ![] bcast_S_S100000 (constant (F := F) S_ .f32 0x2B8CBCCC#32))))
    (broadcastInDim S100000 ![] bcast_S_S100000 (id (constant (F := F) S_ .f32 0x00000000#32)))

/-- A user node word with the node count added where it reads negative. -/
def wrapR (x : IVec S1300000 32) : IVec S1300000 32 :=
  select (cmpi .slt x (broadcastInDim S1300000 ![] bcast_S_S1300000 (constantI S_ 32 0#32)))
    (addi x (broadcastInDim S1300000 ![] bcast_S_S1300000 (constantI S_ 32 100000#32))) x

/-- A per-node value read at each (wrapped) word of a list. -/
def lookR (t : FVec F S100000 .f32) (x : IVec S1300000 32) : FVec F S1300000 .f32 :=
  Host.gather gather_S100000_S1300000x1_S1300000_n_0_n_n_0_1_1 t
    (broadcastInDim S1300000x1 ![0] bcast_S1300000_S1300000x1_0 (wrapR x))

/-- The users' edge weights. -/
def normR (a : IVec S2x1200000 32) : FVec F S1300000 .f32 :=
  mulf (lookR (dinvR (F := F) a) (rowR a)) (lookR (dinvR (F := F) a) (colR a))

/-- Row 0 of the items' edge array as a flat list. -/
def rowRawR' (a : IVec S2x600000 32) : IVec S600000 32 :=
  shapeCast S600000 (extractStridedSlice S1x600000 ![0, 0] a slices_S2x600000_S1x600000_0_0) shapeCasts_S1x600000_S600000

/-- Row 1 of the items' edge array as a flat list. -/
def colRawR' (a : IVec S2x600000 32) : IVec S600000 32 :=
  shapeCast S600000 (extractStridedSlice S1x600000 ![1, 0] a slices_S2x600000_S1x600000_1_0) shapeCasts_S1x600000_S600000

/-- The items' target words: row 0, then `0 … 49999`. -/
def rowR' (a : IVec S2x600000 32) : IVec S650000 32 :=
  concatenate S650000 0 [⟨S600000, rowRawR' a⟩, ⟨S50000, iotaInDim S50000 32 0⟩] concatenates_S600000_S50000_S650000_d0

/-- The items' source words: row 1, then `0 … 49999`. -/
def colR' (a : IVec S2x600000 32) : IVec S650000 32 :=
  concatenate S650000 0 [⟨S600000, colRawR' a⟩, ⟨S50000, iotaInDim S50000 32 0⟩] concatenates_S600000_S50000_S650000_d0

/-- How many target words name each item node. -/
def degR' (a : IVec S2x600000 32) : FVec F S50000 .f32 :=
  Host.scatterAdd scatter_S50000_S650000x1_S650000_n_0_0_1
    (broadcastInDim S50000 ![] bcast_S_S50000 (constant (F := F) S_ .f32 0x00000000#32))
    (broadcastInDim S650000x1 ![0] bcast_S650000_S650000x1_0 (rowR' a))
    (broadcastInDim S650000 ![] bcast_S_S650000 (constant (F := F) S_ .f32 0x3F800000#32))

/-- One over the root of the floored count, zero where the count is not positive. -/
def dinvR' (a : IVec S2x600000 32) : FVec F S50000 .f32 :=
  select
    (cmpf .ogt (degR' (F := F) a) (broadcastInDim S50000 ![] bcast_S_S50000 (constant (F := F) S_ .f32 0x00000000#32)))
    (Host.rsqrt (maximumf (degR' (F := F) a) (broadcastInDim S50000 ![] bcast_S_S50000 (constant (F := F) S_ .f32 0x2B8CBCCC#32))))
    (broadcastInDim S50000 ![] bcast_S_S50000 (id (constant (F := F) S_ .f32 0x00000000#32)))

/-- An item node word with the node count added where it reads negative. -/
def wrapR' (x : IVec S650000 32) : IVec S650000 32 :=
  select (cmpi .slt x (broadcastInDim S650000 ![] bcast_S_S650000 (constantI S_ 32 0#32)))
    (addi x (broadcastInDim S650000 ![] bcast_S_S650000 (constantI S_ 32 50000#32))) x

/-- A per-node value read at each (wrapped) word of a list. -/
def lookR' (t : FVec F S50000 .f32) (x : IVec S650000 32) : FVec F S650000 .f32 :=
  Host.gather gather_S50000_S650000x1_S650000_n_0_n_n_0_1_1 t
    (broadcastInDim S650000x1 ![0] bcast_S650000_S650000x1_0 (wrapR' x))

/-- The items' edge weights. -/
def normR' (a : IVec S2x600000 32) : FVec F S650000 .f32 :=
  mulf (lookR' (dinvR' (F := F) a) (rowR' a)) (lookR' (dinvR' (F := F) a) (colR' a))

/-! ## The reference's last operations, per layer

Stated for any float values: the operations are the same text at every instance; the layer law below is at the ideal one. -/

/-- The users' layer from its target words, source words, weights, table and bias. -/
def refOutU (row col : IVec S1300000 32) (norm : FVec F S1300000 .f32) (W : FVec F S100000x64 .f32)
    (b : FVec F S64 .f32) : FVec F S100000x64 .f32 :=
  maximumf
    (addf
      (Host.scatterAdd scatter_S100000x64_S1300000x1_S1300000x64_1_0_0_1
        (broadcastInDim S100000x64 ![] bcast_S_S100000x64 (constant (F := F) S_ .f32 0x00000000#32))
        (broadcastInDim S1300000x1 ![0] bcast_S1300000_S1300000x1_0 row)
        (mulf
          (Host.gather gather_S100000x64_S1300000x1_S1300000x64_1_0_n_n_0_1_164 W
            (broadcastInDim S1300000x1 ![0] bcast_S1300000_S1300000x1_0
              (select (cmpi .slt col (broadcastInDim S1300000 ![] bcast_S_S1300000 (constantI S_ 32 0#32)))
                (addi col (broadcastInDim S1300000 ![] bcast_S_S1300000 (constantI S_ 32 100000#32))) col)))
          (broadcastInDim S1300000x64 ![0, 1] bcast_S1300000x1_S1300000x64_0_1
            (broadcastInDim S1300000x1 ![0] bcast_S1300000_S1300000x1_0 norm))))
      (broadcastInDim S100000x64 ![0, 1] bcast_S1x64_S100000x64_0_1 (broadcastInDim S1x64 ![1] bcast_S64_S1x64_1 b)))
    (broadcastInDim S100000x64 ![] bcast_S_S100000x64 (constant (F := F) S_ .f32 0x00000000#32))

/-- The items' layer from its target words, source words, weights, table and bias. -/
def refOutI (row col : IVec S650000 32) (norm : FVec F S650000 .f32) (W : FVec F S50000x64 .f32)
    (b : FVec F S64 .f32) : FVec F S50000x64 .f32 :=
  maximumf
    (addf
      (Host.scatterAdd scatter_S50000x64_S650000x1_S650000x64_1_0_0_1
        (broadcastInDim S50000x64 ![] bcast_S_S50000x64 (constant (F := F) S_ .f32 0x00000000#32))
        (broadcastInDim S650000x1 ![0] bcast_S650000_S650000x1_0 row)
        (mulf
          (Host.gather gather_S50000x64_S650000x1_S650000x64_1_0_n_n_0_1_164 W
            (broadcastInDim S650000x1 ![0] bcast_S650000_S650000x1_0
              (select (cmpi .slt col (broadcastInDim S650000 ![] bcast_S_S650000 (constantI S_ 32 0#32)))
                (addi col (broadcastInDim S650000 ![] bcast_S_S650000 (constantI S_ 32 50000#32))) col)))
          (broadcastInDim S650000x64 ![0, 1] bcast_S650000x1_S650000x64_0_1
            (broadcastInDim S650000x1 ![0] bcast_S650000_S650000x1_0 norm))))
      (broadcastInDim S50000x64 ![0, 1] bcast_S1x64_S50000x64_0_1 (broadcastInDim S1x64 ![1] bcast_S64_S1x64_1 b)))
    (broadcastInDim S50000x64 ![] bcast_S_S50000x64 (constant (F := F) S_ .f32 0x00000000#32))

/-- With no source word negative, the users' layer of the reference is the specification's. -/
theorem refOutU_eq (row col : IVec S1300000 32) (norm : FVec Ideal S1300000 .f32) (W : FVec Ideal S100000x64 .f32)
    (b : FVec Ideal S64 .f32)
    (hcol : ∀ e : Fin 1300000, 0 ≤ (col (ix1 e)).toInt ∧ (col (ix1 e)).toInt < 100000) :
    refOutU row col norm W b = layerOf (by decide : 0 < 100000) row col norm W b :=
  layerTerm_eq (N := 100000) (M := 1300000) bcast_S_S1300000 bcast_S1300000_S1300000x1_0
    bcast_S1300000x1_S1300000x64_0_1 bcast_S_S100000x64 bcast_S64_S1x64_1 bcast_S1x64_S100000x64_0_1
    gather_S100000x64_S1300000x1_S1300000x64_1_0_n_n_0_1_164_wf scatter_S100000x64_S1300000x1_S1300000x64_1_0_0_1_wf
    100000#32 (by decide) (by decide) row col norm W b (fun e => (hcol e).1)

/-- With no source word negative, the items' layer of the reference is the specification's. -/
theorem refOutI_eq (row col : IVec S650000 32) (norm : FVec Ideal S650000 .f32) (W : FVec Ideal S50000x64 .f32)
    (b : FVec Ideal S64 .f32)
    (hcol : ∀ e : Fin 650000, 0 ≤ (col (ix1 e)).toInt ∧ (col (ix1 e)).toInt < 50000) :
    refOutI row col norm W b = layerOf (by decide : 0 < 50000) row col norm W b :=
  layerTerm_eq (N := 50000) (M := 650000) bcast_S_S650000 bcast_S650000_S650000x1_0
    bcast_S650000x1_S650000x64_0_1 bcast_S_S50000x64 bcast_S64_S1x64_1 bcast_S1x64_S50000x64_0_1
    gather_S50000x64_S650000x1_S650000x64_1_0_n_n_0_1_164_wf scatter_S50000x64_S650000x1_S650000x64_1_0_0_1_wf
    50000#32 (by decide) (by decide) row col norm W b (fun e => (hcol e).1)

/-! ## The reference's run, in these terms

The generated run states each result at the operations' composed term of the arguments. That term is the layer above
at the reference's own target words, source words and weights: the two sides are the same operations in the same
order, one spelt out and one through the names of this file. The comparison is made for any float values (it opens
no float operation), then used at the ideal ones. -/

section Run

set_option maxRecDepth 8192 in
/-- The first result of the run is the users' layer. -/
theorem res_out0_eq (m : (ℓ : Loc nD τ sig) → Buf (Elt F) ℓ) (c : Dev nD) :
    Value.res_out0 (F := F) m c
      = refOutU (rowR (m ((c.tc : Thread nD τ).loc main_arg0))) (colR (m ((c.tc : Thread nD τ).loc main_arg0)))
          (normR (F := F) (m ((c.tc : Thread nD τ).loc main_arg0)))
          (m ((c.tc : Thread nD τ).loc main_arg2)) (m ((c.tc : Thread nD τ).loc main_arg3)) := by
  unfold Value.res_out0 Value.res_main_v48
  rfl

set_option maxRecDepth 8192 in
/-- The second result of the run is the items' layer. -/
theorem res_out1_eq (m : (ℓ : Loc nD τ sig) → Buf (Elt F) ℓ) (c : Dev nD) :
    Value.res_out1 (F := F) m c
      = refOutI (rowR' (m ((c.tc : Thread nD τ).loc main_arg1))) (colR' (m ((c.tc : Thread nD τ).loc main_arg1)))
          (normR' (F := F) (m ((c.tc : Thread nD τ).loc main_arg1)))
          (m ((c.tc : Thread nD τ).loc main_arg4)) (m ((c.tc : Thread nD τ).loc main_arg5)) := by
  unfold Value.res_out1 Value.res_main_v97
  rfl

/-- Every weakly fair execution of the reference ends with its two results at the two layers of the reference's own
    lists, and its six arguments as they were. -/
theorem ref_run (m : (ℓ : Loc nD τ sig) → Buf (Elt Ideal) ℓ) (ρ : Dev nD → PrngReg) :
    θ_run defs (onTc (τ := τ) (main (F := Ideal))) ⟨m, fun _ => 0, ρ⟩ fun r => ∀ c : Dev nD,
      r.2.mem ((c.tc : Thread nD τ).loc main_v48)
        = refOutU (rowR (m ((c.tc : Thread nD τ).loc main_arg0))) (colR (m ((c.tc : Thread nD τ).loc main_arg0)))
            (normR (F := Ideal) (m ((c.tc : Thread nD τ).loc main_arg0)))
            (m ((c.tc : Thread nD τ).loc main_arg2)) (m ((c.tc : Thread nD τ).loc main_arg3))
      ∧ r.2.mem ((c.tc : Thread nD τ).loc main_v97)
        = refOutI (rowR' (m ((c.tc : Thread nD τ).loc main_arg1))) (colR' (m ((c.tc : Thread nD τ).loc main_arg1)))
            (normR' (F := Ideal) (m ((c.tc : Thread nD τ).loc main_arg1)))
            (m ((c.tc : Thread nD τ).loc main_arg4)) (m ((c.tc : Thread nD τ).loc main_arg5))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5) :=
  (θ_run defs _ _).mono
    (fun _ h c => ⟨(h c).1.trans (res_out0_eq m c), (h c).2.1.trans (res_out1_eq m c), (h c).2.2⟩)
    (Value.run m ρ)

end Run

end Cert.ReferenceIdeal.RefValue

end
-- ==== Proof.lean ====
/-
  Two graph-convolution layers (users: 100000 nodes, items: 50000 nodes), each
      out = max (D^(-1/2) (A + I) D^(-1/2) W + b, 0)
  over an edge list extended by one self loop per node. The kernel's program computes each layer in two grid
  passes — the rows of W picked by a one-hot matrix product and scaled by the edge weight, then those messages summed
  into their target nodes by a second one-hot product, the bias added and the result clipped at zero at the last step —
  over lists padded with zero-weight entries to a multiple of the block length; the reference looks the rows up and
  adds them up directly. Over the extended reals, with every source word naming a node, both are the one function
  `Cert.Gcn.layerOf` of the argument arrays: a sum against the indicator of a word is the lookup at that word, an entry
  of weight zero adds nothing, and a sum taken block by block is the sum. The degree, its inverse root and the edge
  weights are the same host operations in both programs and are carried as one term.

  The three frames are the generated frame certificates (the reference's being its run with the results dropped);
  the idealization rewrote nothing, so `preserves` asks nothing.
-/
import proofs.«158019_j83202106458211_1_alg».proof.Defs
import proofs.«158019_j83202106458211_1_alg».proof.Proof.Gen.Kernel
import proofs.«158019_j83202106458211_1_alg».proof.Proof.Gen.Kernel.Skeleton
import proofs.«158019_j83202106458211_1_alg».proof.Proof.Gen.Kernel.Loops
import proofs.«158019_j83202106458211_1_alg».proof.Proof.Gen.Kernel.Launch
import proofs.«158019_j83202106458211_1_alg».proof.Proof.Gen.Kernel.Points
import proofs.«158019_j83202106458211_1_alg».proof.Proof.Gen.Kernel.Frame
import proofs.«158019_j83202106458211_1_alg».proof.Proof.Gen.KernelIdeal
import proofs.«158019_j83202106458211_1_alg».proof.Proof.Gen.KernelIdeal.Skeleton
import proofs.«158019_j83202106458211_1_alg».proof.Proof.Gen.KernelIdeal.Loops
import proofs.«158019_j83202106458211_1_alg».proof.Proof.Gen.KernelIdeal.Launch
import proofs.«158019_j83202106458211_1_alg».proof.Proof.Gen.KernelIdeal.Points
import proofs.«158019_j83202106458211_1_alg».proof.Proof.Gen.KernelIdeal.Frame
import proofs.«158019_j83202106458211_1_alg».proof.Proof.Gen.ReferenceIdeal
import proofs.«158019_j83202106458211_1_alg».proof.Proof.Gen.Pre_finite_inputs
import proofs.«158019_j83202106458211_1_alg».proof.Proof.RunValues
import proofs.«158019_j83202106458211_1_alg».proof.Proof.LayerValue
import proofs.«158019_j83202106458211_1_alg».proof.Proof.PreDecode
import proofs.«158019_j83202106458211_1_alg».proof.Proof.RefSide
import Idealize.ShloMosaic.Adequacy
import Idealize.ShloMosaic.Init

noncomputable section

namespace Cert.Proof

open Idealize.ShloMosaic Idealize.ShloMosaic.TcCoe Idealize.SL.Sem Idealize.ShloMosaic.ValueIdx Cert.Gcn
open Cert.KernelIdeal.HostTerms Cert.KernelIdeal.HostRead Cert.ReferenceIdeal.RefValue

/-! ## The reference's first operations are the kernel program's

Targets, sources, degrees, inverse roots and weights are computed by the same host operations in both programs;
each pair of terms is one composition spelt twice. -/

section Shared

variable {F : FTy → Type} [FloatOps F]

theorem rowR_eq (a : IVec Cert.KernelIdeal.S2x1200000 32) : rowR a = rowU a := rfl
theorem colR_eq (a : IVec Cert.KernelIdeal.S2x1200000 32) : colR a = colU a := rfl
theorem degR_eq (a : IVec Cert.KernelIdeal.S2x1200000 32) : degR (F := F) a = degU (F := F) a := rfl
theorem dinvR_eq (a : IVec Cert.KernelIdeal.S2x1200000 32) : dinvR (F := F) a = dinvU (F := F) a := rfl
theorem normR_eq (a : IVec Cert.KernelIdeal.S2x1200000 32) : normR (F := F) a = normU (F := F) a := rfl

theorem rowR'_eq (a : IVec Cert.KernelIdeal.S2x600000 32) : rowR' a = rowI a := rfl
theorem colR'_eq (a : IVec Cert.KernelIdeal.S2x600000 32) : colR' a = colI a := rfl
theorem degR'_eq (a : IVec Cert.KernelIdeal.S2x600000 32) : degR' (F := F) a = degI (F := F) a := rfl
theorem dinvR'_eq (a : IVec Cert.KernelIdeal.S2x600000 32) : dinvR' (F := F) a = dinvI (F := F) a := rfl
theorem normR'_eq (a : IVec Cert.KernelIdeal.S2x600000 32) : normR' (F := F) a = normI (F := F) a := rfl

/-- The source column the precondition speaks of is the one the programs slice out of the edge array. -/
theorem colRaw0_eq (a : IVec Cert.KernelIdeal.S2x1200000 32) : Cert.KernelIdeal.PreDecode.colRaw0 a = colRawU a := rfl
theorem colRaw1_eq (a : IVec Cert.KernelIdeal.S2x600000 32) : Cert.KernelIdeal.PreDecode.colRaw1 a = colRawI a := rfl

end Shared

/-! ## The two layers as functions of the kernel program's launch memory -/

/-- The users' layer of the launch memory's arguments, on core `c`. -/
def userLayer (m : (ℓ : Loc Cert.KernelIdeal.nD Cert.KernelIdeal.τ Cert.KernelIdeal.sig) → Buf (Elt Ideal) ℓ) (c : Dev Cert.KernelIdeal.nD) :
    Buf (Elt Ideal) ((c.tc : Thread Cert.KernelIdeal.nD Cert.KernelIdeal.τ).loc Cert.KernelIdeal.main_v38) :=
  layerOf (by decide : 0 < 100000) (rowU (m ((c.tc : Thread Cert.KernelIdeal.nD Cert.KernelIdeal.τ).loc Cert.KernelIdeal.main_arg0)))
    (colU (m ((c.tc : Thread Cert.KernelIdeal.nD Cert.KernelIdeal.τ).loc Cert.KernelIdeal.main_arg0)))
    (normU (F := Ideal) (m ((c.tc : Thread Cert.KernelIdeal.nD Cert.KernelIdeal.τ).loc Cert.KernelIdeal.main_arg0)))
    (m ((c.tc : Thread Cert.KernelIdeal.nD Cert.KernelIdeal.τ).loc Cert.KernelIdeal.main_arg2))
    (m ((c.tc : Thread Cert.KernelIdeal.nD Cert.KernelIdeal.τ).loc Cert.KernelIdeal.main_arg3))

/-- The items' layer of the launch memory's arguments, on core `c`. -/
def itemLayer (m : (ℓ : Loc Cert.KernelIdeal.nD Cert.KernelIdeal.τ Cert.KernelIdeal.sig) → Buf (Elt Ideal) ℓ) (c : Dev Cert.KernelIdeal.nD) :
    Buf (Elt Ideal) ((c.tc : Thread Cert.KernelIdeal.nD Cert.KernelIdeal.τ).loc Cert.KernelIdeal.main_v77) :=
  layerOf (by decide : 0 < 50000) (rowI (m ((c.tc : Thread Cert.KernelIdeal.nD Cert.KernelIdeal.τ).loc Cert.KernelIdeal.main_arg1)))
    (colI (m ((c.tc : Thread Cert.KernelIdeal.nD Cert.KernelIdeal.τ).loc Cert.KernelIdeal.main_arg1)))
    (normI (F := Ideal) (m ((c.tc : Thread Cert.KernelIdeal.nD Cert.KernelIdeal.τ).loc Cert.KernelIdeal.main_arg1)))
    (m ((c.tc : Thread Cert.KernelIdeal.nD Cert.KernelIdeal.τ).loc Cert.KernelIdeal.main_arg4))
    (m ((c.tc : Thread Cert.KernelIdeal.nD Cert.KernelIdeal.τ).loc Cert.KernelIdeal.main_arg5))

/-- Under the precondition every given source word names a node, in both edge arrays. -/
theorem sources_in_range (m : (ℓ : Loc Cert.KernelIdeal.nD Cert.KernelIdeal.τ Cert.KernelIdeal.sig) → Buf (Elt Ideal) ℓ)
    (hpre : Cert.Pre_KernelIdeal m) (c : Dev Cert.KernelIdeal.nD) :
    (∀ e : Fin 1200000, 0 ≤ (colRawU (m ((c.tc : Thread Cert.KernelIdeal.nD Cert.KernelIdeal.τ).loc Cert.KernelIdeal.main_arg0)) (ix1 e)).toInt
        ∧ (colRawU (m ((c.tc : Thread Cert.KernelIdeal.nD Cert.KernelIdeal.τ).loc Cert.KernelIdeal.main_arg0)) (ix1 e)).toInt < 100000)
    ∧ (∀ e : Fin 600000, 0 ≤ (colRawI (m ((c.tc : Thread Cert.KernelIdeal.nD Cert.KernelIdeal.τ).loc Cert.KernelIdeal.main_arg1)) (ix1 e)).toInt
        ∧ (colRawI (m ((c.tc : Thread Cert.KernelIdeal.nD Cert.KernelIdeal.τ).loc Cert.KernelIdeal.main_arg1)) (ix1 e)).toInt < 50000) :=
  Cert.KernelIdeal.PreDecode.col_in_range _ _ _ _ _ _ (hpre c)

/-! ## The claims -/

theorem frame_k : Cert.frame_Kernel := fun m ρ _ => Cert.Kernel.Gen.frame m ρ

theorem frame_ki : Cert.frame_KernelIdeal := fun m ρ _ => Cert.KernelIdeal.Gen.frame m ρ

/-- The reference's frame is its run with the two results dropped. -/
theorem frame_ri : Cert.frame_ReferenceIdeal := fun m ρ _ =>
  (θ_run Cert.ReferenceIdeal.defs _ _).mono (fun _ h c => (h c).2.2) (Cert.ReferenceIdeal.RefValue.ref_run m ρ)

/-- The kernel's program ends with the two layers of its arguments in its result buffers. -/
theorem kernel_run (m : (ℓ : Loc Cert.KernelIdeal.nD Cert.KernelIdeal.τ Cert.KernelIdeal.sig) → Buf (Elt Ideal) ℓ)
    (ρ : Dev Cert.KernelIdeal.nD → PrngReg) (hpre : Cert.Pre_KernelIdeal m) :
    θ_run (Cert.KernelIdeal.defs (F := Ideal)) (onTc (τ := Cert.KernelIdeal.τ) (Cert.KernelIdeal.main (F := Ideal))) ⟨m, fun _ => 0, ρ⟩
      (fun r => ∀ c : Dev Cert.KernelIdeal.nD,
        r.2.mem ((c.tc : Thread Cert.KernelIdeal.nD Cert.KernelIdeal.τ).loc Cert.KernelIdeal.main_v38) = userLayer m c
        ∧ r.2.mem ((c.tc : Thread Cert.KernelIdeal.nD Cert.KernelIdeal.τ).loc Cert.KernelIdeal.main_v77) = itemLayer m c
        ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
        ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
        ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
        ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
        ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
        ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)) :=
  (θ_run Cert.KernelIdeal.defs _ _).mono
    (fun _ h c => ⟨(h c).1.trans (Cert.KernelIdeal.LayerValue.user_layer m ρ c (sources_in_range m hpre c).1),
      (h c).2.1.trans (Cert.KernelIdeal.LayerValue.item_layer m ρ c (sources_in_range m hpre c).2), (h c).2.2⟩)
    (Cert.KernelIdeal.RunValues.run_values (F := Ideal) m ρ)

/-- Run from memories that agree on the arguments, both programs end with the two layers of those arguments. -/
theorem algebraic : Cert.algebraic_KernelIdeal_ReferenceIdeal := by
  intro m ρ m' ρ' hpre hagree
  refine ⟨userLayer m, itemLayer m, kernel_run m ρ hpre, ?_⟩
  refine (θ_run Cert.ReferenceIdeal.defs _ _).mono (fun _ h c => ⟨(h c).1.trans ?_, (h c).2.1.trans ?_, (h c).2.2⟩)
    (Cert.ReferenceIdeal.RefValue.ref_run m' ρ')
  · obtain ⟨e0, -, e2, e3, -, -⟩ := hagree c
    rw [e0, e2, e3, refOutU_eq _ _ _ _ _ (by rw [colR_eq]; exact colU_in_range _ (sources_in_range m hpre c).1),
      rowR_eq, colR_eq, normR_eq]
    rfl
  · obtain ⟨-, e1, -, -, e4, e5⟩ := hagree c
    rw [e1, e4, e5, refOutI_eq _ _ _ _ _ (by rw [colR'_eq]; exact colI_in_range _ (sources_in_range m hpre c).2),
      rowR'_eq, colR'_eq, normR'_eq]
    rfl

theorem claim : Cert.Claim :=
  ⟨Cert.Kernel.Gen.facts, Cert.KernelIdeal.Gen.facts, Cert.ReferenceIdeal.Gen.facts, Cert.Pre_finite_inputs.Gen.facts,
    frame_k, frame_ki, frame_ri, trivial, algebraic⟩

end Cert.Proof

end
